-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v58)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v58) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v97) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S40000x7 : Shape := ⟨2, ![40000, 7]⟩
abbrev S2x640000 : Shape := ⟨2, ![2, 640000]⟩
abbrev S40000 : Shape := ⟨1, ![40000]⟩
abbrev S7x128 : Shape := ⟨2, ![7, 128]⟩
abbrev S128 : Shape := ⟨1, ![128]⟩
abbrev S128x128 : Shape := ⟨2, ![128, 128]⟩
abbrev S128x2 : Shape := ⟨2, ![128, 2]⟩
abbrev S2 : Shape := ⟨1, ![2]⟩
abbrev S_ : Shape := ⟨0, ![]⟩

class Facts : Prop where
  bcast_S_S40000x7 : S_.BroadcastsInDim S40000x7 (![] : Fin 0 → Fin S40000x7.rank)
  reducesTo_S40000x7_S_d0_1 : S40000x7.ReducesTo [0, 1] S_
  h_S_ : 0 < S_.numel
  bcast_S_S7x128 : S_.BroadcastsInDim S7x128 (![] : Fin 0 → Fin S7x128.rank)
  reducesTo_S7x128_S_d0_1 : S7x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x2 : S_.BroadcastsInDim S128x2 (![] : Fin 0 → Fin S128x2.rank)
  reducesTo_S128x2_S_d0_1 : S128x2.ReducesTo [0, 1] S_
  bcast_S_S2 : S_.BroadcastsInDim S2 (![] : Fin 0 → Fin S2.rank)
  reducesTo_S2_S_d0 : S2.ReducesTo [0] S_

variable [Facts]

def fn_part2 {F : FTy → Type} [FloatOps F] (main_arg9 : FVec F S128x2 .f32) (main_arg10 : FVec F S2 .f32) (main_v33 : IVec S_ 1) : IVec S_ 1 :=
  let main_v34 : FVec F S128x2 .f32 := Host.absf main_arg9
  let main_cst_12 : FVec F S_ .f32 := constant S_ .f32 0x7F800000#32
  let main_v35 : FVec F S128x2 .f32 := broadcastInDim S128x2 ![] bcast_S_S128x2 main_cst_12
  let main_v36 : IVec S128x2 1 := cmpf .olt main_v34 main_v35
  let main_c_13 : IVec S_ 1 := constantI S_ 1 1#1
  let main_v37 : IVec S_ 1 := (fun x v => Host.reduce IntOp.andi x v reducesTo_S128x2_S_d0_1 h_S_) main_v36 main_c_13
  let main_v38 : IVec S_ 1 := andi main_v33 main_v37
  let main_v39 : FVec F S2 .f32 := Host.absf main_arg10
  let main_cst_14 : FVec F S_ .f32 := constant S_ .f32 0x7F800000#32
  let main_v40 : FVec F S2 .f32 := broadcastInDim S2 ![] bcast_S_S2 main_cst_14
  let main_v41 : IVec S2 1 := cmpf .olt main_v39 main_v40
  let main_c_15 : IVec S_ 1 := constantI S_ 1 1#1
  let main_v42 : IVec S_ 1 := (fun x v => Host.reduce IntOp.andi x v reducesTo_S2_S_d0 h_S_) main_v41 main_c_15
  let main_v43 : IVec S_ 1 := andi main_v38 main_v42
  main_v43

def fn_part1 {F : FTy → Type} [FloatOps F] (main_arg6 : FVec F S128 .f32) (main_arg7 : FVec F S128x128 .f32) (main_arg8 : FVec F S128 .f32) (main_arg9 : FVec F S128x2 .f32) (main_arg10 : FVec F S2 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_v33

def fn {F : FTy → Type} [FloatOps F] (main_arg0 : FVec F S40000x7 .f32) (main_arg1 : IVec S2x640000 32) (main_arg2 : IVec S40000 32) (main_arg3 : FVec F S7x128 .f32) (main_arg4 : FVec F S128 .f32) (main_arg5 : FVec F S128x128 .f32) (main_arg6 : FVec F S128 .f32) (main_arg7 : FVec F S128x128 .f32) (main_arg8 : FVec F S128 .f32) (main_arg9 : FVec F S128x2 .f32) (main_arg10 : FVec F S2 .f32) : IVec S_ 1 :=
  let main_v0 : FVec F S40000x7 .f32 := Host.absf main_arg0
  let main_cst : FVec F S_ .f32 := constant S_ .f32 0x7F800000#32
  let main_v1 : FVec F S40000x7 .f32 := broadcastInDim S40000x7 ![] bcast_S_S40000x7 main_cst
  let main_v2 : IVec S40000x7 1 := cmpf .olt main_v0 main_v1
  let main_c : IVec S_ 1 := constantI S_ 1 1#1
  let main_v3 : IVec S_ 1 := (fun x v => Host.reduce IntOp.andi x v reducesTo_S40000x7_S_d0_1 h_S_) main_v2 main_c
  let main_v4 : FVec F S7x128 .f32 := Host.absf main_arg3
  let main_cst_0 : FVec F S_ .f32 := constant S_ .f32 0x7F800000#32
  let main_v5 : FVec F S7x128 .f32 := broadcastInDim S7x128 ![] bcast_S_S7x128 main_cst_0
  let main_v6 : IVec S7x128 1 := cmpf .olt main_v4 main_v5
  let main_c_1 : IVec S_ 1 := constantI S_ 1 1#1
  let main_v7 : IVec S_ 1 := (fun x v => Host.reduce IntOp.andi x v reducesTo_S7x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_arg9 main_arg10 main_v13 main_v16
-- ==== Kernel.lean ====
abbrev S40000x7 : Shape := ⟨2, ![40000, 7]⟩
abbrev S2x640000 : Shape := ⟨2, ![2, 640000]⟩
abbrev S40000 : Shape := ⟨1, ![40000]⟩
abbrev S7x128 : Shape := ⟨2, ![7, 128]⟩
abbrev S128 : Shape := ⟨1, ![128]⟩
abbrev S128x128 : Shape := ⟨2, ![128, 128]⟩
abbrev S128x2 : Shape := ⟨2, ![128, 2]⟩
abbrev S2 : Shape := ⟨1, ![2]⟩
abbrev S1x640000 : Shape := ⟨2, ![1, 640000]⟩
abbrev S640000 : Shape := ⟨1, ![640000]⟩
abbrev S680000 : Shape := ⟨1, ![680000]⟩
abbrev S_ : Shape := ⟨0, ![]⟩
abbrev S680000x1 : Shape := ⟨2, ![680000, 1]⟩
abbrev S40000x1 : Shape := ⟨2, ![40000, 1]⟩
abbrev S40000x128 : Shape := ⟨2, ![40000, 128]⟩
abbrev S5000x7 : Shape := ⟨2, ![5000, 7]⟩
abbrev S5000x1 : Shape := ⟨2, ![5000, 1]⟩
abbrev S5000x128 : Shape := ⟨2, ![5000, 128]⟩
abbrev S680000x128 : Shape := ⟨2, ![680000, 128]⟩
abbrev S1x128 : Shape := ⟨2, ![1, 128]⟩
abbrev S64x128 : Shape := ⟨2, ![64, 128]⟩
abbrev S64x1 : Shape := ⟨2, ![64, 1]⟩
abbrev S5000x64 : Shape := ⟨2, ![5000, 64]⟩
abbrev S64x5000 : Shape := ⟨2, ![64, 5000]⟩
abbrev S64 : Shape := ⟨1, ![64]⟩
abbrev S64x2 : Shape := ⟨2, ![64, 2]⟩
abbrev S1x2 : Shape := ⟨2, ![1, 2]⟩

abbrev nBuf : Space → Nat
  | .hbm => 84
  | .vmem => 36
  | .smem => 0
  | _ => 0

abbrev bufTy : (tb : Table) → Fin (tcTables nBuf tb) → BufTy
  | .hbm, ⟨0, _⟩ => ⟨S40000x7, .f32⟩
  | .hbm, ⟨1, _⟩ => ⟨S2x640000, .i32⟩
  | .hbm, ⟨2, _⟩ => ⟨S40000, .i32⟩
  | .hbm, ⟨3, _⟩ => ⟨S7x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x2, .f32⟩
  | .hbm, ⟨10, _⟩ => ⟨S2, .f32⟩
  | .hbm, ⟨11, _⟩ => ⟨S40000, .i32⟩
  | .hbm, ⟨12, _⟩ => ⟨S1x640000, .i32⟩
  | .hbm, ⟨13, _⟩ => ⟨S640000, .i32⟩
  | .hbm, ⟨14, _⟩ => ⟨S680000, .i32⟩
  | .hbm, ⟨15, _⟩ => ⟨S1x640000, .i32⟩
  | .hbm, ⟨16, _⟩ => ⟨S640000, .i32⟩
  | .hbm, ⟨17, _⟩ => ⟨S680000, .i32⟩
  | .hbm, ⟨18, _⟩ => ⟨S_, .f32⟩
  | .hbm, ⟨19, _⟩ => ⟨S680000, .f32⟩
  | .hbm, ⟨20, _⟩ => ⟨S_, .f32⟩
  | .hbm, ⟨21, _⟩ => ⟨S40000, .f32⟩
  | .hbm, ⟨22, _⟩ => ⟨S680000x1, .i32⟩
  | .hbm, ⟨23, _⟩ => ⟨S40000, .f32⟩
  | .hbm, ⟨24, _⟩ => ⟨S_, .f32⟩
  | .hbm, ⟨25, _⟩ => ⟨S40000, .f32⟩
  | .hbm, ⟨26, _⟩ => ⟨S40000, .f32⟩
  | .hbm, ⟨27, _⟩ => ⟨S40000, .f32⟩
  | .hbm, ⟨28, _⟩ => ⟨S40000x1, .f32⟩
  | .hbm, ⟨29, _⟩ => ⟨S40000x128, .f32⟩
  | .hbm, ⟨30, _⟩ => ⟨S_, .i32⟩
  | .hbm, ⟨31, _⟩ => ⟨S680000, .i32⟩
  | .hbm, ⟨32, _⟩ => ⟨S680000, .i1⟩
  | .hbm, ⟨33, _⟩ => ⟨S_, .i32⟩
  | .hbm, ⟨34, _⟩ => ⟨S680000, .i32⟩
  | .hbm, ⟨35, _⟩ => ⟨S680000, .i32⟩
  | .hbm, ⟨36, _⟩ => ⟨S680000, .i32⟩
  | .hbm, ⟨37, _⟩ => ⟨S680000x1, .i32⟩
  | .hbm, ⟨38, _⟩ => ⟨S680000x128, .f32⟩
  | .hbm, ⟨39, _⟩ => ⟨S_, .f32⟩
  | .hbm, ⟨40, _⟩ => ⟨S40000x128, .f32⟩
  | .hbm, ⟨41, _⟩ => ⟨S680000x1, .i32⟩
  | .hbm, ⟨42, _⟩ => ⟨S40000x128, .f32⟩
  | .hbm, ⟨43, _⟩ => ⟨S40000x128, .f32⟩
  | .hbm, ⟨44, _⟩ => ⟨S_, .i32⟩
  | .hbm, ⟨45, _⟩ => ⟨S680000, .i32⟩
  | .hbm, ⟨46, _⟩ => ⟨S680000, .i1⟩
  | .hbm, ⟨47, _⟩ => ⟨S_, .i32⟩
  | .hbm, ⟨48, _⟩ => ⟨S680000, .i32⟩
  | .hbm, ⟨49, _⟩ => ⟨S680000, .i32⟩
  | .hbm, ⟨50, _⟩ => ⟨S680000, .i32⟩
  | .hbm, ⟨51, _⟩ => ⟨S680000x1, .i32⟩
  | .hbm, ⟨52, _⟩ => ⟨S680000x128, .f32⟩
  | .hbm, ⟨53, _⟩ => ⟨S_, .f32⟩
  | .hbm, ⟨54, _⟩ => ⟨S40000x128, .f32⟩
  | .hbm, ⟨55, _⟩ => ⟨S680000x1, .i32⟩
  | .hbm, ⟨56, _⟩ => ⟨S40000x128, .f32⟩
  | .hbm, ⟨57, _⟩ => ⟨S40000x128, .f32⟩
  | .hbm, ⟨58, _⟩ => ⟨S_, .i32⟩
  | .hbm, ⟨59, _⟩ => ⟨S680000, .i32⟩
  | .hbm, ⟨60, _⟩ => ⟨S680000, .i1⟩
  | .hbm, ⟨61, _⟩ => ⟨S_, .i32⟩
  | .hbm, ⟨62, _⟩ => ⟨S680000, .i32⟩
  | .hbm, ⟨63, _⟩ => ⟨S680000, .i32⟩
  | .hbm, ⟨64, _⟩ => ⟨S680000, .i32⟩
  | .hbm, ⟨65, _⟩ => ⟨S680000x1, .i32⟩
  | .hbm, ⟨66, _⟩ => ⟨S680000x128, .f32⟩
  | .hbm, ⟨67, _⟩ => ⟨S_, .f32⟩
  | .hbm, ⟨68, _⟩ => ⟨S40000x128, .f32⟩
  | .hbm, ⟨69, _⟩ => ⟨S680000x1, .i32⟩
  | .hbm, ⟨70, _⟩ => ⟨S40000x128, .f32⟩
  | .hbm, ⟨71, _⟩ => ⟨S40000x128, .f32⟩
  | .hbm, ⟨72, _⟩ => ⟨S40000x1, .i32⟩
  | .hbm, ⟨73, _⟩ => ⟨S64x128, .f32⟩
  | .hbm, ⟨74, _⟩ => ⟨S64x1, .f32⟩
  | .hbm, ⟨75, _⟩ => ⟨S_, .f32⟩
  | .hbm, ⟨76, _⟩ => ⟨S64x1, .f32⟩
  | .hbm, ⟨77, _⟩ => ⟨S64x1, .f32⟩
  | .hbm, ⟨78, _⟩ => ⟨S64x128, .f32⟩
  | .hbm, ⟨79, _⟩ => ⟨S64x128, .f32⟩
  | .hbm, ⟨80, _⟩ => ⟨S64x2, .f32⟩
  | .hbm, ⟨81, _⟩ => ⟨S1x2, .f32⟩
  | .hbm, ⟨82, _⟩ => ⟨S64x2, .f32⟩
  | .hbm, ⟨83, _⟩ => ⟨S64x2, .f32⟩
  | .local _ .vmem, ⟨0, _⟩ => ⟨S5000x7, .f32⟩
  | .local _ .vmem, ⟨1, _⟩ => ⟨S5000x7, .f32⟩
  | .local _ .vmem, ⟨2, _⟩ => ⟨S7x128, .f32⟩
  | .local _ .vmem, ⟨3, _⟩ => ⟨S5000x1, .f32⟩
  | .local _ .vmem, ⟨4, _⟩ => ⟨S5000x1, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x1, .f32⟩
  | .local _ .vmem, ⟨10, _⟩ => ⟨S5000x1, .f32⟩
  | .local _ .vmem, ⟨11, _⟩ => ⟨S128, .f32⟩
  | .local _ .vmem, ⟨12, _⟩ => ⟨S128x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S5000x1, .f32⟩
  | .local _ .vmem, ⟨18, _⟩ => ⟨S5000x1, .f32⟩
  | .local _ .vmem, ⟨19, _⟩ => ⟨S128, .f32⟩
  | .local _ .vmem, ⟨20, _⟩ => ⟨S128x128, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S5000x128, .f32⟩
  | .local _ .vmem, ⟨25, _⟩ => ⟨S5000x1, .f32⟩
  | .local _ .vmem, ⟨26, _⟩ => ⟨S5000x1, .f32⟩
  | .local _ .vmem, ⟨27, _⟩ => ⟨S128, .f32⟩
  | .local _ .vmem, ⟨28, _⟩ => ⟨S5000x128, .f32⟩
  | .local _ .vmem, ⟨29, _⟩ => ⟨S5000x128, .f32⟩
  | .local _ .vmem, ⟨30, _⟩ => ⟨S5000x1, .i32⟩
  | .local _ .vmem, ⟨31, _⟩ => ⟨S5000x1, .i32⟩
  | .local _ .vmem, ⟨32, _⟩ => ⟨S5000x128, .f32⟩
  | .local _ .vmem, ⟨33, _⟩ => ⟨S5000x128, .f32⟩
  | .local _ .vmem, ⟨34, _⟩ => ⟨S64x128, .f32⟩
  | .local _ .vmem, ⟨35, _⟩ => ⟨S64x1, .f32⟩
  | _, _ => ⟨S40000x7, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_c : Ref sig .tc := ⟨.hbm, 30, rfl⟩
abbrev main_v16 : Ref sig .tc := ⟨.hbm, 31, rfl⟩
abbrev main_v17 : Ref sig .tc := ⟨.hbm, 32, rfl⟩
abbrev main_c_2 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_cst_3 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_c_4 : Ref sig .tc := ⟨.hbm, 44, rfl⟩
abbrev main_v27 : Ref sig .tc := ⟨.hbm, 45, rfl⟩
abbrev main_v28 : Ref sig .tc := ⟨.hbm, 46, rfl⟩
abbrev main_c_5 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_cst_6 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_c_7 : Ref sig .tc := ⟨.hbm, 58, rfl⟩
abbrev main_v38 : Ref sig .tc := ⟨.hbm, 59, rfl⟩
abbrev main_v39 : Ref sig .tc := ⟨.hbm, 60, rfl⟩
abbrev main_c_8 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_cst_9 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50_0 : Ref sig .tc := ⟨.hbm, 73, rfl⟩
abbrev main_v50_1 : Ref sig .tc := ⟨.hbm, 74, rfl⟩
abbrev main_cst_10 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg4_1 : Ref sig .tc := ⟨.vmem, 22, rfl⟩
abbrev cc3_stg0_0 : Ref sig .tc := ⟨.vmem, 23, rfl⟩
abbrev cc3_stg0_1 : Ref sig .tc := ⟨.vmem, 24, rfl⟩
abbrev cc3_stg1_0 : Ref sig .tc := ⟨.vmem, 25, rfl⟩
abbrev cc3_stg1_1 : Ref sig .tc := ⟨.vmem, 26, rfl⟩
abbrev cc3_stg2_0 : Ref sig .tc := ⟨.vmem, 27, rfl⟩
abbrev cc3_stg3_0 : Ref sig .tc := ⟨.vmem, 28, rfl⟩
abbrev cc3_stg3_1 : Ref sig .tc := ⟨.vmem, 29, rfl⟩
abbrev cc4_stg0_0 : Ref sig .tc := ⟨.vmem, 30, rfl⟩
abbrev cc4_stg0_1 : Ref sig .tc := ⟨.vmem, 31, rfl⟩
abbrev cc4_stg1_0 : Ref sig .tc := ⟨.vmem, 32, rfl⟩
abbrev cc4_stg1_1 : Ref sig .tc := ⟨.vmem, 33, rfl⟩
abbrev cc4_stg2_0 : Ref sig .tc := ⟨.vmem, 34, rfl⟩
abbrev cc4_stg3_0 : Ref sig .tc := ⟨.vmem, 35, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc1_sem4_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem3_0 : DmaSem sig := 20
abbrev cc2_sem4_0 : DmaSem sig := 21
abbrev cc2_sem4_1 : DmaSem sig := 22
abbrev cc3_sem0_0 : DmaSem sig := 23
abbrev cc3_sem0_1 : DmaSem sig := 24
abbrev cc3_sem1_0 : DmaSem sig := 25
abbrev cc3_sem1_1 : DmaSem sig := 26
abbrev cc3_sem2_0 : DmaSem sig := 27
abbrev cc3_sem3_0 : DmaSem sig := 28
abbrev cc3_sem3_1 : DmaSem sig := 29
abbrev cc4_sem0_0 : DmaSem sig := 30
abbrev cc4_sem0_1 : DmaSem sig := 31
abbrev cc4_sem1_0 : DmaSem sig := 32
abbrev cc4_sem1_1 : DmaSem sig := 33
abbrev cc4_sem2_0 : DmaSem sig := 34
abbrev cc4_sem3_0 : DmaSem sig := 35

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x7 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S7x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S5000x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![8], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![8], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S5000x1 .i32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S64x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S64x1 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

class Facts₀ : Prop where
  slices_S2x640000_S1x640000_0_0 : S2x640000.Slices ![0, 0] S1x640000
  shapeCasts_S1x640000_S640000 : S1x640000.ShapeCasts S640000
  concatenates_S640000_S40000_S680000_d0 : Shape.Concatenates [S640000, S40000] S680000 0
  slices_S2x640000_S1x640000_1_0 : S2x640000.Slices ![1, 0] S1x640000
  bcast_S_S680000 : S_.BroadcastsInDim S680000 (![] : Fin 0 → Fin S680000.rank)
  bcast_S_S40000 : S_.BroadcastsInDim S40000 (![] : Fin 0 → Fin S40000.rank)
  bcast_S680000_S680000x1_0 : S680000.BroadcastsInDim S680000x1 (![0] : Fin 1 → Fin S680000x1.rank)
  shapeCasts_S40000_S40000x1 : S40000.ShapeCasts S40000x1
  inb_S5000x7_S5000x7_0_0 : ∀ a, (![0, 0] : Fin 2 → Nat) a + S5000x7.size a ≤ S5000x7.size a
  h_S5000x7 : 0 < S5000x7.numel
  bitsLt_bf16_f32 : FTy.bits .bf16 < FTy.bits .f32
  inb_S7x128_S7x128_0_0 : ∀ a, (![0, 0] : Fin 2 → Nat) a + S7x128.size a ≤ S7x128.size a
  h_S7x128 : 0 < S7x128.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  inb_S5000x128_S5000x128_0_0 : ∀ a, (![0, 0] : Fin 2 → Nat) a + S5000x128.size a ≤ S5000x128.size a
  h_S5000x128 : 0 < S5000x128.numel
  bcast_S_S40000x128 : S_.BroadcastsInDim S40000x128 (![] : Fin 0 → Fin S40000x128.rank)
  shapeCasts_S5000x128_S5000x128 : S5000x128.ShapeCasts S5000x128
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  inb_S128x128_S128x128_0_0 : ∀ a, (![0, 0] : Fin 2 → Nat) a + S128x128.size a ≤ S128x128.size a
  h_S128x128 : 0 < S128x128.numel
  inb_S64x128_S64x128_0_0 : ∀ a, (![0, 0] : Fin 2 → Nat) a + S64x128.size a ≤ S64x128.size a
  h_S64x128 : 0 < S64x128.numel
  inb_S64x1_S64x1_0_0 : ∀ a, (![0, 0] : Fin 2 → Nat) a + S64x1.size a ≤ S64x1.size a
  h_S64x1 : 0 < S64x1.numel
  iota_S5000x64_d1_w32 : S5000x64.Iotas .tc 32 [1]
  broadcasts_S5000x1_S5000x64 : S5000x1.Broadcasts S5000x64
  natLt_1_32 : 1 < 32
  transposes_S5000x64_p1_0_S64x5000 : S5000x64.Transposes [1, 0] S64x5000
  shapeCasts_S64x128_S64x128 : S64x128.ShapeCasts S64x128
  shapeCasts_S64x1_S64x1 : S64x1.ShapeCasts S64x1
  reduces_S64x5000_S64 : S64x5000.Reduces [1] S64
  shapeCasts_S64_S64x1 : S64.ShapeCasts S64x1
  bcast_S_S64x1 : S_.BroadcastsInDim S64x1 (![] : Fin 0 → Fin S64x1.rank)
  bcast_S64x1_S64x128_0_1 : S64x1.BroadcastsInDim S64x128 (![0, 1] : Fin 2 → Fin S64x128.rank)
  bcast_S2_S1x2_1 : S2.BroadcastsInDim S1x2 (![1] : Fin 1 → Fin S1x2.rank)
  bcast_S1x2_S64x2_0_1 : S1x2.BroadcastsInDim S64x2 (![0, 1] : Fin 2 → Fin S64x2.rank)
  scatter_S40000_S680000x1_S680000_n_0_0_1_wf : ScatterDims.WF S40000 S680000x1 S680000 [] [0] [0] 1
  dot_S5000x7_S7x128_S5000x128_1_0_0_1_n_n_wf : DotDims.WF S5000x7 S7x128 S5000x128 [1] [0] [0] [1] [] []
  gather_S40000x128_S680000x1_S680000x128_1_0_n_n_0_1_1128_wf : GatherDims.WF S40000x128 S680000x1 S680000x128 [1] [0] [] [0] [] 1 ![1, 128]
  scatter_S40000x128_S680000x1_S680000x128_1_0_0_1_wf : ScatterDims.WF S40000x128 S680000x1 S680000x128 [1] [0] [0] 1
  dot_S5000x128_S128x128_S5000x128_1_0_0_1_n_n_wf : DotDims.WF S5000x128 S128x128 S5000x128 [1] [0] [0] [1] [] []
  dot_S64x5000_S5000x128_S64x128_1_0_0_1_n_n_wf : DotDims.WF S64x5000 S5000x128 S64x128 [1] [0] [0] [1] [] []
  dot_S64x128_S128x2_S64x2_1_0_0_1_n_n_wf : DotDims.WF S64x128 S128x2 S64x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x7.size a ≤ S40000x7.size a
  hwx0_0 : ∀ i : grid0.Coords, EltTy.bits .f32 = 32 ∨ (Rect.block (s := S40000x7) S5000x7.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S7x128.size a ≤ S7x128.size a
  hwx0_1 : ∀ i : grid0.Coords, EltTy.bits .f32 = 32 ∨ (Rect.block (s := S7x128) S7x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S40000x1.size a
  hwx0_2 : ∀ i : grid0.Coords, EltTy.bits .f32 = 32 ∨ (Rect.block (s := S40000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S40000x128.size a
  hwx0_3 : ∀ i : grid0.Coords, EltTy.bits .f32 = 32 ∨ (Rect.block (s := S40000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S40000x128.size a
  hwx1_0 : ∀ i : grid1.Coords, EltTy.bits .f32 = 32 ∨ (Rect.block (s := S40000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S40000x1.size a
  hwx1_1 : ∀ i : grid1.Coords, EltTy.bits .f32 = 32 ∨ (Rect.block (s := S40000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128.size a ≤ S128.size a
  hwx1_2 : ∀ i : grid1.Coords, EltTy.bits .f32 = 32 ∨ (Rect.block (s := S128) S128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S40000x128.size a
  hwx1_4 : ∀ i : grid1.Coords, EltTy.bits .f32 = 32 ∨ (Rect.block (s := S40000x128) S5000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S40000x128.size a
  hwx2_0 : ∀ i : grid2.Coords, EltTy.bits .f32 = 32 ∨ (Rect.block (s := S40000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S40000x1.size a
  hwx2_1 : ∀ i : grid2.Coords, EltTy.bits .f32 = 32 ∨ (Rect.block (s := S40000x1) S5000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128.size a ≤ S128.size a
  hwx2_2 : ∀ i : grid2.Coords, EltTy.bits .f32 = 32 ∨ (Rect.block (s := S128) S128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x128.size a ≤ S40000x128.size a
  hwx2_4 : ∀ i : grid2.Coords, EltTy.bits .f32 = 32 ∨ (Rect.block (s := S40000x128) S5000x128.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S40000x128.size a
  hwx3_0 : ∀ i : grid3.Coords, EltTy.bits .f32 = 32 ∨ (Rect.block (s := S40000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x1.size a ≤ S40000x1.size a
  hwx3_1 : ∀ i : grid3.Coords, EltTy.bits .f32 = 32 ∨ (Rect.block (s := S40000x1) S5000x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128.size a ≤ S128.size a
  hwx3_2 : ∀ i : grid3.Coords, EltTy.bits .f32 = 32 ∨ (Rect.block (s := S128) S128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x128.size a ≤ S40000x128.size a
  hwx3_3 : ∀ i : grid3.Coords, EltTy.bits .f32 = 32 ∨ (Rect.block (s := S40000x128) S5000x128.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x1.size a ≤ S40000x1.size a
  hwx4_0 : ∀ i : grid4.Coords, EltTy.bits .i32 = 32 ∨ (Rect.block (s := S40000x1) S5000x1.size (cc4_transform_0 i) (hinb4_0 i)).WholeWords (EltTy.packing .i32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x128.size a ≤ S40000x128.size a
  hwx4_1 : ∀ i : grid4.Coords, EltTy.bits .f32 = 32 ∨ (Rect.block (s := S40000x128) S5000x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S64x128.size a ≤ S64x128.size a
  hwx4_2 : ∀ i : grid4.Coords, EltTy.bits .f32 = 32 ∨ (Rect.block (s := S64x128) S64x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S64x1.size a ≤ S64x1.size a
  hwx4_3 : ∀ i : grid4.Coords, EltTy.bits .f32 = 32 ∨ (Rect.block (s := S64x1) S64x1.size (cc4_transform_3 i) (hinb4_3 i)).WholeWords (EltTy.packing .f32)

variable [Facts₀]

def scatter_S40000_S680000x1_S680000_n_0_0_1 : ScatterDims S40000 S680000x1 S680000 where
  updateWindowDims := []
  insertedWindowDims := [0]
  scatterDimsToOperandDims := [0]
  indexVectorDim := 1
  wf := scatter_S40000_S680000x1_S680000_n_0_0_1_wf
def dot_S5000x7_S7x128_S5000x128_1_0_0_1_n_n : DotDims S5000x7 S7x128 S5000x128 where
  lhsContracting := [1]
  rhsContracting := [0]
  lhsNonContracting := [0]
  rhsNonContracting := [1]
  lhsBatch := []
  rhsBatch := []
  wf := dot_S5000x7_S7x128_S5000x128_1_0_0_1_n_n_wf
def gather_S40000x128_S680000x1_S680000x128_1_0_n_n_0_1_1128 : GatherDims S40000x128 S680000x1 S680000x128 where
  offsetDims := [1]
  collapsedSliceDims := [0]
  operandBatchingDims := []
  startIndicesBatchingDims := []
  startIndexMap := [0]
  indexVectorDim := 1
  sliceSizes := ![1, 128]
  wf := gather_S40000x128_S680000x1_S680000x128_1_0_n_n_0_1_1128_wf
def scatter_S40000x128_S680000x1_S680000x128_1_0_0_1 : ScatterDims S40000x128 S680000x1 S680000x128 where
  updateWindowDims := [1]
  insertedWindowDims := [0]
  scatterDimsToOperandDims := [0]
  indexVectorDim := 1
  wf := scatter_S40000x128_S680000x1_S680000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S64x5000_S5000x128_S64x128_1_0_0_1_n_n : DotDims S64x5000 S5000x128 S64x128 where
  lhsContracting := [1]
  rhsContracting := [0]
  lhsNonContracting := [0]
  rhsNonContracting := [1]
  lhsBatch := []
  rhsBatch := []
  wf := dot_S64x5000_S5000x128_S64x128_1_0_0_1_n_n_wf
def dot_S64x128_S128x2_S64x2_1_0_0_1_n_n : DotDims S64x128 S128x2 S64x2 where
  lhsContracting := [1]
  rhsContracting := [0]
  lhsNonContracting := [0]
  rhsNonContracting := [1]
  lhsBatch := []
  rhsBatch := []
  wf := dot_S64x128_S128x2_S64x2_1_0_0_1_n_n_wf

abbrev win0_0 : Pipeline.Window sig grid0 :=
  Pipeline.Window.ofSpec (Memref.whole main_arg0) S5000x7.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S7x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v14) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v15) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v25) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v26) S5000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v36) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v14) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg6) S128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg7) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v37) S5000x128.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v47) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v14) S5000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg8) S128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v48) S5000x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v49) S5000x1.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v48) S5000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v50_0) S64x128.size cc4_transform_2 reads4_2 true true 1 stage4_2 sem4_2
    hrank4 hreads4_2 hinb4_2 nbuf4_2 (Memref.isWhole_whole _) hwx4_2 hstage4_2

abbrev win4_3 : Pipeline.Window sig grid4 :=
  Pipeline.Window.ofSpec (Memref.whole main_v50_1) S64x1.size cc4_transform_3 reads4_3 true true 1 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S40000x7 : Shape := ⟨2, ![40000, 7]⟩
abbrev S2x640000 : Shape := ⟨2, ![2, 640000]⟩
abbrev S40000 : Shape := ⟨1, ![40000]⟩
abbrev S7x128 : Shape := ⟨2, ![7, 128]⟩
abbrev S128 : Shape := ⟨1, ![128]⟩
abbrev S128x128 : Shape := ⟨2, ![128, 128]⟩
abbrev S128x2 : Shape := ⟨2, ![128, 2]⟩
abbrev S2 : Shape := ⟨1, ![2]⟩
abbrev S1x640000 : Shape := ⟨2, ![1, 640000]⟩
abbrev S640000 : Shape := ⟨1, ![640000]⟩
abbrev S680000 : Shape := ⟨1, ![680000]⟩
abbrev S_ : Shape := ⟨0, ![]⟩
abbrev S680000x1 : Shape := ⟨2, ![680000, 1]⟩
abbrev S40000x128 : Shape := ⟨2, ![40000, 128]⟩
abbrev S680000x128 : Shape := ⟨2, ![680000, 128]⟩
abbrev S1x128 : Shape := ⟨2, ![1, 128]⟩
abbrev S64x128 : Shape := ⟨2, ![64, 128]⟩
abbrev S40000x1 : Shape := ⟨2, ![40000, 1]⟩
abbrev S64 : Shape := ⟨1, ![64]⟩
abbrev S64x1 : Shape := ⟨2, ![64, 1]⟩
abbrev S64x2 : Shape := ⟨2, ![64, 2]⟩
abbrev S1x2 : Shape := ⟨2, ![1, 2]⟩

abbrev nBuf : Space → Nat
  | .hbm => 133
  | .vmem => 0
  | .smem => 0
  | _ => 0

abbrev hbmTy0_0 (i : Nat) : BufTy := match i % 128 with
  | 0 => ⟨S40000x7, .f32⟩
  | 1 => ⟨S2x640000, .i32⟩
  | 2 => ⟨S40000, .i32⟩
  | 3 => ⟨S7x128, .f32⟩
  | 4 => ⟨S128, .f32⟩
  | 5 => ⟨S128x128, .f32⟩
  | 6 => ⟨S128, .f32⟩
  | 7 => ⟨S128x128, .f32⟩
  | 8 => ⟨S128, .f32⟩
  | 9 => ⟨S128x2, .f32⟩
  | 10 => ⟨S2, .f32⟩
  | 11 => ⟨S40000, .i32⟩
  | 12 => ⟨S1x640000, .i32⟩
  | 13 => ⟨S640000, .i32⟩
  | 14 => ⟨S680000, .i32⟩
  | 15 => ⟨S1x640000, .i32⟩
  | 16 => ⟨S640000, .i32⟩
  | 17 => ⟨S680000, .i32⟩
  | 18 => ⟨S_, .f32⟩
  | 19 => ⟨S680000, .f32⟩
  | 20 => ⟨S_, .f32⟩
  | 21 => ⟨S40000, .f32⟩
  | 22 => ⟨S680000x1, .i32⟩
  | 23 => ⟨S40000, .f32⟩
  | 24 => ⟨S_, .f32⟩
  | 25 => ⟨S40000, .f32⟩
  | 26 => ⟨S40000, .f32⟩
  | 27 => ⟨S40000, .f32⟩
  | 28 => ⟨S_, .i32⟩
  | 29 => ⟨S680000, .i32⟩
  | 30 => ⟨S680000, .i1⟩
  | 31 => ⟨S_, .i32⟩
  | 32 => ⟨S680000, .i32⟩
  | 33 => ⟨S680000, .i32⟩
  | 34 => ⟨S680000, .i32⟩
  | 35 => ⟨S680000x1, .i32⟩
  | 36 => ⟨S680000, .f32⟩
  | 37 => ⟨S_, .i32⟩
  | 38 => ⟨S680000, .i32⟩
  | 39 => ⟨S680000, .i1⟩
  | 40 => ⟨S_, .i32⟩
  | 41 => ⟨S680000, .i32⟩
  | 42 => ⟨S680000, .i32⟩
  | 43 => ⟨S680000, .i32⟩
  | 44 => ⟨S680000x1, .i32⟩
  | 45 => ⟨S680000, .f32⟩
  | 46 => ⟨S680000, .f32⟩
  | 47 => ⟨S40000x128, .f32⟩
  | 48 => ⟨S_, .i32⟩
  | 49 => ⟨S680000, .i32⟩
  | 50 => ⟨S680000, .i1⟩
  | 51 => ⟨S_, .i32⟩
  | 52 => ⟨S680000, .i32⟩
  | 53 => ⟨S680000, .i32⟩
  | 54 => ⟨S680000, .i32⟩
  | 55 => ⟨S680000x1, .i32⟩
  | 56 => ⟨S680000x128, .f32⟩
  | 57 => ⟨S680000x1, .f32⟩
  | 58 => ⟨S680000x128, .f32⟩
  | 59 => ⟨S680000x128, .f32⟩
  | 60 => ⟨S_, .f32⟩
  | 61 => ⟨S40000x128, .f32⟩
  | 62 => ⟨S680000x1, .i32⟩
  | 63 => ⟨S40000x128, .f32⟩
  | 64 => ⟨S1x128, .f32⟩
  | 65 => ⟨S40000x128, .f32⟩
  | 66 => ⟨S40000x128, .f32⟩
  | 67 => ⟨S_, .f32⟩
  | 68 => ⟨S40000x128, .f32⟩
  | 69 => ⟨S40000x128, .f32⟩
  | 70 => ⟨S40000x128, .f32⟩
  | 71 => ⟨S_, .i32⟩
  | 72 => ⟨S680000, .i32⟩
  | 73 => ⟨S680000, .i1⟩
  | 74 => ⟨S_, .i32⟩
  | 75 => ⟨S680000, .i32⟩
  | 76 => ⟨S680000, .i32⟩
  | 77 => ⟨S680000, .i32⟩
  | 78 => ⟨S680000x1, .i32⟩
  | 79 => ⟨S680000x128, .f32⟩
  | 80 => ⟨S680000x1, .f32⟩
  | 81 => ⟨S680000x128, .f32⟩
  | 82 => ⟨S680000x128, .f32⟩
  | 83 => ⟨S_, .f32⟩
  | 84 => ⟨S40000x128, .f32⟩
  | 85 => ⟨S680000x1, .i32⟩
  | 86 => ⟨S40000x128, .f32⟩
  | 87 => ⟨S1x128, .f32⟩
  | 88 => ⟨S40000x128, .f32⟩
  | 89 => ⟨S40000x128, .f32⟩
  | 90 => ⟨S_, .f32⟩
  | 91 => ⟨S40000x128, .f32⟩
  | 92 => ⟨S40000x128, .f32⟩
  | 93 => ⟨S40000x128, .f32⟩
  | 94 => ⟨S_, .i32⟩
  | 95 => ⟨S680000, .i32⟩
  | 96 => ⟨S680000, .i1⟩
  | 97 => ⟨S_, .i32⟩
  | 98 => ⟨S680000, .i32⟩
  | 99 => ⟨S680000, .i32⟩
  | 100 => ⟨S680000, .i32⟩
  | 101 => ⟨S680000x1, .i32⟩
  | 102 => ⟨S680000x128, .f32⟩
  | 103 => ⟨S680000x1, .f32⟩
  | 104 => ⟨S680000x128, .f32⟩
  | 105 => ⟨S680000x128, .f32⟩
  | 106 => ⟨S_, .f32⟩
  | 107 => ⟨S40000x128, .f32⟩
  | 108 => ⟨S680000x1, .i32⟩
  | 109 => ⟨S40000x128, .f32⟩
  | 110 => ⟨S1x128, .f32⟩
  | 111 => ⟨S40000x128, .f32⟩
  | 112 => ⟨S40000x128, .f32⟩
  | 113 => ⟨S_, .f32⟩
  | 114 => ⟨S64x128, .f32⟩
  | 115 => ⟨S40000x1, .i32⟩
  | 116 => ⟨S64x128, .f32⟩
  | 117 => ⟨S_, .f32⟩
  | 118 => ⟨S40000, .f32⟩
  | 119 => ⟨S_, .f32⟩
  | 120 => ⟨S64, .f32⟩
  | 121 => ⟨S40000x1, .i32⟩
  | 122 => ⟨S64, .f32⟩
  | 123 => ⟨S_, .f32⟩
  | 124 => ⟨S64, .f32⟩
  | 125 => ⟨S64, .f32⟩
  | 126 => ⟨S64x1, .f32⟩
  | 127 => ⟨S64x128, .f32⟩
  | _ => ⟨S40000x7, .f32⟩

abbrev hbmTy0_1 (i : Nat) : BufTy := match i % 128 with
  | 0 => ⟨S64x128, .f32⟩
  | 1 => ⟨S64x2, .f32⟩
  | 2 => ⟨S1x2, .f32⟩
  | 3 => ⟨S64x2, .f32⟩
  | 4 => ⟨S64x2, .f32⟩
  | _ => ⟨S40000x7, .f32⟩

abbrev hbmTy (i : Nat) : BufTy := match i / 128 with
  | 0 => hbmTy0_0 i
  | 1 => hbmTy0_1 i
  | _ => ⟨S40000x7, .f32⟩

abbrev bufTy : (tb : Table) → Fin (tcTables nBuf tb) → BufTy
  | .hbm, ⟨i, _⟩ => hbmTy i
  | _, _ => ⟨S40000x7, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_c : Ref sig .tc := ⟨.hbm, 28, rfl⟩
abbrev main_v14 : Ref sig .tc := ⟨.hbm, 29, rfl⟩
abbrev main_v15 : Ref sig .tc := ⟨.hbm, 30, rfl⟩
abbrev main_c_2 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_c_3 : Ref sig .tc := ⟨.hbm, 37, rfl⟩
abbrev main_v21 : Ref sig .tc := ⟨.hbm, 38, rfl⟩
abbrev main_v22 : Ref sig .tc := ⟨.hbm, 39, rfl⟩
abbrev main_c_4 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_c_5 : Ref sig .tc := ⟨.hbm, 48, rfl⟩
abbrev main_v30 : Ref sig .tc := ⟨.hbm, 49, rfl⟩
abbrev main_v31 : Ref sig .tc := ⟨.hbm, 50, rfl⟩
abbrev main_c_6 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_cst_7 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_call0_cst : Ref sig .tc := ⟨.hbm, 67, rfl⟩
abbrev main_call0_v0 : Ref sig .tc := ⟨.hbm, 68, rfl⟩
abbrev main_v46 : Ref sig .tc := ⟨.hbm, 69, rfl⟩
abbrev main_v47 : Ref sig .tc := ⟨.hbm, 70, rfl⟩
abbrev main_c_8 : Ref sig .tc := ⟨.hbm, 71, rfl⟩
abbrev main_v48 : Ref sig .tc := ⟨.hbm, 72, rfl⟩
abbrev main_v49 : Ref sig .tc := ⟨.hbm, 73, rfl⟩
abbrev main_c_9 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_cst_10 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_call1_cst : Ref sig .tc := ⟨.hbm, 90, rfl⟩
abbrev main_call1_v0 : Ref sig .tc := ⟨.hbm, 91, rfl⟩
abbrev main_v64 : Ref sig .tc := ⟨.hbm, 92, rfl⟩
abbrev main_v65 : Ref sig .tc := ⟨.hbm, 93, rfl⟩
abbrev main_c_11 : Ref sig .tc := ⟨.hbm, 94, rfl⟩
abbrev main_v66 : Ref sig .tc := ⟨.hbm, 95, rfl⟩
abbrev main_v67 : Ref sig .tc := ⟨.hbm, 96, rfl⟩
abbrev main_c_12 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_cst_13 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_cst_14 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_cst_15 : Ref sig .tc := ⟨.hbm, 117, rfl⟩
abbrev main_v85 : Ref sig .tc := ⟨.hbm, 118, rfl⟩
abbrev main_cst_16 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_cst_17 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  concatenates_S640000_S40000_S680000_d0 : Shape.Concatenates [S640000, S40000] S680000 0
  slices_S2x640000_S1x640000_1_0 : S2x640000.Slices ![1, 0] S1x640000
  bcast_S_S680000 : S_.BroadcastsInDim S680000 (![] : Fin 0 → Fin S680000.rank)
  bcast_S_S40000 : S_.BroadcastsInDim S40000 (![] : Fin 0 → Fin S40000.rank)
  bcast_S680000_S680000x1_0 : S680000.BroadcastsInDim S680000x1 (![0] : Fin 1 → Fin S680000x1.rank)
  bcast_S680000x1_S680000x128_0_1 : S680000x1.BroadcastsInDim S680000x128 (![0, 1] : Fin 2 → Fin S680000x128.rank)
  bcast_S_S40000x128 : S_.BroadcastsInDim S40000x128 (![] : Fin 0 → Fin S40000x128.rank)
  bcast_S128_S1x128_1 : S128.BroadcastsInDim S1x128 (![1] : Fin 1 → Fin S1x128.rank)
  bcast_S1x128_S40000x128_0_1 : S1x128.BroadcastsInDim S40000x128 (![0, 1] : Fin 2 → Fin S40000x128.rank)
  bcast_S_S64x128 : S_.BroadcastsInDim S64x128 (![] : Fin 0 → Fin S64x128.rank)
  bcast_S40000_S40000x1_0 : S40000.BroadcastsInDim S40000x1 (![0] : Fin 1 → Fin S40000x1.rank)
  bcast_S_S64 : S_.BroadcastsInDim S64 (![] : Fin 0 → Fin S64.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  bcast_S2_S1x2_1 : S2.BroadcastsInDim S1x2 (![1] : Fin 1 → Fin S1x2.rank)
  bcast_S1x2_S64x2_0_1 : S1x2.BroadcastsInDim S64x2 (![0, 1] : Fin 2 → Fin S64x2.rank)
  scatter_S40000_S680000x1_S680000_n_0_0_1_wf : ScatterDims.WF S40000 S680000x1 S680000 [] [0] [0] 1
  gather_S40000_S680000x1_S680000_n_0_n_n_0_1_1_wf : GatherDims.WF S40000 S680000x1 S680000 [] [0] [] [0] [] 1 ![1]
  dot_S40000x7_S7x128_S40000x128_1_0_0_1_n_n_wf : DotDims.WF S40000x7 S7x128 S40000x128 [1] [0] [0] [1] [] []
  gather_S40000x128_S680000x1_S680000x128_1_0_n_n_0_1_1128_wf : GatherDims.WF S40000x128 S680000x1 S680000x128 [1] [0] [] [0] [] 1 ![1, 128]
  scatter_S40000x128_S680000x1_S680000x128_1_0_0_1_wf : ScatterDims.WF S40000x128 S680000x1 S680000x128 [1] [0] [0] 1
  dot_S40000x128_S128x128_S40000x128_1_0_0_1_n_n_wf : DotDims.WF S40000x128 S128x128 S40000x128 [1] [0] [0] [1] [] []
  scatter_S64x128_S40000x1_S40000x128_1_0_0_1_wf : ScatterDims.WF S64x128 S40000x1 S40000x128 [1] [0] [0] 1
  scatter_S64_S40000x1_S40000_n_0_0_1_wf : ScatterDims.WF S64 S40000x1 S40000 [] [0] [0] 1
  dot_S64x128_S128x2_S64x2_1_0_0_1_n_n_wf : DotDims.WF S64x128 S128x2 S64x2 [1] [0] [0] [1] [] []

variable [Facts₀]

def scatter_S40000_S680000x1_S680000_n_0_0_1 : ScatterDims S40000 S680000x1 S680000 where
  updateWindowDims := []
  insertedWindowDims := [0]
  scatterDimsToOperandDims := [0]
  indexVectorDim := 1
  wf := scatter_S40000_S680000x1_S680000_n_0_0_1_wf
def gather_S40000_S680000x1_S680000_n_0_n_n_0_1_1 : GatherDims S40000 S680000x1 S680000 where
  offsetDims := []
  collapsedSliceDims := [0]
  operandBatchingDims := []
  startIndicesBatchingDims := []
  startIndexMap := [0]
  indexVectorDim := 1
  sliceSizes := ![1]
  wf := gather_S40000_S680000x1_S680000_n_0_n_n_0_1_1_wf
def dot_S40000x7_S7x128_S40000x128_1_0_0_1_n_n : DotDims S40000x7 S7x128 S40000x128 where
  lhsContracting := [1]
  rhsContracting := [0]
  lhsNonContracting := [0]
  rhsNonContracting := [1]
  lhsBatch := []
  rhsBatch := []
  wf := dot_S40000x7_S7x128_S40000x128_1_0_0_1_n_n_wf
def gather_S40000x128_S680000x1_S680000x128_1_0_n_n_0_1_1128 : GatherDims S40000x128 S680000x1 S680000x128 where
  offsetDims := [1]
  collapsedSliceDims := [0]
  operandBatchingDims := []
  startIndicesBatchingDims := []
  startIndexMap := [0]
  indexVectorDim := 1
  sliceSizes := ![1, 128]
  wf := gather_S40000x128_S680000x1_S680000x128_1_0_n_n_0_1_1128_wf
def scatter_S40000x128_S680000x1_S680000x128_1_0_0_1 : ScatterDims S40000x128 S680000x1 S680000x128 where
  updateWindowDims := [1]
  insertedWindowDims := [0]
  scatterDimsToOperandDims := [0]
  indexVectorDim := 1
  wf := scatter_S40000x128_S680000x1_S680000x128_1_0_0_1_wf
def dot_S40000x128_S128x128_S40000x128_1_0_0_1_n_n : DotDims S40000x128 S128x128 S40000x128 where
  lhsContracting := [1]
  rhsContracting := [0]
  lhsNonContracting := [0]
  rhsNonContracting := [1]
  lhsBatch := []
  rhsBatch := []
  wf := dot_S40000x128_S128x128_S40000x128_1_0_0_1_n_n_wf
def scatter_S64x128_S40000x1_S40000x128_1_0_0_1 : ScatterDims S64x128 S40000x1 S40000x128 where
  updateWindowDims := [1]
  insertedWindowDims := [0]
  scatterDimsToOperandDims := [0]
  indexVectorDim := 1
  wf := scatter_S64x128_S40000x1_S40000x128_1_0_0_1_wf
def scatter_S64_S40000x1_S40000_n_0_0_1 : ScatterDims S64 S40000x1 S40000 where
  updateWindowDims := []
  insertedWindowDims := [0]
  scatterDimsToOperandDims := [0]
  indexVectorDim := 1
  wf := scatter_S64_S40000x1_S40000_n_0_0_1_wf
def dot_S64x128_S128x2_S64x2_1_0_0_1_n_n : DotDims S64x128 S128x2 S64x2 where
  lhsContracting := [1]
  rhsContracting := [0]
  lhsNonContracting := [0]
  rhsNonContracting := [1]
  lhsBatch := []
  rhsBatch := []
  wf := dot_S64x128_S128x2_S64x2_1_0_0_1_n_n_wf

class Facts : Prop extends Facts₀ where

variable [Facts]
-- ==== Proof.Spec.lean ====
/-
  The vocabulary of this certificate: a three-layer graph convolution followed by a mean pool and a linear head.

  Nodes 0 … 39999 carry 128 features; the 680000 edges (640000 given ones and one self loop per node) have a source
  word and a destination word each. `dinv v = (max (deg v) 1)^(-1/2)` is a node's normalising factor, where `deg v`
  counts the edges whose destination is `v`. One propagation step sends `y` to `u ↦ ∑_{e : dst e = u} y (src e)`
  (`prop`); the reference weights each edge's term by `dinv (src e) * dinv (dst e)` (`refProp`), while the kernel scales
  the rows by `dinv` once before the step and once after it. The functions below say what each dense stage of the
  kernel leaves in its whole output array, index by index, on the extended reals.
-/
import proofs.«428049_j83116207112815_2_alg».proof.KernelIdeal
import proofs.«428049_j83116207112815_2_alg».proof.Proof.Gen.KernelIdeal
import proofs.«428049_j83116207112815_2_alg».proof.Proof.Gen.ReferenceIdeal.Read
import Idealize.ShloMosaic.PureOps.Ideal
import Idealize.ShloMosaic.Lib.ValueIdx

noncomputable section

namespace Cert.Gcn

open Idealize.ShloMosaic Idealize.ShloMosaic.ValueIdx Cert.KernelIdeal Cert.KernelIdeal.Facts₀
open scoped BigOperators

/-- An array of shape `s` and element type `e` at the extended reals. -/
abbrev Arr (s : Shape) (e : EltTy) : Type := (⟨s, e⟩ : BufTy).Contents (Elt Ideal)

/-! ## The edge list and the normalising factor (the same host terms in both programs) -/

/-- `dinv v = (max (deg v) 1)^(-1/2)`, one entry per node. -/
abbrev dinv (x1 : Arr S2x640000 .i32) : Arr S40000 .f32 := Cert.ReferenceIdeal.Read.val_main_v13 (F := Ideal) x1
/-- The destination words as a column of scatter indices. -/
abbrev dstIdx (x1 : Arr S2x640000 .i32) : Arr S680000x1 .i32 := Cert.ReferenceIdeal.Read.val_main_v41 (F := Ideal) x1
/-- The source words, a negative one wrapped by 40000, as a column of gather indices. -/
abbrev srcIdx (x1 : Arr S2x640000 .i32) : Arr S680000x1 .i32 := Cert.ReferenceIdeal.Read.val_main_v35 (F := Ideal) x1
/-- The destination words, a negative one wrapped by 40000, as a column of gather indices. -/
abbrev ndstIdx (x1 : Arr S2x640000 .i32) : Arr S680000x1 .i32 := Cert.ReferenceIdeal.Read.val_main_v26 (F := Ideal) x1
/-- `dinv` as the column the kernels read. -/
def dcol (x1 : Arr S2x640000 .i32) : Arr S40000x1 .f32 := fun i => dinv x1 (ix1 (i 0))
/-- The graph ids as the column the pooling kernel reads. -/
def bcol (x2 : Arr S40000 .i32) : Arr S40000x1 .i32 := fun i => x2 (ix1 (i 0))

/-- One propagation step: `u ↦ ∑_{e : dst e = u} y (src e)`, feature by feature. -/
def prop (x1 : Arr S2x640000 .i32) (y : Arr S40000x128 .f32) : Arr S40000x128 .f32 :=
  Host.scatterAdd (F := Ideal) (φ := .f32) Cert.ReferenceIdeal.scatter_S40000x128_S680000x1_S680000x128_1_0_0_1 (Cert.ReferenceIdeal.Read.val_main_v40 (F := Ideal)) (dstIdx x1)
    (Host.gather Cert.ReferenceIdeal.gather_S40000x128_S680000x1_S680000x128_1_0_n_n_0_1_1128 y (srcIdx x1))

/-- The reference's step: each edge's term weighted by `dinv (src e) * dinv (dst e)`. -/
def refProp (x1 : Arr S2x640000 .i32) (hW : Arr S40000x128 .f32) : Arr S40000x128 .f32 :=
  Host.scatterAdd (F := Ideal) (φ := .f32) Cert.ReferenceIdeal.scatter_S40000x128_S680000x1_S680000x128_1_0_0_1 (Cert.ReferenceIdeal.Read.val_main_v40 (F := Ideal)) (dstIdx x1)
    (mulf (F := Ideal) (Host.gather Cert.ReferenceIdeal.gather_S40000x128_S680000x1_S680000x128_1_0_n_n_0_1_1128 hW (srcIdx x1)) (Cert.ReferenceIdeal.Read.val_main_v38 (F := Ideal) x1))

/-! ## What each dense stage of the kernel leaves in its whole output array -/

/-- First stage: `(x W) · dinv`, row by row. -/
def lin0 (x : Arr S40000x7 .f32) (W : Arr S7x128 .f32) (d : Arr S40000x1 .f32) : Arr S40000x128 .f32 :=
  fun i => (∑ k : Fin 7, x (ix2 (i 0) k) * W (ix2 k (i 1))) * d (ix2 (i 0) (0 : Fin 1))

/-- The activation the middle stages feed their matrix product: `max (agg · dinv + b) 0`. -/
def act (agg : Arr S40000x128 .f32) (d : Arr S40000x1 .f32) (b : Arr S128 .f32) (p : Fin 40000) (k : Fin 128) : EReal :=
  max (agg (ix2 p k) * d (ix2 p (0 : Fin 1)) + b (ix1 k)) 0

/-- Middle stages: `(max (agg · dinv + b) 0) W · dinv`, row by row. -/
def lin1 (agg : Arr S40000x128 .f32) (d : Arr S40000x1 .f32) (b : Arr S128 .f32) (W : Arr S128x128 .f32) : Arr S40000x128 .f32 :=
  fun i => (∑ k : Fin 128, act agg d b (i 0) k * W (ix2 k (i 1))) * d (ix2 (i 0) (0 : Fin 1))

/-- Last convolution stage: `agg · dinv + b`. -/
def fin3 (agg : Arr S40000x128 .f32) (d : Arr S40000x1 .f32) (b : Arr S128 .f32) : Arr S40000x128 .f32 :=
  fun i => agg i * d (ix2 (i 0) (0 : Fin 1)) + b (ix1 (i 1))

/-- Whether node `v` belongs to graph `g`, as `1` or `0`. -/
def oh (bc : Arr S40000x1 .i32) (v : Fin 40000) (g : Fin 64) : EReal :=
  if bc (ix2 v (0 : Fin 1)) = BitVec.ofNat 32 g.val then 1 else 0

/-- The pooled sums: `(g, d) ↦ ∑_v [graph v = g] · h (v, d)`. -/
def poolSum (bc : Arr S40000x1 .i32) (h : Arr S40000x128 .f32) : Arr S64x128 .f32 :=
  fun i => ∑ v : Fin 40000, oh bc v (i 0) * h (ix2 v (i 1))

/-- The graph sizes: `g ↦ ∑_v [graph v = g]`, as a column. -/
def poolCnt (bc : Arr S40000x1 .i32) : Arr S64x1 .f32 :=
  fun i => ∑ v : Fin 40000, oh bc v (i 0)

/-- The head: the sums divided by `max count 1`, times `Wl`, plus `bl` (the kernel's last host operations). -/
def head (S : Arr S64x128 .f32) (C : Arr S64x1 .f32) (Wl : Arr S128x2 .f32) (bl : Arr S2 .f32) : Arr S64x2 .f32 :=
  addf (F := Ideal) (Host.dotGeneral (F := Ideal) (φ₁ := .f32) (φ₂ := .f32) dot_S64x128_S128x2_S64x2_1_0_0_1_n_n none
      (Host.divf (F := Ideal) S (broadcastInDim S64x128 ![0, 1] bcast_S64x1_S64x128_0_1
        (maximumf (F := Ideal) C (broadcastInDim S64x1 ![] bcast_S_S64x1 (constant (F := Ideal) S_ .f32 0x3F800000#32))))) Wl)
    (broadcastInDim S64x2 ![0, 1] bcast_S1x2_S64x2_0_1 (broadcastInDim S1x2 ![1] bcast_S2_S1x2_1 bl))

/-! ## The kernel's whole computation -/

section Chain
variable (x0 : Arr S40000x7 .f32) (x1 : Arr S2x640000 .i32) (x2 : Arr S40000 .i32) (x3 : Arr S7x128 .f32) (x4 : Arr S128 .f32)
  (x5 : Arr S128x128 .f32) (x6 : Arr S128 .f32) (x7 : Arr S128x128 .f32) (x8 : Arr S128 .f32) (x9 : Arr S128x2 .f32) (x10 : Arr S2 .f32)

/-- The array the first kernel writes. -/
def y1 : Arr S40000x128 .f32 := lin0 x0 x3 (dcol x1)
/-- The first propagation's result. -/
def agg1 : Arr S40000x128 .f32 := prop x1 (y1 x0 x1 x3)
/-- The array the second kernel writes. -/
def y2 : Arr S40000x128 .f32 := lin1 (agg1 x0 x1 x3) (dcol x1) x4 x5
/-- The second propagation's result. -/
def agg2 : Arr S40000x128 .f32 := prop x1 (y2 x0 x1 x3 x4 x5)
/-- The array the third kernel writes. -/
def y3 : Arr S40000x128 .f32 := lin1 (agg2 x0 x1 x3 x4 x5) (dcol x1) x6 x7
/-- The third propagation's result. -/
def agg3 : Arr S40000x128 .f32 := prop x1 (y3 x0 x1 x3 x4 x5 x6 x7)
/-- The node features after the third convolution (the fourth kernel's array). -/
def h3 : Arr S40000x128 .f32 := fin3 (agg3 x0 x1 x3 x4 x5 x6 x7) (dcol x1) x8
/-- The kernel program's result. -/
def kout : Arr S64x2 .f32 :=
  head (poolSum (bcol x2) (h3 x0 x1 x3 x4 x5 x6 x7 x8)) (poolCnt (bcol x2)) x9 x10

end Chain

end Cert.Gcn

end
-- ==== Proof.LibKeepdims.lean ====
/-
  The column forms a `jnp.sum(…, axis=1, keepdims=True)` kernel meets, read at an index, for any extents:
  a vector `[a]` viewed as a column `[a, 1]`; a column `[a, 1]` broadcast along its rows to `[a, b]`; and, at the
  extended reals, a lane sum of an `[a, b]` array over its second axis as the plain sum over the row.
-/
import Idealize.ShloMosaic.Lib.Pipeline.Value
import Idealize.ShloMosaic.Lib.ValueIdx
import Idealize.ShloMosaic.PureOps.Ideal.Laws

noncomputable section

namespace Idealize.ShloMosaic.Keepdims

open Idealize.ShloMosaic Idealize.ShloMosaic.ValueIdx

variable {α : Type}

/-- An `[a]` array cast to the column `[a, 1]` reads, at `(r, u)`, the operand at `r`, whatever the unit coordinate. -/
theorem shapeCast_a_a1_apply {a : ℕ} (x : (⟨1, ![a]⟩ : Shape).Idx → α) (h : (⟨1, ![a]⟩ : Shape).ShapeCasts ⟨2, ![a, 1]⟩)
    (r : Fin a) (u : Fin 1) : shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- A column `[a, 1]` broadcast to `[a, b]` reads, at `(r, c)`, the column at row `r`. -/
theorem broadcastTo_a1_ab_apply {a b : ℕ} (v : (⟨2, ![a, 1]⟩ : Shape).Idx → α) (h : (⟨2, ![a, 1]⟩ : Shape).Broadcasts ⟨2, ![a, b]⟩)
    (r : Fin a) (c : Fin b) : broadcastTo ⟨2, ![a, b]⟩ v h (ix2 r c) = v (ix2 r (0 : Fin 1)) := by
  refine broadcastTo_apply v h (ix2 r c) (ix2 r (0 : Fin 1)) fun ax => ?_
  match ax with
  | ⟨0, _⟩ =>
    show r.val = if a = 1 then 0 else r.val
    split
    · have := r.isLt; omega
    · rfl
  | ⟨1, _⟩ => rfl

/-- At the extended reals a lane sum of an `[a, b]` array over its second axis, from the zero accumulator, reads at row
    `r` as the sum of the row. -/
theorem laneSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (r : Fin a) :
    multiReduction .add [1] ⟨1, ![a]⟩ src acc h hφ hacc (ix1 r) = ∑ k : Fin b, src (ix2 r k) := by
  refine (Ideal.multiReduction_add_single src acc h hφ hacc (ix1 r)).trans ?_
  refine Finset.sum_congr rfl fun k _ => ?_
  refine congrArg src (funext fun ax => Fin.ext ?_)
  rw [Shape.Reduces.lift_val]
  match ax with
  | ⟨0, _⟩ => rfl
  | ⟨1, _⟩ => rfl

end Idealize.ShloMosaic.Keepdims

end
-- ==== Proof.Boundary.lean ====
/-
  A kernel leaves every buffer but its outputs as it found it: at a kernel's exit, an input array holds what it held at
  the entry (it is read, never written back), and a buffer that is no window's array is not touched at all.
-/
import proofs.«428049_j83116207112815_2_alg».proof.Proof.Gen.KernelIdeal.Frame

set_option maxRecDepth 16384

noncomputable section

namespace Cert.Gcn

open Idealize.ShloMosaic Idealize.ShloMosaic.TcCoe Idealize.SL.Sem Idealize.ShloMosaic.StableHlo
open Cert.KernelIdeal Cert.KernelIdeal.Gen

variable {F : FTy → Type} [FloatOps F]
variable (m : (ℓ : Loc nD τ sig) → Buf (Elt F) ℓ) (ρ : Dev nD → PrngReg) (c : Dev nD)

theorem keep0 (b : Ref sig .tc) (hb : b ≠ main_v15) :
    W2 m ρ c (Proc.devRef .tc b) = W1 m ρ c (Proc.devRef .tc b) := by
  by_cases h : ∃ w, Pipeline.arrRef spec0 w = b
  · obtain ⟨w, rfl⟩ := h
    match w with
    | ⟨0, _⟩ => exact (W2_arr m ρ c 0).trans (((dat0 (V1 m ρ) c).arrAt_in 0 rfl _).trans (A_eq0 (V1 m ρ) c 0))
    | ⟨1, _⟩ => exact (W2_arr m ρ c 1).trans (((dat0 (V1 m ρ) c).arrAt_in 1 rfl _).trans (A_eq0 (V1 m ρ) c 1))
    | ⟨2, _⟩ => exact (W2_arr m ρ c 2).trans (((dat0 (V1 m ρ) c).arrAt_in 2 rfl _).trans (A_eq0 (V1 m ρ) c 2))
    | ⟨3, _⟩ => exact absurd rfl hb
    | ⟨_ + 4, h⟩ => exact absurd h (Nat.not_lt.2 (Nat.le_add_left _ _))
  · exact W2_of_ne m ρ c b fun w e => h ⟨w, e⟩

theorem keep1 (b : Ref sig .tc) (hb : b ≠ main_v26) :
    W4 m ρ c (Proc.devRef .tc b) = W3 m ρ c (Proc.devRef .tc b) := by
  by_cases h : ∃ w, Pipeline.arrRef spec1 w = b
  · obtain ⟨w, rfl⟩ := h
    match w with
    | ⟨0, _⟩ => exact (W4_arr m ρ c 0).trans (((dat1 (V3 m ρ) c).arrAt_in 0 rfl _).trans (A_eq1 (V3 m ρ) c 0))
    | ⟨1, _⟩ => exact (W4_arr m ρ c 1).trans (((dat1 (V3 m ρ) c).arrAt_in 1 rfl _).trans (A_eq1 (V3 m ρ) c 1))
    | ⟨2, _⟩ => exact (W4_arr m ρ c 2).trans (((dat1 (V3 m ρ) c).arrAt_in 2 rfl _).trans (A_eq1 (V3 m ρ) c 2))
    | ⟨3, _⟩ => exact (W4_arr m ρ c 3).trans (((dat1 (V3 m ρ) c).arrAt_in 3 rfl _).trans (A_eq1 (V3 m ρ) c 3))
    | ⟨4, _⟩ => exact absurd rfl hb
    | ⟨_ + 5, h⟩ => exact absurd h (Nat.not_lt.2 (Nat.le_add_left _ _))
  · exact W4_of_ne m ρ c b fun w e => h ⟨w, e⟩

theorem keep2 (b : Ref sig .tc) (hb : b ≠ main_v37) :
    W6 m ρ c (Proc.devRef .tc b) = W5 m ρ c (Proc.devRef .tc b) := by
  by_cases h : ∃ w, Pipeline.arrRef spec2 w = b
  · obtain ⟨w, rfl⟩ := h
    match w with
    | ⟨0, _⟩ => exact (W6_arr m ρ c 0).trans (((dat2 (V5 m ρ) c).arrAt_in 0 rfl _).trans (A_eq2 (V5 m ρ) c 0))
    | ⟨1, _⟩ => exact (W6_arr m ρ c 1).trans (((dat2 (V5 m ρ) c).arrAt_in 1 rfl _).trans (A_eq2 (V5 m ρ) c 1))
    | ⟨2, _⟩ => exact (W6_arr m ρ c 2).trans (((dat2 (V5 m ρ) c).arrAt_in 2 rfl _).trans (A_eq2 (V5 m ρ) c 2))
    | ⟨3, _⟩ => exact (W6_arr m ρ c 3).trans (((dat2 (V5 m ρ) c).arrAt_in 3 rfl _).trans (A_eq2 (V5 m ρ) c 3))
    | ⟨4, _⟩ => exact absurd rfl hb
    | ⟨_ + 5, h⟩ => exact absurd h (Nat.not_lt.2 (Nat.le_add_left _ _))
  · exact W6_of_ne m ρ c b fun w e => h ⟨w, e⟩

theorem keep3 (b : Ref sig .tc) (hb : b ≠ main_v48) :
    W8 m ρ c (Proc.devRef .tc b) = W7 m ρ c (Proc.devRef .tc b) := by
  by_cases h : ∃ w, Pipeline.arrRef spec3 w = b
  · obtain ⟨w, rfl⟩ := h
    match w with
    | ⟨0, _⟩ => exact (W8_arr m ρ c 0).trans (((dat3 (V7 m ρ) c).arrAt_in 0 rfl _).trans (A_eq3 (V7 m ρ) c 0))
    | ⟨1, _⟩ => exact (W8_arr m ρ c 1).trans (((dat3 (V7 m ρ) c).arrAt_in 1 rfl _).trans (A_eq3 (V7 m ρ) c 1))
    | ⟨2, _⟩ => exact (W8_arr m ρ c 2).trans (((dat3 (V7 m ρ) c).arrAt_in 2 rfl _).trans (A_eq3 (V7 m ρ) c 2))
    | ⟨3, _⟩ => exact absurd rfl hb
    | ⟨_ + 4, h⟩ => exact absurd h (Nat.not_lt.2 (Nat.le_add_left _ _))
  · exact W8_of_ne m ρ c b fun w e => h ⟨w, e⟩

theorem keep4 (b : Ref sig .tc) (hb0 : b ≠ main_v50_0) (hb1 : b ≠ main_v50_1) :
    W10 m ρ c (Proc.devRef .tc b) = W9 m ρ c (Proc.devRef .tc b) := by
  by_cases h : ∃ w, Pipeline.arrRef spec4 w = b
  · obtain ⟨w, rfl⟩ := h
    match w with
    | ⟨0, _⟩ => exact (W10_arr m ρ c 0).trans (((dat4 (V9 m ρ) c).arrAt_in 0 rfl _).trans (A_eq4 (V9 m ρ) c 0))
    | ⟨1, _⟩ => exact (W10_arr m ρ c 1).trans (((dat4 (V9 m ρ) c).arrAt_in 1 rfl _).trans (A_eq4 (V9 m ρ) c 1))
    | ⟨2, _⟩ => exact absurd rfl hb0
    | ⟨3, _⟩ => exact absurd rfl hb1
    | ⟨_ + 4, h⟩ => exact absurd h (Nat.not_lt.2 (Nat.le_add_left _ _))
  · exact W10_of_ne m ρ c b fun w e => h ⟨w, e⟩

end Cert.Gcn

end
-- ==== Proof.Region0.lean ====
/-
  The first kernel's whole output array. Its grid has 8 points; point `t` reads rows `5000 t … 5000 t + 4999` of `x` and of
  the column `dinv`, all of `W`, and writes the same rows of the output: `(x W) (p, q) · dinv p`. The eight row blocks
  tile the array, so the array ends as that one function of the arrays the kernel found.
-/
import proofs.«428049_j83116207112815_2_alg».proof.Proof.Spec
import proofs.«428049_j83116207112815_2_alg».proof.Proof.LibKeepdims
import proofs.«428049_j83116207112815_2_alg».proof.Proof.Gen.KernelIdeal.Frame
import Idealize.ShloMosaic.Lib.Pipeline.Value
import Idealize.ShloMosaic.Lib.ValueLayout
import Idealize.ShloMosaic.PureOps.Ideal.Laws

set_option maxRecDepth 16384

noncomputable section

namespace Cert.Gcn.Region0

open Idealize.ShloMosaic Idealize.ShloMosaic.ValueIdx Idealize.ShloMosaic.TcCoe Idealize.ShloMosaic.Pipeline
open Cert.KernelIdeal Cert.KernelIdeal.Gen Cert.Gcn
open scoped BigOperators

/-! ## The body's arithmetic at an index of the block -/

/-- The matrix product's left operand index at output index `i` and contraction index `q`: its row is `i`'s row, -/
theorem lhs_mm_0 (i : S5000x128.Idx) (q : dot_S5000x7_S7x128_S5000x128_1_0_0_1_n_n.contr.Idx) :
    (dot_S5000x7_S7x128_S5000x128_1_0_0_1_n_n.lhsIdx i q 0).val = (i 0).val := by
  unfold DotDims.lhsIdx
  rw [dif_neg (show ¬(0 : Fin S5000x7.rank) ∈ dot_S5000x7_S7x128_S5000x128_1_0_0_1_n_n.lhsBatch by decide), dif_pos (show (0 : Fin S5000x7.rank) ∈ dot_S5000x7_S7x128_S5000x128_1_0_0_1_n_n.lhsNonContracting by decide)]
  rfl
/-- and its column the contraction index; -/
theorem lhs_mm_1 (i : S5000x128.Idx) (q : dot_S5000x7_S7x128_S5000x128_1_0_0_1_n_n.contr.Idx) :
    (dot_S5000x7_S7x128_S5000x128_1_0_0_1_n_n.lhsIdx i q 1).val = (q ⟨0, by decide⟩).val :=
  dot_S5000x7_S7x128_S5000x128_1_0_0_1_n_n.lhsIdx_val_of_single rfl i q
/-- the right operand's row is the contraction index -/
theorem rhs_mm_0 (i : S5000x128.Idx) (q : dot_S5000x7_S7x128_S5000x128_1_0_0_1_n_n.contr.Idx) :
    (dot_S5000x7_S7x128_S5000x128_1_0_0_1_n_n.rhsIdx i q 0).val = (q ⟨0, by decide⟩).val :=
  dot_S5000x7_S7x128_S5000x128_1_0_0_1_n_n.rhsIdx_val_of_single rfl i q
/-- and its column `i`'s column. -/
theorem rhs_mm_1 (i : S5000x128.Idx) (q : dot_S5000x7_S7x128_S5000x128_1_0_0_1_n_n.contr.Idx) :
    (dot_S5000x7_S7x128_S5000x128_1_0_0_1_n_n.rhsIdx i q 1).val = (i 1).val := by
  unfold DotDims.rhsIdx
  rw [dif_neg (show ¬(1 : Fin S7x128.rank) ∈ dot_S5000x7_S7x128_S5000x128_1_0_0_1_n_n.rhsBatch by decide), dif_pos (show (1 : Fin S7x128.rank) ∈ dot_S5000x7_S7x128_S5000x128_1_0_0_1_n_n.rhsNonContracting by decide)]
  rfl

/-- The matrix product into the zero accumulator, at `(r, q)`: the sum over the seven columns of `x`. -/
theorem mm_apply (a : FVec Ideal S5000x7 .bf16) (b : FVec Ideal S7x128 .bf16) (r : Fin 5000) (q : Fin 128) :
    matmul dot_S5000x7_S7x128_S5000x128_1_0_0_1_n_n none a b (constant (F := Ideal) S5000x128 .f32 0x00000000#32) (ix2 r q)
      = ∑ k : Fin 7, a (ix2 r k) * b (ix2 k q) := by
  simp only [matmul]
  rw [Ideal.matmul_constant_zero_apply, ← Equiv.sum_comp (ValueIdx.contrEquiv1 dot_S5000x7_S7x128_S5000x128_1_0_0_1_n_n 7 rfl rfl).symm]
  refine Finset.sum_congr rfl fun k _ => ?_
  have hk := ValueIdx.contrEquiv1_symm_val dot_S5000x7_S7x128_S5000x128_1_0_0_1_n_n 7 rfl rfl k
  have el : dot_S5000x7_S7x128_S5000x128_1_0_0_1_n_n.lhsIdx (ix2 r q) ((ValueIdx.contrEquiv1 dot_S5000x7_S7x128_S5000x128_1_0_0_1_n_n 7 rfl rfl).symm k) = ix2 r k := funext fun a => Fin.ext (by
    match a with
    | ⟨0, _⟩ => exact lhs_mm_0 _ _
    | ⟨1, _⟩ => exact (lhs_mm_1 _ _).trans hk)
  have er : dot_S5000x7_S7x128_S5000x128_1_0_0_1_n_n.rhsIdx (ix2 r q) ((ValueIdx.contrEquiv1 dot_S5000x7_S7x128_S5000x128_1_0_0_1_n_n 7 rfl rfl).symm k) = ix2 k q := funext fun a => Fin.ext (by
    match a with
    | ⟨0, _⟩ => exact (rhs_mm_0 _ _).trans hk
    | ⟨1, _⟩ => exact rhs_mm_1 _ _)
  rw [el, er]

/-- The body's result at `(r, q)` of its block: row `r` of `x` against column `q` of `W`, times the column's entry at `r`
    (at the extended reals the narrowing of the operands is the identity). -/
theorem pay_apply (x : Vec Ideal S5000x7 .f32) (W : Vec Ideal S7x128 .f32) (d : Vec Ideal S5000x1 .f32) (r : Fin 5000) (q : Fin 128) :
    k0_pay1 (F := Ideal) x W d (ix2 r q) = (∑ k : Fin 7, x (ix2 r k) * W (ix2 k q)) * d (ix2 r (0 : Fin 1)) := by
  unfold k0_pay1
  rw [mulf_apply, mm_apply, Keepdims.broadcastTo_a1_ab_apply, shapeCast_self]
  rfl

/-! ## The blocks a point reads and writes -/

variable (V : (c : Dev nD) → (b : Ref sig .tc) → Buf (Elt Ideal) ((c : Thread nD τ).loc b))

theorem zero_offsets : (![0, 0] : Fin 2 → Nat) = fun _ => 0 := funext fun a => by fin_cases a <;> rfl

/-- The index maps over the eight points: point `t` takes row block `t` of `x`, of the column and of the
    output, and the one block of `W`. -/
theorem idx_facts : ∀ t : Fin cfg0.N, win0_0.index t (0 : Fin 2) = t.val
    ∧ win0_0.index t (1 : Fin 2) = 0
    ∧ win0_1.index t (0 : Fin 2) = 0
    ∧ win0_1.index t (1 : Fin 2) = 0
    ∧ win0_2.index t (0 : Fin 2) = t.val
    ∧ win0_2.index t (1 : Fin 2) = 0
    ∧ win0_3.index t (0 : Fin 2) = t.val
    ∧ win0_3.index t (1 : Fin 2) = 0 :=
  (by decide +kernel : ∀ t : Fin grid0.N, _)

/-- Point `t`'s block of `x` at `(p, k)` is `x` at row `5000 t + p`, column `k`. -/
theorem blk_x_apply (c : Dev nD) (t : Fin cfg0.N) (p : Fin 5000) (k : Fin 7) (i : S40000x7.Idx)
    (h0 : (i 0).val = t.val * 5000 + p.val) (h1 : (i 1).val = k.val) :
    iblk0 V c 0 t (ix2 p k) = V c (Pipeline.arrRef spec0 0) i := by
  obtain ⟨e0, e1, e2, e3, e4, e5, e6, e7⟩ := idx_facts t
  show V c (Pipeline.arrRef spec0 0) (((cfg0.win 0).blk t).view.emb (ix2 p k)) = V c (Pipeline.arrRef spec0 0) i
  refine congrArg _ (funext fun a => Fin.ext ?_)
  match a with
  | ⟨0, _⟩ => show win0_0.index t (0 : Fin 2) * 5000 + 1 * p.val = (i 0).val; omega
  | ⟨1, _⟩ => show win0_0.index t (1 : Fin 2) * 7 + 1 * k.val = (i 1).val; omega

/-- Every point's block of `W` is `W`. -/
theorem blk_w_apply (c : Dev nD) (t : Fin cfg0.N) (k : Fin 7) (q : Fin 128) (i : S7x128.Idx)
    (h0 : (i 0).val = k.val) (h1 : (i 1).val = q.val) :
    iblk0 V c 1 t (ix2 k q) = V c (Pipeline.arrRef spec0 1) i := by
  obtain ⟨e0, e1, e2, e3, e4, e5, e6, e7⟩ := idx_facts t
  show V c (Pipeline.arrRef spec0 1) (((cfg0.win 1).blk t).view.emb (ix2 k q)) = V c (Pipeline.arrRef spec0 1) i
  refine congrArg _ (funext fun a => Fin.ext ?_)
  match a with
  | ⟨0, _⟩ => show win0_1.index t (0 : Fin 2) * 7 + 1 * k.val = (i 0).val; omega
  | ⟨1, _⟩ => show win0_1.index t (1 : Fin 2) * 128 + 1 * q.val = (i 1).val; omega

/-- Point `t`'s block of the column at `(p, u)` is the column at row `5000 t + p`. -/
theorem blk_d_apply (c : Dev nD) (t : Fin cfg0.N) (p : Fin 5000) (u : Fin 1) (i : S40000x1.Idx)
    (h0 : (i 0).val = t.val * 5000 + p.val) (h1 : (i 1).val = u.val) :
    iblk0 V c 2 t (ix2 p u) = V c (Pipeline.arrRef spec0 2) i := by
  obtain ⟨e0, e1, e2, e3, e4, e5, e6, e7⟩ := idx_facts t
  show V c (Pipeline.arrRef spec0 2) (((cfg0.win 2).blk t).view.emb (ix2 p u)) = V c (Pipeline.arrRef spec0 2) i
  refine congrArg _ (funext fun a => Fin.ext ?_)
  match a with
  | ⟨0, _⟩ => show win0_2.index t (0 : Fin 2) * 5000 + 1 * p.val = (i 0).val; omega
  | ⟨1, _⟩ => show win0_2.index t (1 : Fin 2) * 1 + 1 * u.val = (i 1).val; omega

/-- The body's result at `(p, q)` of point `t`'s block is `lin0` of the arrays at row `5000 t + p`, column `q`. -/
theorem point_apply (c : Dev nD) (t : Fin cfg0.N) (p : Fin 5000) (q : Fin 128) (i : S40000x128.Idx)
    (h0 : (i 0).val = t.val * 5000 + p.val) (h1 : (i 1).val = q.val) :
    k0_pay1 (F := Ideal) (iblk0 V c 0 t) (iblk0 V c 1 t) (iblk0 V c 2 t) (ix2 p q)
      = lin0 (V c (Pipeline.arrRef spec0 0)) (V c (Pipeline.arrRef spec0 1)) (V c (Pipeline.arrRef spec0 2)) i := by
  rw [pay_apply]
  unfold lin0
  refine congrArg₂ (· * ·) (Finset.sum_congr rfl fun k _ => congrArg₂ (· * ·) ?_ ?_) ?_
  · exact blk_x_apply V c t p k _ h0 rfl
  · exact blk_w_apply V c t k q _ rfl h1
  · exact blk_d_apply V c t p 0 _ h0 rfl

/-- WHAT POINT `t` WRITES BACK is block `t` of `lin0` of the arrays the region is entered with. -/
theorem flushed_eq (c : Dev nD) (t : Fin cfg0.N) :
    (dat0 (F := Ideal) V c).flushed 3 t = ((cfg0.win 3).blk t).view.read (Elt Ideal)
      (lin0 (V c (Pipeline.arrRef spec0 0)) (V c (Pipeline.arrRef spec0 1)) (V c (Pipeline.arrRef spec0 2))) := by
  show (cfg0.win 3).cut (grid0.coords t) ((dat0 V c).after 3 t) = _
  rw [after0_3]
  unfold out0_3
  rw [View.canon_unit_zero zero_offsets]
  simp only [View.ld_unit_zero (S := S5000x7) zero_offsets, View.ld_unit_zero (S := S7x128) zero_offsets, View.ld_unit_zero (S := S5000x1) zero_offsets]
  obtain ⟨e0, e1, e2, e3, e4, e5, e6, e7⟩ := idx_facts t
  funext j
  show k0_pay1 (F := Ideal) (iblk0 V c 0 t) (iblk0 V c 1 t) (iblk0 V c 2 t) j
    = lin0 (V c (Pipeline.arrRef spec0 0)) (V c (Pipeline.arrRef spec0 1)) (V c (Pipeline.arrRef spec0 2)) (((cfg0.win 3).blk t).view.emb j)
  refine (congrArg (k0_pay1 (F := Ideal) (iblk0 V c 0 t) (iblk0 V c 1 t) (iblk0 V c 2 t)) (eq_ix2 (n0 := 5000) (n1 := 128) j)).trans ?_
  refine point_apply V c t (j 0) (j 1) _ ?_ ?_
  · show win0_3.index t (0 : Fin 2) * 5000 + 1 * (j 0).val = t.val * 5000 + (j 0).val; omega
  · show win0_3.index t (1 : Fin 2) * 128 + 1 * (j 1).val = (j 1).val; omega

/-- An index of the array is in point `t`'s block iff each coordinate is in the block's range on its axis. -/
theorem mem_blk (t : Fin cfg0.N) (i : S40000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v15).slice (win0_3.rect t)).set ↔ _
  rw [View.set_slice_whole, Rect.mem_set_unit]
  exact Iff.rfl

/-- Row `r` of the array is in the block of point `r / 5000`: the eight row blocks cover the array. -/
theorem cover (i : S40000x128.Idx) : ∃ t : Fin cfg0.N, (cfg0.win 3).flush t = true ∧ i ∈ ((cfg0.win 3).blk t).view.set := by
  have hi0 : (i 0).val < 40000 := (i 0).isLt
  have hi1 : (i 1).val < 128 := (i 1).isLt
  obtain ⟨t, ht⟩ : ∃ t : Fin cfg0.N, t.val = (i 0).val / 5000 := ⟨⟨(i 0).val / 5000, by show (i 0).val / 5000 < 8; omega⟩, rfl⟩
  obtain ⟨e0, e1, e2, e3, e4, e5, e6, e7⟩ := idx_facts t
  refine ⟨t, flush0_3 t, ?_⟩
  rw [mem_blk]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 128 ≤ (i 1).val ∧ (i 1).val < win0_3.index t (1 : Fin 2) * 128 + 128; omega

/-- The output array after the first kernel's run, as one function of the arrays the region is entered with. -/
theorem value (c : Dev nD) :
    (dat0 (F := Ideal) V c).arrAt 3 cfg0.N
      = lin0 (V c (Pipeline.arrRef spec0 0)) (V c (Pipeline.arrRef spec0 1)) (V c (Pipeline.arrRef spec0 2)) :=
  (dat0 (F := Ideal) V c).arrAt_eq_of_cover 3 _ (fun t _ => flushed_eq V c t) cover

end Cert.Gcn.Region0

end
-- ==== Proof.Region1.lean ====
/-
  The second kernel's whole output array. Point `t` of its 8-point grid reads rows `5000 t … 5000 t + 4999` of the
  propagated features and of the column `dinv`, all of the bias and of `W`, and writes the same rows of the output:
  `(∑_k max (agg (p, k) · dinv p + b k) 0 · W (k, q)) · dinv p`. The eight row blocks tile the array.
-/
import proofs.«428049_j83116207112815_2_alg».proof.Proof.Spec
import proofs.«428049_j83116207112815_2_alg».proof.Proof.LibKeepdims
import proofs.«428049_j83116207112815_2_alg».proof.Proof.Gen.KernelIdeal.Frame
import Idealize.ShloMosaic.Lib.Pipeline.Value
import Idealize.ShloMosaic.Lib.ValueLayout
import Idealize.ShloMosaic.PureOps.Ideal.Laws

set_option maxRecDepth 16384

noncomputable section

namespace Cert.Gcn.Region1

open Idealize.ShloMosaic Idealize.ShloMosaic.ValueIdx Idealize.ShloMosaic.TcCoe Idealize.ShloMosaic.Pipeline
open Cert.KernelIdeal Cert.KernelIdeal.Gen Cert.Gcn

variable (V : (c : Dev nD) → (b : Ref sig .tc) → Buf (Elt Ideal) ((c : Thread nD τ).loc b))

/-! ## The product's operand indices

The contraction runs over the second axis of the left operand and the first axis of the right one; at output index
`i` and contraction position `q` the operands are read at `(i 0, q)` and `(q, i 1)`. -/

theorem lhs_dot_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_dot_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhs_dot_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhs_dot_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The block product into the zero accumulator, read at `(r, q)`: the sum over the 128 contraction positions. -/
theorem matmul_zero_apply (A : FVec Ideal S5000x128 .bf16) (B : FVec Ideal S128x128 .bf16) (r : Fin 5000) (q : Fin 128) :
    matmul (F := Ideal) dot_S5000x128_S128x128_S5000x128_1_0_0_1_n_n none A B (constant (F := Ideal) S5000x128 .f32 0x00000000#32) (ix2 r q)
      = ∑ k : Fin 128, A (ix2 r k) * B (ix2 k q) := by
  simp only [matmul]
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 r q) ((contrEquiv1 dot_S5000x128_S128x128_S5000x128_1_0_0_1_n_n 128 rfl rfl).symm k) = ix2 r k := funext fun a => Fin.ext (by
    match a with
    | ⟨0, _⟩ => exact lhs_dot_0 _ _
    | ⟨1, _⟩ => exact (lhs_dot_1 _ _).trans hk)
  have er : dot_S5000x128_S128x128_S5000x128_1_0_0_1_n_n.rhsIdx (ix2 r q) ((contrEquiv1 dot_S5000x128_S128x128_S5000x128_1_0_0_1_n_n 128 rfl rfl).symm k) = ix2 k q := funext fun a => Fin.ext (by
    match a with
    | ⟨0, _⟩ => exact (rhs_dot_0 _ _).trans hk
    | ⟨1, _⟩ => exact rhs_dot_1 _ _)
  rw [el, er]

/-! ## The body's arithmetic at an index -/

/-- The stored value at row `r`, column `q` of the block, from the five loaded blocks. -/
theorem pay_apply (x0 : Vec Ideal S5000x128 .f32) (x1 : Vec Ideal S5000x1 .f32) (x2 : Vec Ideal S128 .f32) (x3 : Vec Ideal S128x128 .f32)
    (x4 : Vec Ideal S5000x1 .f32) (r : Fin 5000) (q : Fin 128) :
    k1_pay1 (F := Ideal) x0 x1 x2 x3 x4 (ix2 r q)
      = (∑ k : Fin 128, max (x0 (ix2 r k) * x1 (ix2 r (0 : Fin 1)) + x2 (ix1 k)) 0 * x3 (ix2 k q)) * x4 (ix2 r (0 : Fin 1)) := by
  have hzero : (FloatOps.ofBits (F := Ideal) .f32 0x00000000#32) = (0 : EReal) := Ideal.ofBits_zero_f32
  unfold k1_pay1
  rw [mulf_apply, Keepdims.broadcastTo_a1_ab_apply, matmul_zero_apply]
  simp only [shapeCast_self]
  refine congrArg (· * x4 (ix2 r (0 : Fin 1))) (Finset.sum_congr rfl fun k _ => ?_)
  rw [truncf_apply, truncf_apply, maximumf_apply, addf_apply, mulf_apply, broadcast_apply,
    Keepdims.broadcastTo_a1_ab_apply, broadcastTo_1b_ab_apply, shapeCast_a_1a_apply, hzero]

/-! ## The blocks of a point -/

theorem zero2 : (![0, 0] : Fin 2 → Nat) = fun _ => 0 := funext fun a => by fin_cases a <;> rfl
theorem zero1 : (![0] : Fin 1 → Nat) = fun _ => 0 := funext fun a => by fin_cases a <;> rfl

/-- The index maps over the eight points: the feature block and the column block sit at the output's row block,
    the bias and the weight matrix are whole, and the output's row block at point `t` is block `t`. -/
theorem idx_facts : ∀ t : Fin cfg1.N,
    win1_0.index t (0 : Fin 2) = win1_4.index t (0 : Fin 2) ∧ win1_0.index t (1 : Fin 2) = 0
    ∧ win1_1.index t (0 : Fin 2) = win1_4.index t (0 : Fin 2) ∧ win1_1.index t (1 : Fin 2) = 0
    ∧ win1_2.index t (0 : Fin 1) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- The stage's function at an index given by its two coordinates. -/
theorem lin1_ix2 (agg : Arr S40000x128 .f32) (d : Arr S40000x1 .f32) (b : Arr S128 .f32) (W : Arr S128x128 .f32)
    (p : Fin 40000) (q : Fin 128) :
    lin1 agg d b W (ix2 p q)
      = (∑ k : Fin 128, max (agg (ix2 p k) * d (ix2 p (0 : Fin 1)) + b (ix1 k)) 0 * W (ix2 k q)) * d (ix2 p (0 : Fin 1)) := rfl

set_option maxHeartbeats 2000000 in
/-- What point `t` writes back is block `t` of the stage's function of the arrays the region is entered with. -/
theorem flushed_eq (c : Dev nD) (t : Fin cfg1.N) :
    (dat1 (F := Ideal) V c).flushed 4 t
      = ((cfg1.win 4).blk t).view.read (Elt Ideal)
          (lin1 (V c (Pipeline.arrRef spec1 0)) (V c (Pipeline.arrRef spec1 1)) (V c (Pipeline.arrRef spec1 2)) (V c (Pipeline.arrRef spec1 3))) := by
  show (cfg1.win 4).cut (grid1.coords t) ((dat1 (F := Ideal) V c).after 4 t) = _
  rw [after1_4]
  unfold out1_4
  rw [View.canon_unit_zero zero2]
  simp only [View.ld_unit_zero (S := S5000x128) zero2, View.ld_unit_zero (S := S5000x1) zero2,
    View.ld_unit_zero (S := S128) zero1, View.ld_unit_zero (S := S128x128) zero2]
  obtain ⟨e00, e01, e10, e11, e20, e30, e31, e40, e41⟩ := idx_facts t
  have ht : t.val < 8 := t.isLt
  refine funext fun (j : S5000x128.Idx) => ?_
  obtain ⟨r, q, rfl⟩ : ∃ (r : Fin 5000) (q : Fin 128), j = ix2 r q := ⟨j 0, j 1, eq_ix2 j⟩
  have hr : r.val < 5000 := r.isLt
  show k1_pay1 (F := Ideal) (iblk1 V c 0 t) (iblk1 V c 1 t) (iblk1 V c 2 t) (iblk1 V c 3 t) (iblk1 V c 1 t) (ix2 r q)
    = lin1 (V c (Pipeline.arrRef spec1 0)) (V c (Pipeline.arrRef spec1 1)) (V c (Pipeline.arrRef spec1 2)) (V c (Pipeline.arrRef spec1 3))
        (((cfg1.win 4).blk t).view.emb (ix2 r q))
  have hrow : win1_4.index t (0 : Fin 2) * 5000 + 1 * r.val < 40000 := by omega
  have hi : ((cfg1.win 4).blk t).view.emb (ix2 r q)
      = ix2 (⟨win1_4.index t (0 : Fin 2) * 5000 + 1 * r.val, hrow⟩ : Fin 40000) q := by
    funext a; apply Fin.ext
    match a with
    | ⟨0, _⟩ => rfl
    | ⟨1, _⟩ => show win1_4.index t (1 : Fin 2) * 128 + 1 * q.val = q.val; omega
  have h0 : ∀ k : Fin 128, iblk1 (F := Ideal) V c 0 t (ix2 r k)
      = V c (Pipeline.arrRef spec1 0) (ix2 (⟨win1_4.index t (0 : Fin 2) * 5000 + 1 * r.val, hrow⟩ : Fin 40000) k) := fun k => by
    show V c (Pipeline.arrRef spec1 0) (((cfg1.win 0).blk t).view.emb (ix2 r k)) = _
    refine congrArg (V c (Pipeline.arrRef spec1 0)) (funext fun a => Fin.ext ?_)
    match a with
    | ⟨0, _⟩ => show win1_0.index t (0 : Fin 2) * 5000 + 1 * r.val = win1_4.index t (0 : Fin 2) * 5000 + 1 * r.val; omega
    | ⟨1, _⟩ => show win1_0.index t (1 : Fin 2) * 128 + 1 * k.val = k.val; omega
  have h1 : iblk1 (F := Ideal) V c 1 t (ix2 r (0 : Fin 1))
      = V c (Pipeline.arrRef spec1 1) (ix2 (⟨win1_4.index t (0 : Fin 2) * 5000 + 1 * r.val, hrow⟩ : Fin 40000) (0 : Fin 1)) := by
    show V c (Pipeline.arrRef spec1 1) (((cfg1.win 1).blk t).view.emb (ix2 r (0 : Fin 1))) = _
    refine congrArg (V c (Pipeline.arrRef spec1 1)) (funext fun a => Fin.ext ?_)
    match a with
    | ⟨0, _⟩ => show win1_1.index t (0 : Fin 2) * 5000 + 1 * r.val = win1_4.index t (0 : Fin 2) * 5000 + 1 * r.val; omega
    | ⟨1, _⟩ => show win1_1.index t (1 : Fin 2) * 1 + 1 * 0 = 0; omega
  have h2 : ∀ k : Fin 128, iblk1 (F := Ideal) V c 2 t (ix1 k) = V c (Pipeline.arrRef spec1 2) (ix1 k) := fun k => by
    show V c (Pipeline.arrRef spec1 2) (((cfg1.win 2).blk t).view.emb (ix1 k)) = _
    refine congrArg (V c (Pipeline.arrRef spec1 2)) (funext fun a => Fin.ext ?_)
    match a with
    | ⟨0, _⟩ => show win1_2.index t (0 : Fin 1) * 128 + 1 * k.val = k.val; omega
  have h3 : ∀ k : Fin 128, iblk1 (F := Ideal) V c 3 t (ix2 k q) = V c (Pipeline.arrRef spec1 3) (ix2 k q) := fun k => by
    show V c (Pipeline.arrRef spec1 3) (((cfg1.win 3).blk t).view.emb (ix2 k q)) = _
    refine congrArg (V c (Pipeline.arrRef spec1 3)) (funext fun a => Fin.ext ?_)
    match a with
    | ⟨0, _⟩ => show win1_3.index t (0 : Fin 2) * 128 + 1 * k.val = k.val; omega
    | ⟨1, _⟩ => show win1_3.index t (1 : Fin 2) * 128 + 1 * q.val = q.val; omega
  rw [hi, lin1_ix2, pay_apply, h1]
  refine congrArg (· * _) (Finset.sum_congr rfl fun k _ => ?_)
  rw [h0 k, h2 k, h3 k]

/-! ## From the blocks to the array -/

/-- An index of the output array is in point `t`'s block iff each coordinate is in the block's range on its axis. -/
theorem mem_blk (t : Fin cfg1.N) (i : S40000x128.Idx) :
    i ∈ ((cfg1.win 4).blk t).view.set ↔ ∀ a : Fin 2, win1_4.index t a * S5000x128.size a ≤ (i a).val ∧ (i a).val < win1_4.index t a * S5000x128.size a + S5000x128.size a := by
  show i ∈ ((View.whole main_v26).slice (win1_4.rect t)).set ↔ _
  rw [View.set_slice_whole, Rect.mem_set_unit]
  exact Iff.rfl

/-- Row `p` of the output array lies in the block of point `p / 5000`: the eight row blocks tile the array. -/
theorem cover (i : S40000x128.Idx) : ∃ t : Fin cfg1.N, (cfg1.win 4).flush t = true ∧ i ∈ ((cfg1.win 4).blk t).view.set := by
  have hi0 : (i 0).val < 40000 := (i 0).isLt
  have hi1 : (i 1).val < 128 := (i 1).isLt
  have hN : (i 0).val / 5000 < cfg1.N := by show _ < 8; omega
  obtain ⟨-, -, -, -, -, -, -, e40, e41⟩ := idx_facts ⟨(i 0).val / 5000, hN⟩
  have e40' : win1_4.index ⟨(i 0).val / 5000, hN⟩ (0 : Fin 2) = (i 0).val / 5000 := e40
  refine ⟨⟨(i 0).val / 5000, hN⟩, flush1_4 _, ?_⟩
  rw [mem_blk]
  intro a
  match a with
  | ⟨0, _⟩ =>
    show win1_4.index ⟨(i 0).val / 5000, hN⟩ (0 : Fin 2) * 5000 ≤ (i 0).val ∧ (i 0).val < win1_4.index ⟨(i 0).val / 5000, hN⟩ (0 : Fin 2) * 5000 + 5000
    omega
  | ⟨1, _⟩ =>
    show win1_4.index ⟨(i 0).val / 5000, hN⟩ (1 : Fin 2) * 128 ≤ (i 1).val ∧ (i 1).val < win1_4.index ⟨(i 0).val / 5000, hN⟩ (1 : Fin 2) * 128 + 128
    omega

/-- The output array after the kernel's run, as one function of the arrays the region is entered with. -/
theorem value (c : Dev nD) :
    (dat1 (F := Ideal) V c).arrAt 4 cfg1.N
      = lin1 (V c (Pipeline.arrRef spec1 0)) (V c (Pipeline.arrRef spec1 1)) (V c (Pipeline.arrRef spec1 2)) (V c (Pipeline.arrRef spec1 3)) :=
  (dat1 (F := Ideal) V c).arrAt_eq_of_cover 4 _ (fun t _ => flushed_eq V c t) cover

end Cert.Gcn.Region1

end
-- ==== Proof.Region2.lean ====
/-
  The third kernel's whole output array. Point `t` of its 8-point grid reads rows `5000 t … 5000 t + 4999` of the
  propagated features and of the column `dinv`, all of the bias and of `W`, and writes the same rows of the output:
  `(∑_k max (agg (p, k) · dinv p + b k) 0 · W (k, q)) · dinv p`. The eight row blocks tile the array.
-/
import proofs.«428049_j83116207112815_2_alg».proof.Proof.Spec
import proofs.«428049_j83116207112815_2_alg».proof.Proof.LibKeepdims
import proofs.«428049_j83116207112815_2_alg».proof.Proof.Gen.KernelIdeal.Frame
import Idealize.ShloMosaic.Lib.Pipeline.Value
import Idealize.ShloMosaic.Lib.ValueLayout
import Idealize.ShloMosaic.PureOps.Ideal.Laws

set_option maxRecDepth 16384

noncomputable section

namespace Cert.Gcn.Region2

open Idealize.ShloMosaic Idealize.ShloMosaic.ValueIdx Idealize.ShloMosaic.TcCoe Idealize.ShloMosaic.Pipeline
open Cert.KernelIdeal Cert.KernelIdeal.Gen Cert.Gcn

variable (V : (c : Dev nD) → (b : Ref sig .tc) → Buf (Elt Ideal) ((c : Thread nD τ).loc b))

/-! ## The product's operand indices

The contraction runs over the second axis of the left operand and the first axis of the right one; at output index
`i` and contraction position `q` the operands are read at `(i 0, q)` and `(q, i 1)`. -/

theorem lhs_dot_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_dot_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhs_dot_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhs_dot_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The block product into the zero accumulator, read at `(r, q)`: the sum over the 128 contraction positions. -/
theorem matmul_zero_apply (A : FVec Ideal S5000x128 .bf16) (B : FVec Ideal S128x128 .bf16) (r : Fin 5000) (q : Fin 128) :
    matmul (F := Ideal) dot_S5000x128_S128x128_S5000x128_1_0_0_1_n_n none A B (constant (F := Ideal) S5000x128 .f32 0x00000000#32) (ix2 r q)
      = ∑ k : Fin 128, A (ix2 r k) * B (ix2 k q) := by
  simp only [matmul]
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 r q) ((contrEquiv1 dot_S5000x128_S128x128_S5000x128_1_0_0_1_n_n 128 rfl rfl).symm k) = ix2 r k := funext fun a => Fin.ext (by
    match a with
    | ⟨0, _⟩ => exact lhs_dot_0 _ _
    | ⟨1, _⟩ => exact (lhs_dot_1 _ _).trans hk)
  have er : dot_S5000x128_S128x128_S5000x128_1_0_0_1_n_n.rhsIdx (ix2 r q) ((contrEquiv1 dot_S5000x128_S128x128_S5000x128_1_0_0_1_n_n 128 rfl rfl).symm k) = ix2 k q := funext fun a => Fin.ext (by
    match a with
    | ⟨0, _⟩ => exact (rhs_dot_0 _ _).trans hk
    | ⟨1, _⟩ => exact rhs_dot_1 _ _)
  rw [el, er]

/-! ## The body's arithmetic at an index -/

/-- The stored value at row `r`, column `q` of the block, from the five loaded blocks. -/
theorem pay_apply (x0 : Vec Ideal S5000x128 .f32) (x1 : Vec Ideal S5000x1 .f32) (x2 : Vec Ideal S128 .f32) (x3 : Vec Ideal S128x128 .f32)
    (x4 : Vec Ideal S5000x1 .f32) (r : Fin 5000) (q : Fin 128) :
    k2_pay1 (F := Ideal) x0 x1 x2 x3 x4 (ix2 r q)
      = (∑ k : Fin 128, max (x0 (ix2 r k) * x1 (ix2 r (0 : Fin 1)) + x2 (ix1 k)) 0 * x3 (ix2 k q)) * x4 (ix2 r (0 : Fin 1)) := by
  have hzero : (FloatOps.ofBits (F := Ideal) .f32 0x00000000#32) = (0 : EReal) := Ideal.ofBits_zero_f32
  unfold k2_pay1
  rw [mulf_apply, Keepdims.broadcastTo_a1_ab_apply, matmul_zero_apply]
  simp only [shapeCast_self]
  refine congrArg (· * x4 (ix2 r (0 : Fin 1))) (Finset.sum_congr rfl fun k _ => ?_)
  rw [truncf_apply, truncf_apply, maximumf_apply, addf_apply, mulf_apply, broadcast_apply,
    Keepdims.broadcastTo_a1_ab_apply, broadcastTo_1b_ab_apply, shapeCast_a_1a_apply, hzero]

/-! ## The blocks of a point -/

theorem zero2 : (![0, 0] : Fin 2 → Nat) = fun _ => 0 := funext fun a => by fin_cases a <;> rfl
theorem zero1 : (![0] : Fin 1 → Nat) = fun _ => 0 := funext fun a => by fin_cases a <;> rfl

/-- The index maps over the eight points: the feature block and the column block sit at the output's row block,
    the bias and the weight matrix are whole, and the output's row block at point `t` is block `t`. -/
theorem idx_facts : ∀ t : Fin cfg2.N,
    win2_0.index t (0 : Fin 2) = win2_4.index t (0 : Fin 2) ∧ win2_0.index t (1 : Fin 2) = 0
    ∧ win2_1.index t (0 : Fin 2) = win2_4.index t (0 : Fin 2) ∧ win2_1.index t (1 : Fin 2) = 0
    ∧ win2_2.index t (0 : Fin 1) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

/-- The stage's function at an index given by its two coordinates. -/
theorem lin1_ix2 (agg : Arr S40000x128 .f32) (d : Arr S40000x1 .f32) (b : Arr S128 .f32) (W : Arr S128x128 .f32)
    (p : Fin 40000) (q : Fin 128) :
    lin1 agg d b W (ix2 p q)
      = (∑ k : Fin 128, max (agg (ix2 p k) * d (ix2 p (0 : Fin 1)) + b (ix1 k)) 0 * W (ix2 k q)) * d (ix2 p (0 : Fin 1)) := rfl

set_option maxHeartbeats 2000000 in
/-- What point `t` writes back is block `t` of the stage's function of the arrays the region is entered with. -/
theorem flushed_eq (c : Dev nD) (t : Fin cfg2.N) :
    (dat2 (F := Ideal) V c).flushed 4 t
      = ((cfg2.win 4).blk t).view.read (Elt Ideal)
          (lin1 (V c (Pipeline.arrRef spec2 0)) (V c (Pipeline.arrRef spec2 1)) (V c (Pipeline.arrRef spec2 2)) (V c (Pipeline.arrRef spec2 3))) := by
  show (cfg2.win 4).cut (grid2.coords t) ((dat2 (F := Ideal) V c).after 4 t) = _
  rw [after2_4]
  unfold out2_4
  rw [View.canon_unit_zero zero2]
  simp only [View.ld_unit_zero (S := S5000x128) zero2, View.ld_unit_zero (S := S5000x1) zero2,
    View.ld_unit_zero (S := S128) zero1, View.ld_unit_zero (S := S128x128) zero2]
  obtain ⟨e00, e01, e10, e11, e20, e30, e31, e40, e41⟩ := idx_facts t
  have ht : t.val < 8 := t.isLt
  refine funext fun (j : S5000x128.Idx) => ?_
  obtain ⟨r, q, rfl⟩ : ∃ (r : Fin 5000) (q : Fin 128), j = ix2 r q := ⟨j 0, j 1, eq_ix2 j⟩
  have hr : r.val < 5000 := r.isLt
  show k2_pay1 (F := Ideal) (iblk2 V c 0 t) (iblk2 V c 1 t) (iblk2 V c 2 t) (iblk2 V c 3 t) (iblk2 V c 1 t) (ix2 r q)
    = lin1 (V c (Pipeline.arrRef spec2 0)) (V c (Pipeline.arrRef spec2 1)) (V c (Pipeline.arrRef spec2 2)) (V c (Pipeline.arrRef spec2 3))
        (((cfg2.win 4).blk t).view.emb (ix2 r q))
  have hrow : win2_4.index t (0 : Fin 2) * 5000 + 1 * r.val < 40000 := by omega
  have hi : ((cfg2.win 4).blk t).view.emb (ix2 r q)
      = ix2 (⟨win2_4.index t (0 : Fin 2) * 5000 + 1 * r.val, hrow⟩ : Fin 40000) q := by
    funext a; apply Fin.ext
    match a with
    | ⟨0, _⟩ => rfl
    | ⟨1, _⟩ => show win2_4.index t (1 : Fin 2) * 128 + 1 * q.val = q.val; omega
  have h0 : ∀ k : Fin 128, iblk2 (F := Ideal) V c 0 t (ix2 r k)
      = V c (Pipeline.arrRef spec2 0) (ix2 (⟨win2_4.index t (0 : Fin 2) * 5000 + 1 * r.val, hrow⟩ : Fin 40000) k) := fun k => by
    show V c (Pipeline.arrRef spec2 0) (((cfg2.win 0).blk t).view.emb (ix2 r k)) = _
    refine congrArg (V c (Pipeline.arrRef spec2 0)) (funext fun a => Fin.ext ?_)
    match a with
    | ⟨0, _⟩ => show win2_0.index t (0 : Fin 2) * 5000 + 1 * r.val = win2_4.index t (0 : Fin 2) * 5000 + 1 * r.val; omega
    | ⟨1, _⟩ => show win2_0.index t (1 : Fin 2) * 128 + 1 * k.val = k.val; omega
  have h1 : iblk2 (F := Ideal) V c 1 t (ix2 r (0 : Fin 1))
      = V c (Pipeline.arrRef spec2 1) (ix2 (⟨win2_4.index t (0 : Fin 2) * 5000 + 1 * r.val, hrow⟩ : Fin 40000) (0 : Fin 1)) := by
    show V c (Pipeline.arrRef spec2 1) (((cfg2.win 1).blk t).view.emb (ix2 r (0 : Fin 1))) = _
    refine congrArg (V c (Pipeline.arrRef spec2 1)) (funext fun a => Fin.ext ?_)
    match a with
    | ⟨0, _⟩ => show win2_1.index t (0 : Fin 2) * 5000 + 1 * r.val = win2_4.index t (0 : Fin 2) * 5000 + 1 * r.val; omega
    | ⟨1, _⟩ => show win2_1.index t (1 : Fin 2) * 1 + 1 * 0 = 0; omega
  have h2 : ∀ k : Fin 128, iblk2 (F := Ideal) V c 2 t (ix1 k) = V c (Pipeline.arrRef spec2 2) (ix1 k) := fun k => by
    show V c (Pipeline.arrRef spec2 2) (((cfg2.win 2).blk t).view.emb (ix1 k)) = _
    refine congrArg (V c (Pipeline.arrRef spec2 2)) (funext fun a => Fin.ext ?_)
    match a with
    | ⟨0, _⟩ => show win2_2.index t (0 : Fin 1) * 128 + 1 * k.val = k.val; omega
  have h3 : ∀ k : Fin 128, iblk2 (F := Ideal) V c 3 t (ix2 k q) = V c (Pipeline.arrRef spec2 3) (ix2 k q) := fun k => by
    show V c (Pipeline.arrRef spec2 3) (((cfg2.win 3).blk t).view.emb (ix2 k q)) = _
    refine congrArg (V c (Pipeline.arrRef spec2 3)) (funext fun a => Fin.ext ?_)
    match a with
    | ⟨0, _⟩ => show win2_3.index t (0 : Fin 2) * 128 + 1 * k.val = k.val; omega
    | ⟨1, _⟩ => show win2_3.index t (1 : Fin 2) * 128 + 1 * q.val = q.val; omega
  rw [hi, lin1_ix2, pay_apply, h1]
  refine congrArg (· * _) (Finset.sum_congr rfl fun k _ => ?_)
  rw [h0 k, h2 k, h3 k]

/-! ## From the blocks to the array -/

/-- An index of the output array is in point `t`'s block iff each coordinate is in the block's range on its axis. -/
theorem mem_blk (t : Fin cfg2.N) (i : S40000x128.Idx) :
    i ∈ ((cfg2.win 4).blk t).view.set ↔ ∀ a : Fin 2, win2_4.index t a * S5000x128.size a ≤ (i a).val ∧ (i a).val < win2_4.index t a * S5000x128.size a + S5000x128.size a := by
  show i ∈ ((View.whole main_v37).slice (win2_4.rect t)).set ↔ _
  rw [View.set_slice_whole, Rect.mem_set_unit]
  exact Iff.rfl

/-- Row `p` of the output array lies in the block of point `p / 5000`: the eight row blocks tile the array. -/
theorem cover (i : S40000x128.Idx) : ∃ t : Fin cfg2.N, (cfg2.win 4).flush t = true ∧ i ∈ ((cfg2.win 4).blk t).view.set := by
  have hi0 : (i 0).val < 40000 := (i 0).isLt
  have hi1 : (i 1).val < 128 := (i 1).isLt
  have hN : (i 0).val / 5000 < cfg2.N := by show _ < 8; omega
  obtain ⟨-, -, -, -, -, -, -, e40, e41⟩ := idx_facts ⟨(i 0).val / 5000, hN⟩
  have e40' : win2_4.index ⟨(i 0).val / 5000, hN⟩ (0 : Fin 2) = (i 0).val / 5000 := e40
  refine ⟨⟨(i 0).val / 5000, hN⟩, flush2_4 _, ?_⟩
  rw [mem_blk]
  intro a
  match a with
  | ⟨0, _⟩ =>
    show win2_4.index ⟨(i 0).val / 5000, hN⟩ (0 : Fin 2) * 5000 ≤ (i 0).val ∧ (i 0).val < win2_4.index ⟨(i 0).val / 5000, hN⟩ (0 : Fin 2) * 5000 + 5000
    omega
  | ⟨1, _⟩ =>
    show win2_4.index ⟨(i 0).val / 5000, hN⟩ (1 : Fin 2) * 128 ≤ (i 1).val ∧ (i 1).val < win2_4.index ⟨(i 0).val / 5000, hN⟩ (1 : Fin 2) * 128 + 128
    omega

/-- The output array after the kernel's run, as one function of the arrays the region is entered with. -/
theorem value (c : Dev nD) :
    (dat2 (F := Ideal) V c).arrAt 4 cfg2.N
      = lin1 (V c (Pipeline.arrRef spec2 0)) (V c (Pipeline.arrRef spec2 1)) (V c (Pipeline.arrRef spec2 2)) (V c (Pipeline.arrRef spec2 3)) :=
  (dat2 (F := Ideal) V c).arrAt_eq_of_cover 4 _ (fun t _ => flushed_eq V c t) cover

end Cert.Gcn.Region2

end
-- ==== Proof.Region3.lean ====
/-
  The fourth kernel's whole output array: point `t` writes rows `5000 t … 5000 t + 4999` of `agg (p, q) · dinv p + b q`;
  the eight row blocks tile the array.
-/
import proofs.«428049_j83116207112815_2_alg».proof.Proof.Spec
import proofs.«428049_j83116207112815_2_alg».proof.Proof.LibKeepdims
import proofs.«428049_j83116207112815_2_alg».proof.Proof.Gen.KernelIdeal.Frame
import Idealize.ShloMosaic.Lib.Pipeline.Value
import Idealize.ShloMosaic.Lib.ValueLayout
import Idealize.ShloMosaic.PureOps.Ideal.Laws

set_option maxRecDepth 16384

noncomputable section

namespace Cert.Gcn.Region3

open Idealize.ShloMosaic Idealize.ShloMosaic.ValueIdx Idealize.ShloMosaic.TcCoe Idealize.ShloMosaic.Pipeline
open Cert.KernelIdeal Cert.KernelIdeal.Gen Cert.Gcn

/-! ## The body's arithmetic at an index of the block -/

/-- The body's result at `(r, q)` of its block: the aggregate there times the column's entry at `r`, plus the bias at `q`. -/
theorem pay_apply (a : Vec Ideal S5000x128 .f32) (d : Vec Ideal S5000x1 .f32) (b : Vec Ideal S128 .f32) (r : Fin 5000) (q : Fin 128) :
    k3_pay1 (F := Ideal) a d b (ix2 r q) = a (ix2 r q) * d (ix2 r (0 : Fin 1)) + b (ix1 q) := by
  unfold k3_pay1
  rw [addf_apply, mulf_apply, Keepdims.broadcastTo_a1_ab_apply, shapeCast_self, shapeCast_self, broadcastTo_1b_ab_apply,
    shapeCast_a_1a_apply]

/-! ## The blocks a point reads and writes -/

variable (V : (c : Dev nD) → (b : Ref sig .tc) → Buf (Elt Ideal) ((c : Thread nD τ).loc b))

theorem zero_offsets : (![0, 0] : Fin 2 → Nat) = fun _ => 0 := funext fun a => by fin_cases a <;> rfl
theorem zero_offset : (![0] : Fin 1 → Nat) = fun _ => 0 := funext fun a => by fin_cases a; rfl

/-- The index maps over the eight points: point `t` takes row block `t` of the aggregate, of the column and of the
    output, and the one block of the bias. -/
theorem idx_facts : ∀ t : Fin cfg3.N, win3_0.index t (0 : Fin 2) = t.val
    ∧ win3_0.index t (1 : Fin 2) = 0
    ∧ win3_1.index t (0 : Fin 2) = t.val
    ∧ win3_1.index t (1 : Fin 2) = 0
    ∧ win3_2.index t (0 : Fin 1) = 0
    ∧ win3_3.index t (0 : Fin 2) = t.val
    ∧ win3_3.index t (1 : Fin 2) = 0 :=
  (by decide +kernel : ∀ t : Fin grid3.N, _)

/-- Point `t`'s block of the aggregate at `(p, q)` is the aggregate at row `5000 t + p`, column `q`. -/
theorem blk_agg_apply (c : Dev nD) (t : Fin cfg3.N) (p : Fin 5000) (q : Fin 128) (i : S40000x128.Idx)
    (h0 : (i 0).val = t.val * 5000 + p.val) (h1 : (i 1).val = q.val) :
    iblk3 V c 0 t (ix2 p q) = V c (Pipeline.arrRef spec3 0) i := by
  obtain ⟨e0, e1, e2, e3, e4, e5, e6⟩ := idx_facts t
  show V c (Pipeline.arrRef spec3 0) (((cfg3.win 0).blk t).view.emb (ix2 p q)) = V c (Pipeline.arrRef spec3 0) i
  refine congrArg _ (funext fun a => Fin.ext ?_)
  match a with
  | ⟨0, _⟩ => show win3_0.index t (0 : Fin 2) * 5000 + 1 * p.val = (i 0).val; omega
  | ⟨1, _⟩ => show win3_0.index t (1 : Fin 2) * 128 + 1 * q.val = (i 1).val; omega

/-- Point `t`'s block of the column at `(p, u)` is the column at row `5000 t + p`. -/
theorem blk_d_apply (c : Dev nD) (t : Fin cfg3.N) (p : Fin 5000) (u : Fin 1) (i : S40000x1.Idx)
    (h0 : (i 0).val = t.val * 5000 + p.val) (h1 : (i 1).val = u.val) :
    iblk3 V c 1 t (ix2 p u) = V c (Pipeline.arrRef spec3 1) i := by
  obtain ⟨e0, e1, e2, e3, e4, e5, e6⟩ := idx_facts t
  show V c (Pipeline.arrRef spec3 1) (((cfg3.win 1).blk t).view.emb (ix2 p u)) = V c (Pipeline.arrRef spec3 1) i
  refine congrArg _ (funext fun a => Fin.ext ?_)
  match a with
  | ⟨0, _⟩ => show win3_1.index t (0 : Fin 2) * 5000 + 1 * p.val = (i 0).val; omega
  | ⟨1, _⟩ => show win3_1.index t (1 : Fin 2) * 1 + 1 * u.val = (i 1).val; omega

/-- Every point's block of the bias is the bias. -/
theorem blk_b_apply (c : Dev nD) (t : Fin cfg3.N) (q : Fin 128) (i : S128.Idx) (h0 : (i 0).val = q.val) :
    iblk3 V c 2 t (ix1 q) = V c (Pipeline.arrRef spec3 2) i := by
  obtain ⟨e0, e1, e2, e3, e4, e5, e6⟩ := idx_facts t
  show V c (Pipeline.arrRef spec3 2) (((cfg3.win 2).blk t).view.emb (ix1 q)) = V c (Pipeline.arrRef spec3 2) i
  refine congrArg _ (funext fun a => Fin.ext ?_)
  match a with
  | ⟨0, _⟩ => show win3_2.index t (0 : Fin 1) * 128 + 1 * q.val = (i 0).val; omega

/-- The body's result at `(p, q)` of point `t`'s block is `fin3` of the arrays at row `5000 t + p`, column `q`. -/
theorem point_apply (c : Dev nD) (t : Fin cfg3.N) (p : Fin 5000) (q : Fin 128) (i : S40000x128.Idx)
    (h0 : (i 0).val = t.val * 5000 + p.val) (h1 : (i 1).val = q.val) :
    k3_pay1 (F := Ideal) (iblk3 V c 0 t) (iblk3 V c 1 t) (iblk3 V c 2 t) (ix2 p q)
      = fin3 (V c (Pipeline.arrRef spec3 0)) (V c (Pipeline.arrRef spec3 1)) (V c (Pipeline.arrRef spec3 2)) i := by
  rw [pay_apply]
  unfold fin3
  refine congrArg₂ (· + ·) (congrArg₂ (· * ·) ?_ ?_) ?_
  · exact blk_agg_apply V c t p q i h0 h1
  · exact blk_d_apply V c t p 0 _ h0 rfl
  · exact blk_b_apply V c t q _ h1

/-- WHAT POINT `t` WRITES BACK is block `t` of `fin3` of the arrays the region is entered with. -/
theorem flushed_eq (c : Dev nD) (t : Fin cfg3.N) :
    (dat3 (F := Ideal) V c).flushed 3 t = ((cfg3.win 3).blk t).view.read (Elt Ideal)
      (fin3 (V c (Pipeline.arrRef spec3 0)) (V c (Pipeline.arrRef spec3 1)) (V c (Pipeline.arrRef spec3 2))) := by
  show (cfg3.win 3).cut (grid3.coords t) ((dat3 V c).after 3 t) = _
  rw [after3_3]
  unfold out3_3
  rw [View.canon_unit_zero zero_offsets]
  simp only [View.ld_unit_zero (S := S5000x128) zero_offsets, View.ld_unit_zero (S := S5000x1) zero_offsets, View.ld_unit_zero (S := S128) zero_offset]
  obtain ⟨e0, e1, e2, e3, e4, e5, e6⟩ := idx_facts t
  funext j
  show k3_pay1 (F := Ideal) (iblk3 V c 0 t) (iblk3 V c 1 t) (iblk3 V c 2 t) j
    = fin3 (V c (Pipeline.arrRef spec3 0)) (V c (Pipeline.arrRef spec3 1)) (V c (Pipeline.arrRef spec3 2)) (((cfg3.win 3).blk t).view.emb j)
  refine (congrArg (k3_pay1 (F := Ideal) (iblk3 V c 0 t) (iblk3 V c 1 t) (iblk3 V c 2 t)) (eq_ix2 (n0 := 5000) (n1 := 128) j)).trans ?_
  refine point_apply V c t (j 0) (j 1) _ ?_ ?_
  · show win3_3.index t (0 : Fin 2) * 5000 + 1 * (j 0).val = t.val * 5000 + (j 0).val; omega
  · show win3_3.index t (1 : Fin 2) * 128 + 1 * (j 1).val = (j 1).val; omega

/-- An index of the array is in point `t`'s block iff each coordinate is in the block's range on its axis. -/
theorem mem_blk (t : Fin cfg3.N) (i : S40000x128.Idx) :
    i ∈ ((cfg3.win 3).blk t).view.set ↔ ∀ a : Fin 2, win3_3.index t a * S5000x128.size a ≤ (i a).val ∧ (i a).val < win3_3.index t a * S5000x128.size a + S5000x128.size a := by
  show i ∈ ((View.whole main_v48).slice (win3_3.rect t)).set ↔ _
  rw [View.set_slice_whole, Rect.mem_set_unit]
  exact Iff.rfl

/-- Row `r` of the array is in the block of point `r / 5000`: the eight row blocks cover the array. -/
theorem cover (i : S40000x128.Idx) : ∃ t : Fin cfg3.N, (cfg3.win 3).flush t = true ∧ i ∈ ((cfg3.win 3).blk t).view.set := by
  have hi0 : (i 0).val < 40000 := (i 0).isLt
  have hi1 : (i 1).val < 128 := (i 1).isLt
  obtain ⟨t, ht⟩ : ∃ t : Fin cfg3.N, t.val = (i 0).val / 5000 := ⟨⟨(i 0).val / 5000, by show (i 0).val / 5000 < 8; omega⟩, rfl⟩
  obtain ⟨e0, e1, e2, e3, e4, e5, e6⟩ := idx_facts t
  refine ⟨t, flush3_3 t, ?_⟩
  rw [mem_blk]
  intro a
  match a with
  | ⟨0, _⟩ => show win3_3.index t (0 : Fin 2) * 5000 ≤ (i 0).val ∧ (i 0).val < win3_3.index t (0 : Fin 2) * 5000 + 5000; omega
  | ⟨1, _⟩ => show win3_3.index t (1 : Fin 2) * 128 ≤ (i 1).val ∧ (i 1).val < win3_3.index t (1 : Fin 2) * 128 + 128; omega

/-- The output array after the kernel's run, as one function of the arrays the region is entered with. -/
theorem value (c : Dev nD) :
    (dat3 (F := Ideal) V c).arrAt 3 cfg3.N
      = fin3 (V c (Pipeline.arrRef spec3 0)) (V c (Pipeline.arrRef spec3 1)) (V c (Pipeline.arrRef spec3 2)) :=
  (dat3 (F := Ideal) V c).arrAt_eq_of_cover 3 _ (fun t _ => flushed_eq V c t) cover

end Cert.Gcn.Region3

end
-- ==== Proof.Region4.lean ====
/-
  The pooling kernel's two output arrays. Both outputs are one block revisited at all 8 grid points: point 0 zeroes
  them, and every point `t` adds, for each graph `g`, the sum over its 5000 rows `v = 5000 t + k` of `[graph v = g] · h (v, d)`
  (and of `[graph v = g]` to the count). After the last point the blocks hold the sums over all 40000 rows, and the last
  write-back puts them in the arrays.
-/
import proofs.«428049_j83116207112815_2_alg».proof.Proof.Spec
import proofs.«428049_j83116207112815_2_alg».proof.Proof.LibKeepdims
import proofs.«428049_j83116207112815_2_alg».proof.Proof.Gen.KernelIdeal.Frame
import Idealize.ShloMosaic.Lib.Pipeline.Value
import Idealize.ShloMosaic.Lib.ValueLayout
import Idealize.ShloMosaic.PureOps.Ideal.Laws

set_option maxRecDepth 16384

noncomputable section

namespace Cert.Gcn.Region4

open Idealize.ShloMosaic Idealize.ShloMosaic.ValueIdx Idealize.ShloMosaic.TcCoe Idealize.ShloMosaic.Pipeline
open Cert.KernelIdeal Cert.KernelIdeal.Gen Cert.Gcn

section Pieces
variable {F : FTy → Type} [FloatOps F]

/-- The origin of a rank-two block. -/
theorem hz : (![0, 0] : Fin 2 → Nat) = fun _ => 0 := funext fun a => by fin_cases a <;> rfl

/-- Past the first point the sums block ends at what it held plus the point's product: the payload of its one covering
    store, over the blocks the body loaded. -/
theorem out_B_2 (c : Dev nD) (i : grid4.Coords) (a1 : Memref sig .tc .vmem S5000x1 .i32) (h1 : a1.IsWhole)
    (a2 : Memref sig .tc .vmem S5000x128 .f32) (h2 : a2.IsWhole) (a3 : Memref sig .tc .vmem S64x128 .f32) (h3 : a3.IsWhole)
    (a4 : Memref sig .tc .vmem S64x1 .f32) (h4 : a4.IsWhole) (hc : ¬cond4_0 i)
    (x0 : Vec F S5000x1 .i32) (x1 : Vec F S5000x128 .f32) (xo2 : Vec F S64x128 .f32) (xo3 : Vec F S64x1 .f32) :
    out4_B_2 c i a1 h1 a2 h2 a3 h3 a4 h4 hc x0 x1 xo2 xo3 = k4_pay4 x0 xo2 x1 := by
  unfold out4_B_2
  rw [View.read_writes_eq_canon _ _ _ (cover4_B_2 c i a1 h1 a2 h2 a3 h3 a4 h4 hc x0 x1 xo2 xo3)]
  unfold kernelRun4_B
  dsimp only
  sl_unfold_words
  rw [View.canon_unit_zero hz]
  simp only [View.readAt_eq_ld, h1.read_unread, h2.read_unread, h3.read_unread, View.ld_unit_zero (S := S5000x1) hz,
    View.ld_unit_zero (S := S5000x128) hz, View.ld_unit_zero (S := S64x128) hz]

/-- Past the first point the counts block ends at what it held plus the point's lane sums. -/
theorem out_B_3 (c : Dev nD) (i : grid4.Coords) (a1 : Memref sig .tc .vmem S5000x1 .i32) (h1 : a1.IsWhole)
    (a2 : Memref sig .tc .vmem S5000x128 .f32) (h2 : a2.IsWhole) (a3 : Memref sig .tc .vmem S64x128 .f32) (h3 : a3.IsWhole)
    (a4 : Memref sig .tc .vmem S64x1 .f32) (h4 : a4.IsWhole) (hc : ¬cond4_0 i)
    (x0 : Vec F S5000x1 .i32) (x1 : Vec F S5000x128 .f32) (xo2 : Vec F S64x128 .f32) (xo3 : Vec F S64x1 .f32) :
    out4_B_3 c i a1 h1 a2 h2 a3 h3 a4 h4 hc x0 x1 xo2 xo3 = k4_pay5 x0 xo3 := by
  unfold out4_B_3
  rw [View.read_writes_eq_canon _ _ _ (cover4_B_3 c i a1 h1 a2 h2 a3 h3 a4 h4 hc x0 x1 xo2 xo3)]
  unfold kernelRun4_B
  dsimp only
  sl_unfold_words
  rw [View.canon_unit_zero hz]
  simp only [View.readAt_eq_ld, h1.read_unread, h4.read_unread, View.ld_unit_zero (S := S5000x1) hz,
    View.ld_unit_zero (S := S64x1) hz]

/-- At the first point the sums block is zeroed, read back, and ends at the zero block plus the point's product. -/
theorem out_A_2 (c : Dev nD) (i : grid4.Coords) (a1 : Memref sig .tc .vmem S5000x1 .i32) (h1 : a1.IsWhole)
    (a2 : Memref sig .tc .vmem S5000x128 .f32) (h2 : a2.IsWhole) (a3 : Memref sig .tc .vmem S64x128 .f32) (h3 : a3.IsWhole)
    (a4 : Memref sig .tc .vmem S64x1 .f32) (h4 : a4.IsWhole) (hc : cond4_0 i)
    (x0 : Vec F S5000x1 .i32) (x1 : Vec F S5000x128 .f32) :
    out4_A_2 c i a1 h1 a2 h2 a3 h3 a4 h4 hc x0 x1 = k4_pay4 x0 k4_pay1 x1 := by
  unfold out4_A_2
  rw [View.read_writes_eq_canon _ _ _ (cover4_A_2 c i a1 h1 a2 h2 a3 h3 a4 h4 hc x0 x1)]
  unfold kernelRun4_A
  dsimp only
  sl_unfold_words
  rw [View.canon_cons_unit_zero (S := S64x128) hz, View.readCov_unit_zero (S := S64x128) _ hz]
  simp only [View.readAt_eq_ld, h1.read_unread, h2.read_unread, View.ld_unit_zero (S := S5000x1) hz,
    View.ld_unit_zero (S := S5000x128) hz]

/-- At the first point the counts block is zeroed, read back, and ends at the zero block plus the point's lane sums. -/
theorem out_A_3 (c : Dev nD) (i : grid4.Coords) (a1 : Memref sig .tc .vmem S5000x1 .i32) (h1 : a1.IsWhole)
    (a2 : Memref sig .tc .vmem S5000x128 .f32) (h2 : a2.IsWhole) (a3 : Memref sig .tc .vmem S64x128 .f32) (h3 : a3.IsWhole)
    (a4 : Memref sig .tc .vmem S64x1 .f32) (h4 : a4.IsWhole) (hc : cond4_0 i)
    (x0 : Vec F S5000x1 .i32) (x1 : Vec F S5000x128 .f32) :
    out4_A_3 c i a1 h1 a2 h2 a3 h3 a4 h4 hc x0 x1 = k4_pay5 x0 k4_pay2 := by
  unfold out4_A_3
  rw [View.read_writes_eq_canon _ _ _ (cover4_A_3 c i a1 h1 a2 h2 a3 h3 a4 h4 hc x0 x1)]
  unfold kernelRun4_A
  dsimp only
  sl_unfold_words
  rw [View.canon_cons_unit_zero (S := S64x1) hz, View.readCov_unit_zero (S := S64x1) _ hz]
  simp only [View.readAt_eq_ld, h1.read_unread, View.ld_unit_zero (S := S5000x1) hz]

end Pieces

open scoped BigOperators

section Payloads

/-- A comparison word widened and read as a number: `1` when the two words are equal, `0` otherwise. -/
theorem onehot_word (a b : BitVec 32) :
    (FloatOps.sitofp (F := Ideal) .f32 ((IntOp.cmpi .eq a b).setWidth 32) : EReal) = if a = b then 1 else 0 := by
  show ((((IntOp.cmpi .eq a b).setWidth 32).toInt : ℝ) : EReal) = _
  have e : IntOp.cmpi .eq a b = BitVec.ofBool (a == b) := rfl
  rw [e]
  by_cases h : a = b
  · rw [if_pos h, beq_iff_eq.mpr h]
    have e1 : ((BitVec.ofBool true).setWidth 32).toInt = 1 := by decide
    rw [e1]; norm_num
  · rw [if_neg h, beq_eq_false_iff_ne.mpr h]
    have e0 : ((BitVec.ofBool false).setWidth 32).toInt = 0 := by decide
    rw [e0]; norm_num

/-- The transposed one-hot block at `(g, k)`: whether row `k`'s graph id is `g`. -/
theorem pay3_apply (v3 : Vec Ideal S5000x1 .i32) (g : Fin 64) (k : Fin 5000) :
    k4_pay3 (F := Ideal) v3 (ix2 g k) = if v3 (ix2 k (0 : Fin 1)) = BitVec.ofNat 32 g.val then 1 else 0 := by
  unfold k4_pay3
  refine (transpose_ix2_apply (a := 5000) (b := 64) _ _ g k).trans ?_
  refine (onehot_word _ _).trans ?_
  have e1 : broadcastTo S5000x64 (shapeCast S5000x1 v3 Gen.shapeCasts_S5000x1_S5000x1) Gen.broadcasts_S5000x1_S5000x64 (ix2 k g)
      = v3 (ix2 k (0 : Fin 1)) :=
    (Keepdims.broadcastTo_a1_ab_apply (a := 5000) (b := 64) _ Gen.broadcasts_S5000x1_S5000x64 k g).trans
      (congrFun (shapeCast_self v3 Gen.shapeCasts_S5000x1_S5000x1) _)
  have e2 : iota .tc S5000x64 32 [1] Gen.iota_S5000x64_d1_w32 (ix2 k g) = BitVec.ofNat 32 g.val :=
    iota_single_apply .tc S5000x64 32 1 Gen.iota_S5000x64_d1_w32 (ix2 k g)
  rw [e1, e2]

/-- The product's operand indices at output `i` and contraction index `q`, axis by axis. -/
theorem lhs_0 (i : S64x128.Idx) (q : dot_S64x5000_S5000x128_S64x128_1_0_0_1_n_n.contr.Idx) :
    (dot_S64x5000_S5000x128_S64x128_1_0_0_1_n_n.lhsIdx i q 0).val = (i 0).val := by
  unfold DotDims.lhsIdx
  rw [dif_neg (show ¬(0 : Fin S64x5000.rank) ∈ dot_S64x5000_S5000x128_S64x128_1_0_0_1_n_n.lhsBatch by decide), dif_pos (show (0 : Fin S64x5000.rank) ∈ dot_S64x5000_S5000x128_S64x128_1_0_0_1_n_n.lhsNonContracting by decide)]
  rfl
theorem lhs_1 (i : S64x128.Idx) (q : dot_S64x5000_S5000x128_S64x128_1_0_0_1_n_n.contr.Idx) :
    (dot_S64x5000_S5000x128_S64x128_1_0_0_1_n_n.lhsIdx i q 1).val = (q ⟨0, by decide⟩).val :=
  dot_S64x5000_S5000x128_S64x128_1_0_0_1_n_n.lhsIdx_val_of_single rfl i q
theorem rhs_0 (i : S64x128.Idx) (q : dot_S64x5000_S5000x128_S64x128_1_0_0_1_n_n.contr.Idx) :
    (dot_S64x5000_S5000x128_S64x128_1_0_0_1_n_n.rhsIdx i q 0).val = (q ⟨0, by decide⟩).val :=
  dot_S64x5000_S5000x128_S64x128_1_0_0_1_n_n.rhsIdx_val_of_single rfl i q
theorem rhs_1 (i : S64x128.Idx) (q : dot_S64x5000_S5000x128_S64x128_1_0_0_1_n_n.contr.Idx) :
    (dot_S64x5000_S5000x128_S64x128_1_0_0_1_n_n.rhsIdx i q 1).val = (i 1).val := by
  unfold DotDims.rhsIdx
  rw [dif_neg (show ¬(1 : Fin S5000x128.rank) ∈ dot_S64x5000_S5000x128_S64x128_1_0_0_1_n_n.rhsBatch by decide), dif_pos (show (1 : Fin S5000x128.rank) ∈ dot_S64x5000_S5000x128_S64x128_1_0_0_1_n_n.rhsNonContracting by decide)]
  rfl

/-- One point's sums payload at `(g, d)`: what the block held plus the one-hot row times the feature column. -/
theorem pay4_apply (v3 : Vec Ideal S5000x1 .i32) (v11 : Vec Ideal S64x128 .f32) (v13 : Vec Ideal S5000x128 .f32)
    (g : Fin 64) (d : Fin 128) :
    k4_pay4 (F := Ideal) v3 v11 v13 (ix2 g d)
      = v11 (ix2 g d) + ∑ k : Fin 5000, k4_pay3 (F := Ideal) v3 (ix2 g k) * v13 (ix2 k d) := by
  unfold k4_pay4
  refine (addf_apply _ _ _).trans ?_
  refine congrArg₂ (· + ·) (congrFun (shapeCast_self v11 _) _) ?_
  refine (Ideal.matmul_constant_zero_apply dot_S64x5000_S5000x128_S64x128_1_0_0_1_n_n none _ _ (ix2 g d)).trans ?_
  refine (Equiv.sum_comp (contrEquiv1 dot_S64x5000_S5000x128_S64x128_1_0_0_1_n_n 5000 rfl rfl).symm _).symm.trans ?_
  refine Finset.sum_congr rfl fun k _ => ?_
  have hk := contrEquiv1_symm_val dot_S64x5000_S5000x128_S64x128_1_0_0_1_n_n 5000 rfl rfl k
  have el : dot_S64x5000_S5000x128_S64x128_1_0_0_1_n_n.lhsIdx (ix2 g d) ((contrEquiv1 dot_S64x5000_S5000x128_S64x128_1_0_0_1_n_n 5000 rfl rfl).symm k) = ix2 g k :=
    funext fun a => Fin.ext (by
      match a with
      | ⟨0, _⟩ => exact lhs_0 _ _
      | ⟨1, _⟩ => exact (lhs_1 _ _).trans hk)
  have er : dot_S64x5000_S5000x128_S64x128_1_0_0_1_n_n.rhsIdx (ix2 g d) ((contrEquiv1 dot_S64x5000_S5000x128_S64x128_1_0_0_1_n_n 5000 rfl rfl).symm k) = ix2 k d :=
    funext fun a => Fin.ext (by
      match a with
      | ⟨0, _⟩ => exact (rhs_0 _ _).trans hk
      | ⟨1, _⟩ => exact rhs_1 _ _)
  rw [el, er, shapeCast_self]

/-- One point's counts payload at `(g, 0)`: what the block held plus the one-hot row's sum. -/
theorem pay5_apply (v3 : Vec Ideal S5000x1 .i32) (v18 : Vec Ideal S64x1 .f32) (g : Fin 64) (u : Fin 1) :
    k4_pay5 (F := Ideal) v3 v18 (ix2 g u) = v18 (ix2 g u) + ∑ k : Fin 5000, k4_pay3 (F := Ideal) v3 (ix2 g k) := by
  unfold k4_pay5
  refine (addf_apply _ _ _).trans ?_
  refine congrArg₂ (· + ·) (congrFun (shapeCast_self v18 _) _) ?_
  refine (Keepdims.shapeCast_a_a1_apply (a := 64) _ Gen.shapeCasts_S64_S64x1 g u).trans ?_
  exact Keepdims.laneSum_apply (a := 64) (b := 5000) _ _ Gen.reduces_S64x5000_S64 (.inl rfl) rfl g

/-- The two zero blocks. -/
theorem pay1_apply (i : S64x128.Idx) : k4_pay1 (F := Ideal) i = 0 := by
  unfold k4_pay1
  show Ideal.ofBits .f32 0x00000000#32 = 0
  exact Ideal.ofBits_zero_f32

theorem pay2_apply (i : S64x1.Idx) : k4_pay2 (F := Ideal) i = 0 := by
  unfold k4_pay2
  show Ideal.ofBits .f32 0x00000000#32 = 0
  exact Ideal.ofBits_zero_f32

end Payloads

variable (V : (c : Dev nD) → (b : Ref sig .tc) → Buf (Elt Ideal) ((c : Thread nD τ).loc b))

section Blocks

/-- The id column and the feature array as the region finds them, and their blocks at a point, by literal type. -/
abbrev idarr (c : Dev nD) : Arr S40000x1 .i32 := V c (Pipeline.arrRef spec4 0)
abbrev harr (c : Dev nD) : Arr S40000x128 .f32 := V c (Pipeline.arrRef spec4 1)
abbrev idblk (c : Dev nD) (t : Fin cfg4.N) : Vec Ideal S5000x1 .i32 := iblk4 V c 0 t
abbrev hblk (c : Dev nD) (t : Fin cfg4.N) : Vec Ideal S5000x128 .f32 := iblk4 V c 1 t

/-- Row `k` of block `s` is row `5000 s + k` of the array. -/
abbrev row (s : ℕ) (hs : s < 8) (k : Fin 5000) : Fin 40000 := ⟨5000 * s + k.val, by have := k.isLt; omega⟩

/-- The grid has 8 points. -/
theorem lt8 (t : Fin cfg4.N) : t.val < 8 := lt_of_lt_of_eq t.isLt (show cfg4.N = 8 from N_4)

/-- Both input windows' block index at point `t` is `(t, 0)`. -/
theorem index4_0 : ∀ t : Fin cfg4.N, win4_0.index t 0 = t.val ∧ win4_0.index t 1 = 0 :=
  (by decide +kernel : ∀ t : Fin grid4.N, win4_0.index t 0 = t.val ∧ win4_0.index t 1 = 0)
theorem index4_1 : ∀ t : Fin cfg4.N, win4_1.index t 0 = t.val ∧ win4_1.index t 1 = 0 :=
  (by decide +kernel : ∀ t : Fin grid4.N, win4_1.index t 0 = t.val ∧ win4_1.index t 1 = 0)

/-- The id block of point `t` at row `k` is the id column at row `5000 t + k`. -/
theorem idblk_apply (c : Dev nD) (t : Fin cfg4.N) (k : Fin 5000) (u : Fin 1) :
    idblk V c t (ix2 k u) = idarr V c (ix2 (row t.val (lt8 t) k) (0 : Fin 1)) := by
  unfold idblk iblk4
  rw [View.read_apply]
  show V c (Pipeline.arrRef spec4 0) _ = V c (Pipeline.arrRef spec4 0) _
  congr 1
  funext a
  apply Fin.ext
  have hu : u.val = 0 := by omega
  match a with
  | ⟨0, _⟩ => show win4_0.index t 0 * 5000 + 1 * k.val = 5000 * t.val + k.val; rw [(index4_0 t).1]; omega
  | ⟨1, _⟩ => show win4_0.index t 1 * 1 + 1 * u.val = 0; rw [(index4_0 t).2]; omega

/-- The feature block of point `t` at `(k, d)` is the feature array at `(5000 t + k, d)`. -/
theorem hblk_apply (c : Dev nD) (t : Fin cfg4.N) (k : Fin 5000) (d : Fin 128) :
    hblk V c t (ix2 k d) = harr V c (ix2 (row t.val (lt8 t) k) d) := by
  unfold hblk iblk4
  rw [View.read_apply]
  show V c (Pipeline.arrRef spec4 1) _ = V c (Pipeline.arrRef spec4 1) _
  congr 1
  funext a
  apply Fin.ext
  match a with
  | ⟨0, _⟩ => show win4_1.index t 0 * 5000 + 1 * k.val = 5000 * t.val + k.val; rw [(index4_1 t).1]; omega
  | ⟨1, _⟩ => show win4_1.index t 1 * 128 + 1 * d.val = d.val; rw [(index4_1 t).2]; omega

end Blocks

section Chain

/-- The sums block after point `n`: the zero block, then one accumulation per point. -/
def chainS (c : Dev nD) : (n : ℕ) → n < cfg4.N → Vec Ideal S64x128 .f32
  | 0, h => k4_pay4 (idblk V c ⟨0, h⟩) (k4_pay1 (F := Ideal)) (hblk V c ⟨0, h⟩)
  | n + 1, h => k4_pay4 (idblk V c ⟨n + 1, h⟩) (chainS c n (Nat.lt_of_succ_lt h)) (hblk V c ⟨n + 1, h⟩)

/-- The counts block after point `n`. -/
def chainC (c : Dev nD) : (n : ℕ) → n < cfg4.N → Vec Ideal S64x1 .f32
  | 0, h => k4_pay5 (idblk V c ⟨0, h⟩) (k4_pay2 (F := Ideal))
  | n + 1, h => k4_pay5 (idblk V c ⟨n + 1, h⟩) (chainC c n (Nat.lt_of_succ_lt h))

/-- What the two outputs' buffers hold after point `n` is the pair of running blocks: by induction on the point. -/
theorem outsAt_eq (c : Dev nD) : ∀ (n : ℕ) (h : n < cfg4.N), outsAt4 V c n h = (chainS V c n h, chainC V c n h)
  | 0, h => by
    rw [outsAt4_A V c ⟨0, h⟩ rfl, out_A_2, out_A_3]
    rfl
  | n + 1, h => by
    have hN : cfg4.N = 8 := N_4
    have hB : ¬(⟨n + 1, h⟩ : Fin cfg4.N).val % 8 = 0 := by dsimp only; omega
    rw [outsAt4_B V c ⟨n + 1, h⟩ hB, out_B_2, out_B_3]
    show (k4_pay4 _ (outsAt4 V c n _).1 _, k4_pay5 _ (outsAt4 V c n _).2) = _
    rw [outsAt_eq c n]
    rfl

/-- Block `s`'s share of the pooled sum at `(g, d)` (zero past the last block). -/
def blkS (c : Dev nD) (s : ℕ) (g : Fin 64) (d : Fin 128) : EReal :=
  if hs : s < 8 then ∑ k : Fin 5000, oh (idarr V c) (row s hs k) g * harr V c (ix2 (row s hs k) d) else 0

/-- Block `s`'s share of the count at `g`. -/
def blkC (c : Dev nD) (s : ℕ) (g : Fin 64) : EReal :=
  if hs : s < 8 then ∑ k : Fin 5000, oh (idarr V c) (row s hs k) g else 0

/-- The one-hot entry of the point's block is the membership indicator of the array's row. -/
theorem onehot_eq (c : Dev nD) (t : Fin cfg4.N) (g : Fin 64) (k : Fin 5000) :
    k4_pay3 (F := Ideal) (idblk V c t) (ix2 g k) = oh (idarr V c) (row t.val (lt8 t) k) g := by
  rw [pay3_apply, idblk_apply]
  rfl

/-- One accumulation of the sums at point `t`. -/
theorem stepS (c : Dev nD) (t : Fin cfg4.N) (acc : Vec Ideal S64x128 .f32) (g : Fin 64) (d : Fin 128) :
    k4_pay4 (F := Ideal) (idblk V c t) acc (hblk V c t) (ix2 g d) = acc (ix2 g d) + blkS V c t.val g d := by
  rw [pay4_apply]
  unfold blkS
  rw [dif_pos (lt8 t)]
  refine congrArg (acc (ix2 g d) + ·) (Finset.sum_congr rfl fun k _ => ?_)
  rw [onehot_eq, hblk_apply]

/-- One accumulation of the counts at point `t`. -/
theorem stepC (c : Dev nD) (t : Fin cfg4.N) (acc : Vec Ideal S64x1 .f32) (g : Fin 64) (u : Fin 1) :
    k4_pay5 (F := Ideal) (idblk V c t) acc (ix2 g u) = acc (ix2 g u) + blkC V c t.val g := by
  rw [pay5_apply]
  unfold blkC
  rw [dif_pos (lt8 t)]
  refine congrArg (acc (ix2 g u) + ·) (Finset.sum_congr rfl fun k _ => ?_)
  rw [onehot_eq]

/-- After point `n` the sums block holds the shares of blocks `0 … n`. -/
theorem chainS_apply (c : Dev nD) (g : Fin 64) (d : Fin 128) :
    ∀ (n : ℕ) (h : n < cfg4.N), chainS V c n h (ix2 g d) = ∑ s ∈ Finset.range (n + 1), blkS V c s g d
  | 0, h => by
    show k4_pay4 (F := Ideal) (idblk V c ⟨0, h⟩) (k4_pay1 (F := Ideal)) (hblk V c ⟨0, h⟩) (ix2 g d) = _
    rw [stepS, pay1_apply, zero_add, Finset.sum_range_one]
  | n + 1, h => by
    show k4_pay4 (F := Ideal) (idblk V c ⟨n + 1, h⟩) (chainS V c n (Nat.lt_of_succ_lt h)) (hblk V c ⟨n + 1, h⟩) (ix2 g d) = _
    rw [stepS, chainS_apply c g d n, Finset.sum_range_succ _ (n + 1)]

/-- After point `n` the counts block holds the shares of blocks `0 … n`. -/
theorem chainC_apply (c : Dev nD) (g : Fin 64) (u : Fin 1) :
    ∀ (n : ℕ) (h : n < cfg4.N), chainC V c n h (ix2 g u) = ∑ s ∈ Finset.range (n + 1), blkC V c s g
  | 0, h => by
    show k4_pay5 (F := Ideal) (idblk V c ⟨0, h⟩) (k4_pay2 (F := Ideal)) (ix2 g u) = _
    rw [stepC, pay2_apply, zero_add, Finset.sum_range_one]
  | n + 1, h => by
    show k4_pay5 (F := Ideal) (idblk V c ⟨n + 1, h⟩) (chainC V c n (Nat.lt_of_succ_lt h)) (ix2 g u) = _
    rw [stepC, chainC_apply c g u n, Finset.sum_range_succ _ (n + 1)]

/-- A sum over the 40000 rows is the sum over the 8 blocks of the sums over their 5000 rows. -/
theorem sum_blocks (f : Fin 40000 → EReal) :
    ∑ v : Fin 40000, f v = ∑ s : Fin 8, ∑ k : Fin 5000, f (row s.val s.isLt k) := by
  refine (Equiv.sum_comp (finProdFinEquiv (m := 8) (n := 5000)) f).symm.trans ?_
  rw [Fintype.sum_prod_type]
  refine Finset.sum_congr rfl fun s _ => Finset.sum_congr rfl fun k _ => congrArg f (Fin.ext ?_)
  show k.val + 5000 * s.val = 5000 * s.val + k.val
  omega

/-- After the last point the sums block is the pooled sum over all rows. -/
theorem chainS_last (c : Dev nD) (h : 7 < cfg4.N) : chainS V c 7 h = poolSum (idarr V c) (harr V c) := by
  funext i
  obtain ⟨g, d, rfl⟩ : ∃ (g : Fin 64) (d : Fin 128), i = ix2 g d := ⟨i 0, i 1, eq_ix2 i⟩
  rw [chainS_apply]
  unfold poolSum
  rw [sum_blocks, ← Fin.sum_univ_eq_sum_range (fun s => blkS V c s g d) 8]
  refine Finset.sum_congr rfl fun s _ => ?_
  unfold blkS
  rw [dif_pos s.isLt]

/-- After the last point the counts block is the graph sizes. -/
theorem chainC_last (c : Dev nD) (h : 7 < cfg4.N) : chainC V c 7 h = poolCnt (idarr V c) := by
  funext i
  obtain ⟨g, u, rfl⟩ : ∃ (g : Fin 64) (u : Fin 1), i = ix2 g u := ⟨i 0, i 1, eq_ix2 i⟩
  rw [chainC_apply]
  unfold poolCnt
  rw [sum_blocks, ← Fin.sum_univ_eq_sum_range (fun s => blkC V c s g) 8]
  refine Finset.sum_congr rfl fun s _ => ?_
  unfold blkC
  rw [dif_pos s.isLt]

end Chain

section Final

/-- Point 7 is on the grid. -/
theorem lt7 : 7 < cfg4.N := by rw [show cfg4.N = 8 from N_4]; decide

/-- The one write-back of the sums, at the last point, writes the pooled sums: the block is the whole array. -/
theorem flushed_sum (c : Dev nD) (t : Fin cfg4.N) (hf : (cfg4.win 2).flush t = true) :
    (dat4 (F := Ideal) V c).flushed 2 t = ((cfg4.win 2).blk t).view.read (Elt Ideal) (poolSum (idarr V c) (harr V c)) := by
  have h7 : t.val = 7 := by have := (flush4_2 t).mp hf; have := lt8 t; omega
  obtain rfl : t = t4_7 := Fin.ext h7
  show (cfg4.win 2).cut (grid4.coords t4_7) ((dat4 (F := Ideal) V c).after 2 t4_7) = _
  rw [after4_2, outsAt_eq]
  have hz' : (fun a => win4_2.index t4_7 a * main_v50_0.ty.shape.size a) = fun _ => 0 := funext fun a => by fin_cases a <;> decide
  refine Eq.trans ?_ (Memref.read_access_unit_zero (Elt Ideal) main_v50_0 hz' (fun a => by rw [congrFun hz' a]; simp) (poolSum (idarr V c) (harr V c))).symm
  exact chainS_last V c lt7

/-- The one write-back of the counts, at the last point, writes the graph sizes. -/
theorem flushed_cnt (c : Dev nD) (t : Fin cfg4.N) (hf : (cfg4.win 3).flush t = true) :
    (dat4 (F := Ideal) V c).flushed 3 t = ((cfg4.win 3).blk t).view.read (Elt Ideal) (poolCnt (idarr V c)) := by
  have h7 : t.val = 7 := by have := (flush4_3 t).mp hf; have := lt8 t; omega
  obtain rfl : t = t4_7 := Fin.ext h7
  show (cfg4.win 3).cut (grid4.coords t4_7) ((dat4 (F := Ideal) V c).after 3 t4_7) = _
  rw [after4_3, outsAt_eq]
  have hz' : (fun a => win4_3.index t4_7 a * main_v50_1.ty.shape.size a) = fun _ => 0 := funext fun a => by fin_cases a <;> decide
  refine Eq.trans ?_ (Memref.read_access_unit_zero (Elt Ideal) main_v50_1 hz' (fun a => by rw [congrFun hz' a]; simp) (poolCnt (idarr V c))).symm
  exact chainC_last V c lt7

/-- The last point's block of the sums window starts at the origin and has the array's extents, -/
theorem whole4_2 : ∀ a : Fin 2, win4_2.index t4_7 a * win4_2.size a = 0 ∧ win4_2.xsize (grid4.coords t4_7) a = S64x128.size a := by
  decide +kernel
/-- and so has the counts window's. -/
theorem whole4_3 : ∀ a : Fin 2, win4_3.index t4_7 a * win4_3.size a = 0 ∧ win4_3.xsize (grid4.coords t4_7) a = S64x1.size a := by
  decide +kernel

end Final

/-- The sums array after the pooling kernel's run. -/
theorem value_sum (c : Dev nD) :
    (dat4 (F := Ideal) V c).arrAt 2 cfg4.N = poolSum (V c (Pipeline.arrRef spec4 0)) (V c (Pipeline.arrRef spec4 1)) :=
  (dat4 (F := Ideal) V c).arrAt_eq_of_cover 2 (poolSum (idarr V c) (harr V c)) (flushed_sum V c) fun i =>
    ⟨t4_7, (flush4_2 t4_7).mpr rfl, by
      show i ∈ ((View.whole main_v50_0).slice (win4_2.rect t4_7)).set
      rw [View.set_slice_whole, Rect.mem_set_unit]
      intro a
      show win4_2.index t4_7 a * win4_2.size a ≤ (i a : ℕ) ∧ (i a : ℕ) < win4_2.index t4_7 a * win4_2.size a + win4_2.xsize (grid4.coords t4_7) a
      rw [(whole4_2 a).1, (whole4_2 a).2, Nat.zero_add]
      exact ⟨Nat.zero_le _, (i a).isLt⟩⟩

/-- The counts array after the pooling kernel's run. -/
theorem value_cnt (c : Dev nD) :
    (dat4 (F := Ideal) V c).arrAt 3 cfg4.N = poolCnt (V c (Pipeline.arrRef spec4 0)) :=
  (dat4 (F := Ideal) V c).arrAt_eq_of_cover 3 (poolCnt (idarr V c)) (flushed_cnt V c) fun i =>
    ⟨t4_7, (flush4_3 t4_7).mpr rfl, by
      show i ∈ ((View.whole main_v50_1).slice (win4_3.rect t4_7)).set
      rw [View.set_slice_whole, Rect.mem_set_unit]
      intro a
      show win4_3.index t4_7 a * win4_3.size a ≤ (i a : ℕ) ∧ (i a : ℕ) < win4_3.index t4_7 a * win4_3.size a + win4_3.xsize (grid4.coords t4_7) a
      rw [(whole4_3 a).1, (whole4_3 a).2, Nat.zero_add]
      exact ⟨Nat.zero_le _, (i a).isLt⟩⟩

end Cert.Gcn.Region4

end
-- ==== Proof.KernelValue.lean ====
/-
  The kernel program's result, read through its run. @main is six stretches of host operations around five kernels;
  the buffer contents at each boundary are a fold from the launch memory. Reading that fold back from the result buffer:
  the head's operations over the pooling kernel's two arrays, those over the fourth kernel's array and the graph ids, and
  so on down to the first kernel, each kernel's array being one function of the arrays it was entered with, and each
  stretch of host operations the gather and scatter-add of one propagation step.
-/
import proofs.«428049_j83116207112815_2_alg».proof.Proof.Spec
import proofs.«428049_j83116207112815_2_alg».proof.Proof.LibKeepdims
import proofs.«428049_j83116207112815_2_alg».proof.Proof.Boundary
import proofs.«428049_j83116207112815_2_alg».proof.Proof.Region0
import proofs.«428049_j83116207112815_2_alg».proof.Proof.Region1
import proofs.«428049_j83116207112815_2_alg».proof.Proof.Region2
import proofs.«428049_j83116207112815_2_alg».proof.Proof.Region3
import proofs.«428049_j83116207112815_2_alg».proof.Proof.Region4
import Idealize.ShloMosaic.Lib.StableHlo.Run

set_option maxRecDepth 16384

noncomputable section

namespace Cert.Gcn

open Idealize.ShloMosaic Idealize.ShloMosaic.ValueIdx Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg) (c : Dev nD)

/-- One step back through a stretch of host operations none of which writes the buffer. -/
local macro "bh" : tactic => `(tactic|
  (refine (StableHlo.after_of_forall_not_mem _ _ (List.forall_iff_forall_mem.mp (by
        simp only [hostOps0, hostOps1, hostOps2, hostOps3, hostOps4, hostOps5, List.Forall, StableHlo.nullary_writes, StableHlo.unary_writes,
          StableHlo.binary_writes, StableHlo.ternary_writes, StableHlo.reshape_writes, Finset.mem_singleton]
        repeat' apply And.intro
        all_goals exact StableHlo.devRef_ne_of_ne (by decide)))).trans ?_))
/-- One step back through a kernel of which the buffer is no output. -/
local macro "bk0" : tactic => `(tactic| (refine (keep0 m ρ c _ (by decide)).trans ?_))
local macro "bk1" : tactic => `(tactic| (refine (keep1 m ρ c _ (by decide)).trans ?_))
local macro "bk2" : tactic => `(tactic| (refine (keep2 m ρ c _ (by decide)).trans ?_))
local macro "bk3" : tactic => `(tactic| (refine (keep3 m ρ c _ (by decide)).trans ?_))
local macro "bk4" : tactic => `(tactic| (refine (keep4 m ρ c _ (by decide) (by decide)).trans ?_))

/-! ## The arguments at the boundaries where they are read -/

theorem arg0_at1 : W1 (F := Ideal) m ρ c (Proc.devRef .tc main_arg0) = (m ((c.tc : Thread nD τ).loc main_arg0)) := by
  bh; rfl
theorem arg3_at1 : W1 (F := Ideal) m ρ c (Proc.devRef .tc main_arg3) = (m ((c.tc : Thread nD τ).loc main_arg3)) := by
  bh; rfl
theorem arg4_at3 : W3 (F := Ideal) m ρ c (Proc.devRef .tc main_arg4) = (m ((c.tc : Thread nD τ).loc main_arg4)) := by
  bh; bk0; bh; rfl
theorem arg5_at3 : W3 (F := Ideal) m ρ c (Proc.devRef .tc main_arg5) = (m ((c.tc : Thread nD τ).loc main_arg5)) := by
  bh; bk0; bh; rfl
theorem arg6_at5 : W5 (F := Ideal) m ρ c (Proc.devRef .tc main_arg6) = (m ((c.tc : Thread nD τ).loc main_arg6)) := by
  bh; bk1; bh; bk0; bh; rfl
theorem arg7_at5 : W5 (F := Ideal) m ρ c (Proc.devRef .tc main_arg7) = (m ((c.tc : Thread nD τ).loc main_arg7)) := by
  bh; bk1; bh; bk0; bh; rfl
theorem arg8_at7 : W7 (F := Ideal) m ρ c (Proc.devRef .tc main_arg8) = (m ((c.tc : Thread nD τ).loc main_arg8)) := by
  bh; bk2; bh; bk1; bh; bk0; bh; rfl
theorem arg2_at8 : W8 (F := Ideal) m ρ c (Proc.devRef .tc main_arg2) = (m ((c.tc : Thread nD τ).loc main_arg2)) := by
  bk3; bh; bk2; bh; bk1; bh; bk0; bh; rfl
theorem arg9_at10 : W10 (F := Ideal) m ρ c (Proc.devRef .tc main_arg9) = (m ((c.tc : Thread nD τ).loc main_arg9)) := by
  bk4; bh; bk3; bh; bk2; bh; bk1; bh; bk0; bh; rfl
theorem arg10_at10 : W10 (F := Ideal) m ρ c (Proc.devRef .tc main_arg10) = (m ((c.tc : Thread nD τ).loc main_arg10)) := by
  bk4; bh; bk3; bh; bk2; bh; bk1; bh; bk0; bh; rfl

/-! ## The edge list's host terms: computed before the first kernel, read at every later step -/

/-- The source words, after the first stretch of host operations. -/
theorem src_at1 : W1 (F := Ideal) m ρ c (Proc.devRef .tc main_v3) = Cert.ReferenceIdeal.Read.val_main_v3 (F := Ideal) (m ((c.tc : Thread nD τ).loc main_arg1)) := by
  show StableHlo.after hostOps0 (W0 m ρ c) (Proc.devRef .tc main_v3) = _
  dsimp only [hostOps0]
  after_results
  rfl
/-- The destination words, after the first stretch of host operations. -/
theorem dst_at1 : W1 (F := Ideal) m ρ c (Proc.devRef .tc main_v6) = Cert.ReferenceIdeal.Read.val_main_v6 (F := Ideal) (m ((c.tc : Thread nD τ).loc main_arg1)) := by
  show StableHlo.after hostOps0 (W0 m ρ c) (Proc.devRef .tc main_v6) = _
  dsimp only [hostOps0]
  after_results
  rfl
/-- The normalising factor as a column, after the first stretch of host operations. -/
theorem dcol_at1 : W1 (F := Ideal) m ρ c (Proc.devRef .tc main_v14) = dcol (m ((c.tc : Thread nD τ).loc main_arg1)) := by
  have e : W1 (F := Ideal) m ρ c (Proc.devRef .tc main_v14)
      = shapeCast S40000x1 (dinv (m ((c.tc : Thread nD τ).loc main_arg1))) Facts₀.shapeCasts_S40000_S40000x1 := by
    show StableHlo.after hostOps0 (W0 m ρ c) (Proc.devRef .tc main_v14) = _
    dsimp only [hostOps0]
    after_results
    rfl
  rw [e]
  funext i
  obtain ⟨r, u, rfl⟩ : ∃ (r : Fin 40000) (u : Fin 1), i = ix2 r u := ⟨i 0, i 1, eq_ix2 i⟩
  exact Keepdims.shapeCast_a_a1_apply _ _ r u

theorem src_at2 : W2 (F := Ideal) m ρ c (Proc.devRef .tc main_v3) = Cert.ReferenceIdeal.Read.val_main_v3 (F := Ideal) (m ((c.tc : Thread nD τ).loc main_arg1)) := by
  bk0; exact src_at1 m ρ c
theorem dst_at2 : W2 (F := Ideal) m ρ c (Proc.devRef .tc main_v6) = Cert.ReferenceIdeal.Read.val_main_v6 (F := Ideal) (m ((c.tc : Thread nD τ).loc main_arg1)) := by
  bk0; exact dst_at1 m ρ c
theorem src_at4 : W4 (F := Ideal) m ρ c (Proc.devRef .tc main_v3) = Cert.ReferenceIdeal.Read.val_main_v3 (F := Ideal) (m ((c.tc : Thread nD τ).loc main_arg1)) := by
  bk1; bh; exact src_at2 m ρ c
theorem dst_at4 : W4 (F := Ideal) m ρ c (Proc.devRef .tc main_v6) = Cert.ReferenceIdeal.Read.val_main_v6 (F := Ideal) (m ((c.tc : Thread nD τ).loc main_arg1)) := by
  bk1; bh; exact dst_at2 m ρ c
theorem src_at6 : W6 (F := Ideal) m ρ c (Proc.devRef .tc main_v3) = Cert.ReferenceIdeal.Read.val_main_v3 (F := Ideal) (m ((c.tc : Thread nD τ).loc main_arg1)) := by
  bk2; bh; exact src_at4 m ρ c
theorem dst_at6 : W6 (F := Ideal) m ρ c (Proc.devRef .tc main_v6) = Cert.ReferenceIdeal.Read.val_main_v6 (F := Ideal) (m ((c.tc : Thread nD τ).loc main_arg1)) := by
  bk2; bh; exact dst_at4 m ρ c
theorem dcol_at3 : W3 (F := Ideal) m ρ c (Proc.devRef .tc main_v14) = dcol (m ((c.tc : Thread nD τ).loc main_arg1)) := by
  bh; bk0; exact dcol_at1 m ρ c
theorem dcol_at5 : W5 (F := Ideal) m ρ c (Proc.devRef .tc main_v14) = dcol (m ((c.tc : Thread nD τ).loc main_arg1)) := by
  bh; bk1; exact dcol_at3 m ρ c
theorem dcol_at7 : W7 (F := Ideal) m ρ c (Proc.devRef .tc main_v14) = dcol (m ((c.tc : Thread nD τ).loc main_arg1)) := by
  bh; bk2; exact dcol_at5 m ρ c

/-! ## One propagation step as the kernel program spells it

The three stretches of host operations between the kernels are the same operations at different buffers: the source
words, a negative one wrapped by 40000, gather the rows of the kernel's array; the destination words scatter-add them
from zero. Read over an arbitrary valuation of the buffers, so that nothing of the earlier run is unfolded. -/

/-- The gather and scatter-add of one step, over the source words `s`, the destination words `d` and the array `y`. -/
def kprop (s d : Arr S680000 .i32) (y : Arr S40000x128 .f32) : Arr S40000x128 .f32 :=
  Host.scatterAdd (F := Ideal) (φ := .f32) scatter_S40000x128_S680000x1_S680000x128_1_0_0_1
    (broadcastInDim S40000x128 ![] Facts₀.bcast_S_S40000x128 (constant (F := Ideal) S_ .f32 0x00000000#32))
    (broadcastInDim S680000x1 ![0] Facts₀.bcast_S680000_S680000x1_0 d)
    (Host.gather gather_S40000x128_S680000x1_S680000x128_1_0_n_n_0_1_1128 y
      (broadcastInDim S680000x1 ![0] Facts₀.bcast_S680000_S680000x1_0
        (select (cmpi .slt s (broadcastInDim S680000 ![] Facts₀.bcast_S_S680000 (constantI S_ 32 0#32)))
          (addi s (broadcastInDim S680000 ![] Facts₀.bcast_S_S680000 (constantI S_ 32 40000#32))) s)))

/-- Over the edge list's host terms it is the step `prop` of the shared vocabulary. -/
theorem kprop_eq (x1 : Arr S2x640000 .i32) (y : Arr S40000x128 .f32) :
    kprop (Cert.ReferenceIdeal.Read.val_main_v3 (F := Ideal) x1) (Cert.ReferenceIdeal.Read.val_main_v6 (F := Ideal) x1) y = prop x1 y := rfl

theorem step1 (V : Valuation τ sig (Elt Ideal)) : StableHlo.after hostOps1 V (Proc.devRef .tc main_v25)
    = kprop (V (Proc.devRef .tc main_v3)) (V (Proc.devRef .tc main_v6)) (V (Proc.devRef .tc main_v15)) := by
  dsimp only [hostOps1]
  after_results
  rfl
theorem step2 (V : Valuation τ sig (Elt Ideal)) : StableHlo.after hostOps2 V (Proc.devRef .tc main_v36)
    = kprop (V (Proc.devRef .tc main_v3)) (V (Proc.devRef .tc main_v6)) (V (Proc.devRef .tc main_v26)) := by
  dsimp only [hostOps2]
  after_results
  rfl
theorem step3 (V : Valuation τ sig (Elt Ideal)) : StableHlo.after hostOps3 V (Proc.devRef .tc main_v47)
    = kprop (V (Proc.devRef .tc main_v3)) (V (Proc.devRef .tc main_v6)) (V (Proc.devRef .tc main_v37)) := by
  dsimp only [hostOps3]
  after_results
  rfl

/-! ## The five kernels' arrays and the three propagation steps, in program order -/

/-- The first kernel's array. -/
theorem y1_at2 : W2 (F := Ideal) m ρ c (Proc.devRef .tc main_v15) = y1 (m ((c.tc : Thread nD τ).loc main_arg0)) (m ((c.tc : Thread nD τ).loc main_arg1)) (m ((c.tc : Thread nD τ).loc main_arg3)) := by
  refine (W2_arr m ρ c 3).trans ((Region0.value (V1 m ρ) c).trans ?_)
  show lin0 (W1 m ρ c (Proc.devRef .tc main_arg0)) (W1 m ρ c (Proc.devRef .tc main_arg3)) (W1 m ρ c (Proc.devRef .tc main_v14)) = _
  rw [arg0_at1, arg3_at1, dcol_at1]
  rfl

/-- The first propagation step. -/
theorem agg1_at3 : W3 (F := Ideal) m ρ c (Proc.devRef .tc main_v25) = agg1 (m ((c.tc : Thread nD τ).loc main_arg0)) (m ((c.tc : Thread nD τ).loc main_arg1)) (m ((c.tc : Thread nD τ).loc main_arg3)) := by
  refine (step1 (W2 m ρ c)).trans ?_
  rw [y1_at2, src_at2, dst_at2]
  exact kprop_eq _ _

/-- The second kernel's array. -/
theorem y2_at4 : W4 (F := Ideal) m ρ c (Proc.devRef .tc main_v26) = y2 (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) := by
  refine (W4_arr m ρ c 4).trans ((Region1.value (V3 m ρ) c).trans ?_)
  show lin1 (W3 m ρ c (Proc.devRef .tc main_v25)) (W3 m ρ c (Proc.devRef .tc main_v14)) (W3 m ρ c (Proc.devRef .tc main_arg4)) (W3 m ρ c (Proc.devRef .tc main_arg5)) = _
  rw [agg1_at3, dcol_at3, arg4_at3, arg5_at3]
  rfl

/-- The second propagation step. -/
theorem agg2_at5 : W5 (F := Ideal) m ρ c (Proc.devRef .tc main_v36) = agg2 (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) := by
  refine (step2 (W4 m ρ c)).trans ?_
  rw [y2_at4, src_at4, dst_at4]
  exact kprop_eq _ _

/-- The third kernel's array. -/
theorem y3_at6 : W6 (F := Ideal) m ρ c (Proc.devRef .tc main_v37) = y3 (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  refine (W6_arr m ρ c 4).trans ((Region2.value (V5 m ρ) c).trans ?_)
  show lin1 (W5 m ρ c (Proc.devRef .tc main_v36)) (W5 m ρ c (Proc.devRef .tc main_v14)) (W5 m ρ c (Proc.devRef .tc main_arg6)) (W5 m ρ c (Proc.devRef .tc main_arg7)) = _
  rw [agg2_at5, dcol_at5, arg6_at5, arg7_at5]
  rfl

/-- The third propagation step. -/
theorem agg3_at7 : W7 (F := Ideal) m ρ c (Proc.devRef .tc main_v47) = agg3 (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  refine (step3 (W6 m ρ c)).trans ?_
  rw [y3_at6, src_at6, dst_at6]
  exact kprop_eq _ _

/-- The fourth kernel's array: the node features after the third convolution. -/
theorem h3_at8 : W8 (F := Ideal) m ρ c (Proc.devRef .tc main_v48) = h3 (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  refine (W8_arr m ρ c 3).trans ((Region3.value (V7 m ρ) c).trans ?_)
  show fin3 (W7 m ρ c (Proc.devRef .tc main_v47)) (W7 m ρ c (Proc.devRef .tc main_v14)) (W7 m ρ c (Proc.devRef .tc main_arg8)) = _
  rw [agg3_at7, dcol_at7, arg8_at7]
  rfl

theorem h3_at9 : W9 (F := Ideal) m ρ c (Proc.devRef .tc main_v48) = h3 (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  bh; exact h3_at8 m ρ c

/-- The graph ids as a column. -/
theorem bcol_at9 : W9 (F := Ideal) m ρ c (Proc.devRef .tc main_v49) = bcol (m ((c.tc : Thread nD τ).loc main_arg2)) := by
  have e : W9 (F := Ideal) m ρ c (Proc.devRef .tc main_v49)
      = shapeCast S40000x1 (W8 (F := Ideal) m ρ c (Proc.devRef .tc main_arg2)) Facts₀.shapeCasts_S40000_S40000x1 := by
    show StableHlo.after hostOps4 (W8 m ρ c) (Proc.devRef .tc main_v49) = _
    dsimp only [hostOps4]
    after_results
    rfl
  rw [e, arg2_at8]
  funext i
  obtain ⟨r, u, rfl⟩ : ∃ (r : Fin 40000) (u : Fin 1), i = ix2 r u := ⟨i 0, i 1, eq_ix2 i⟩
  exact Keepdims.shapeCast_a_a1_apply _ _ r u

/-- The pooled sums. -/
theorem sums_at10 : W10 (F := Ideal) m ρ c (Proc.devRef .tc main_v50_0)
    = poolSum (bcol (m ((c.tc : Thread nD τ).loc main_arg2))) (h3 (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))) := by
  refine (W10_arr m ρ c 2).trans ((Region4.value_sum (V9 m ρ) c).trans ?_)
  show poolSum (W9 m ρ c (Proc.devRef .tc main_v49)) (W9 m ρ c (Proc.devRef .tc main_v48)) = _
  rw [bcol_at9, h3_at9]

/-- The graph sizes. -/
theorem cnts_at10 : W10 (F := Ideal) m ρ c (Proc.devRef .tc main_v50_1) = poolCnt (bcol (m ((c.tc : Thread nD τ).loc main_arg2))) := by
  refine (W10_arr m ρ c 3).trans ((Region4.value_cnt (V9 m ρ) c).trans ?_)
  show poolCnt (W9 m ρ c (Proc.devRef .tc main_v49)) = _
  rw [bcol_at9]

/-- The result buffer's contents at the last boundary: the whole computation of the argument arrays. -/
theorem kernel_out :
    W11 (F := Ideal) m ρ c (Proc.devRef .tc main_v58) = kout (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  show StableHlo.after hostOps5 (W10 m ρ c) (Proc.devRef .tc main_v58) = _
  dsimp only [hostOps5]
  after_results
  rw [sums_at10, cnts_at10, arg9_at10, arg10_at10]
  rfl

end Cert.Gcn

end
-- ==== Proof.Decode.lean ====
/-
  The gathers and scatters of the edge list, read at an index.

  A gather `x[idx]` along the node axis reads row `grow w` for a start word `w`: the word read as a signed integer and
  clamped into `0 … 39999`. A scatter-add lands update `e` on row `p` exactly when its index word, read as a signed
  integer and NOT clamped, is `p`; the feature coordinate is carried over unchanged.
-/
import proofs.«428049_j83116207112815_2_alg».proof.Proof.Spec

noncomputable section

namespace Cert.Gcn

open Idealize.ShloMosaic Idealize.ShloMosaic.ValueIdx Cert.KernelIdeal

/-- The row a gather along the node axis reads for the start word `w`: `w` as a signed integer, clamped into `0 … 39999`. -/
def grow (w : BitVec 32) : Fin 40000 := ⟨min w.toInt.toNat 39999, by omega⟩

/-! ## A scatter's landing index, axis by axis -/

/-- A scatter lands update `j` on operand index `r` exactly when, on every operand axis, the signed start plus the
    window coordinate is `r`'s coordinate: the in-range test is then automatic, `r`'s coordinates being in range. -/
theorem resultIdx?_eq_some_iff {s si u : Shape} (d : ScatterDims s si u) {w : Nat} (j : u.Idx) (idx : IVec si w) (r : s.Idx) :
    d.resultIdx? j idx = some r ↔ ∀ a, d.start j idx a + d.window j a = ((r a).val : Int) := by
  constructor
  · intro h a
    unfold ScatterDims.resultIdx? at h
    split at h
    · rename_i hr
      have h' := Option.some.inj h
      have ha : (r a).val = (d.start j idx a + d.window j a).toNat := by rw [← h']
      rw [ha]
      exact (Int.toNat_of_nonneg (hr a).1).symm
    · exact absurd h (by simp)
  · intro hr
    have h : ∀ a, 0 ≤ d.start j idx a + d.window j a ∧ d.start j idx a + d.window j a < s.size a := fun a => by
      rw [hr a]
      exact ⟨Int.natCast_nonneg _, Int.ofNat_lt.mpr (r a).isLt⟩
    unfold ScatterDims.resultIdx?
    rw [dif_pos h]
    congr 1
    funext a
    refine Fin.ext ?_
    show (d.start j idx a + d.window j a).toNat = (r a).val
    rw [hr a]
    exact Int.toNat_natCast _

/-! ## The two gathers -/

/-- The feature gather `y[idx]` at `(e, q)`: row `grow idx[e]`, column `q`. -/
theorem gather2_apply {α : Type} (x : S40000x128.Idx → α) (idx : Arr S680000x1 .i32) (e : Fin 680000) (q : Fin 128) :
    Host.gather Cert.ReferenceIdeal.gather_S40000x128_S680000x1_S680000x128_1_0_n_n_0_1_1128 x idx (ix2 e q)
      = x (ix2 (grow (idx (ix2 e (0 : Fin 1)))) q) := by
  unfold Host.gather
  congr 1
  funext a
  refine Fin.ext ?_
  match a with
  | ⟨0, _⟩ =>
    -- the node axis is collapsed: no batch and no offset coordinate, the start is the clamped index word
    show Cert.ReferenceIdeal.gather_S40000x128_S680000x1_S680000x128_1_0_n_n_0_1_1128.start (ix2 e q) idx 0
        + Cert.ReferenceIdeal.gather_S40000x128_S680000x1_S680000x128_1_0_n_n_0_1_1128.batchCoord (ix2 e q) 0
        + Cert.ReferenceIdeal.gather_S40000x128_S680000x1_S680000x128_1_0_n_n_0_1_1128.offCoord (ix2 e q) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ Cert.ReferenceIdeal.gather_S40000x128_S680000x1_S680000x128_1_0_n_n_0_1_1128.startIndexMap
      from List.mem_singleton.mpr rfl)]
    have hsi : Cert.ReferenceIdeal.gather_S40000x128_S680000x1_S680000x128_1_0_n_n_0_1_1128.siIdx (ix2 e q)
        ⟨List.idxOf (0 : Fin 2) Cert.ReferenceIdeal.gather_S40000x128_S680000x1_S680000x128_1_0_n_n_0_1_1128.startIndexMap,
          List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    -- the feature axis is an offset axis: start 0, no batch coordinate, the offset is the result's column
    show Cert.ReferenceIdeal.gather_S40000x128_S680000x1_S680000x128_1_0_n_n_0_1_1128.start (ix2 e q) idx 1
        + Cert.ReferenceIdeal.gather_S40000x128_S680000x1_S680000x128_1_0_n_n_0_1_1128.batchCoord (ix2 e q) 1
        + Cert.ReferenceIdeal.gather_S40000x128_S680000x1_S680000x128_1_0_n_n_0_1_1128.offCoord (ix2 e q) 1 = q.val
    rw [GatherDims.batchCoord_eq_zero _ _ _ List.not_mem_nil]
    have hs : Cert.ReferenceIdeal.gather_S40000x128_S680000x1_S680000x128_1_0_n_n_0_1_1128.start (ix2 e q) idx 1 = 0 := by
      unfold GatherDims.start
      rw [dif_neg (show (1 : Fin 2) ∉ Cert.ReferenceIdeal.gather_S40000x128_S680000x1_S680000x128_1_0_n_n_0_1_1128.startIndexMap
        from by decide)]
    have ho : Cert.ReferenceIdeal.gather_S40000x128_S680000x1_S680000x128_1_0_n_n_0_1_1128.offCoord (ix2 e q) 1 = q.val := by
      unfold GatherDims.offCoord
      rw [dif_pos (show (1 : Fin 2) ∈ Cert.ReferenceIdeal.gather_S40000x128_S680000x1_S680000x128_1_0_n_n_0_1_1128.sKept
        from by decide)]
      rfl
    rw [hs, ho]
    simp only [Nat.add_zero, Nat.zero_add]

/-- The per-node gather `d[idx]` at `e`: entry `grow idx[e]`. -/
theorem gather1_apply {α : Type} (x : S40000.Idx → α) (idx : Arr S680000x1 .i32) (e : Fin 680000) :
    Host.gather Cert.ReferenceIdeal.gather_S40000_S680000x1_S680000_n_0_n_n_0_1_1 x idx (ix1 e)
      = x (ix1 (grow (idx (ix2 e (0 : Fin 1))))) := by
  unfold Host.gather
  congr 1
  funext a
  refine Fin.ext ?_
  match a with
  | ⟨0, _⟩ =>
    show Cert.ReferenceIdeal.gather_S40000_S680000x1_S680000_n_0_n_n_0_1_1.start (ix1 e) idx 0
        + Cert.ReferenceIdeal.gather_S40000_S680000x1_S680000_n_0_n_n_0_1_1.batchCoord (ix1 e) 0
        + Cert.ReferenceIdeal.gather_S40000_S680000x1_S680000_n_0_n_n_0_1_1.offCoord (ix1 e) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 1) ∈ Cert.ReferenceIdeal.gather_S40000_S680000x1_S680000_n_0_n_n_0_1_1.startIndexMap
      from List.mem_singleton.mpr rfl)]
    have hsi : Cert.ReferenceIdeal.gather_S40000_S680000x1_S680000_n_0_n_n_0_1_1.siIdx (ix1 e)
        ⟨List.idxOf (0 : Fin 1) Cert.ReferenceIdeal.gather_S40000_S680000x1_S680000_n_0_n_n_0_1_1.startIndexMap,
          List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl

/-! ## The three scatters -/

section R

/-- On the row axis the start is the index word read signed: that axis is the one the index vector names. -/
private theorem R_start0 (idx : Arr S680000x1 .i32) (e : Fin 680000) (q : Fin 128) :
    Cert.ReferenceIdeal.scatter_S40000x128_S680000x1_S680000x128_1_0_0_1.start (ix2 e q) idx (0 : Fin 2) = (idx (ix2 e (0 : Fin 1))).toInt := by
  unfold ScatterDims.start
  rw [dif_pos (show (0 : Fin 2) ∈ Cert.ReferenceIdeal.scatter_S40000x128_S680000x1_S680000x128_1_0_0_1.scatterDimsToOperandDims from List.mem_singleton.mpr rfl)]
  have hsi : Cert.ReferenceIdeal.scatter_S40000x128_S680000x1_S680000x128_1_0_0_1.siIdx (ix2 e q) ⟨List.idxOf (0 : Fin 2) Cert.ReferenceIdeal.scatter_S40000x128_S680000x1_S680000x128_1_0_0_1.scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On the feature axis the start is zero: the index vector does not name it. -/
private theorem R_start1 (idx : Arr S680000x1 .i32) (e : Fin 680000) (q : Fin 128) :
    Cert.ReferenceIdeal.scatter_S40000x128_S680000x1_S680000x128_1_0_0_1.start (ix2 e q) idx (1 : Fin 2) = 0 := by
  unfold ScatterDims.start
  rw [dif_neg (show (1 : Fin 2) ∉ Cert.ReferenceIdeal.scatter_S40000x128_S680000x1_S680000x128_1_0_0_1.scatterDimsToOperandDims from by decide)]

/-- The row axis is an inserted window axis: its window coordinate is zero. -/
private theorem R_window0 (e : Fin 680000) (q : Fin 128) : Cert.ReferenceIdeal.scatter_S40000x128_S680000x1_S680000x128_1_0_0_1.window (ix2 e q) (0 : Fin 2) = 0 := by
  unfold ScatterDims.window
  rw [dif_neg (show (0 : Fin 2) ∉ Cert.ReferenceIdeal.scatter_S40000x128_S680000x1_S680000x128_1_0_0_1.sKept from by decide)]

/-- The feature axis carries the update's column as its window coordinate. -/
private theorem R_window1 (e : Fin 680000) (q : Fin 128) : Cert.ReferenceIdeal.scatter_S40000x128_S680000x1_S680000x128_1_0_0_1.window (ix2 e q) (1 : Fin 2) = q.val := by
  unfold ScatterDims.window
  rw [dif_pos (show (1 : Fin 2) ∈ Cert.ReferenceIdeal.scatter_S40000x128_S680000x1_S680000x128_1_0_0_1.sKept from by decide)]
  rfl

/-- The feature scatter lands update `(e, q)` on `(p, q')` iff `idx[e]`, signed, is `p` and `q = q'`. -/
theorem scatterRows_iff (idx : Arr S680000x1 .i32) (e : Fin 680000) (q : Fin 128) (p : Fin 40000) (q' : Fin 128) :
    Cert.ReferenceIdeal.scatter_S40000x128_S680000x1_S680000x128_1_0_0_1.resultIdx? (ix2 e q) idx = some (ix2 p q')
      ↔ ((idx (ix2 e (0 : Fin 1))).toInt = (p.val : Int) ∧ q = q') := by
  rw [resultIdx?_eq_some_iff]
  constructor
  · intro h
    have h0 : (idx (ix2 e (0 : Fin 1))).toInt + ((0 : Nat) : Int) = (p.val : Int) := by
      have := h (0 : Fin 2)
      rwa [R_start0, R_window0] at this
    have h1 : (0 : Int) + (q.val : Int) = (q'.val : Int) := by
      have := h (1 : Fin 2)
      rwa [R_start1, R_window1] at this
    exact ⟨by omega, Fin.ext (by omega)⟩
  · rintro ⟨hw, rfl⟩ a
    match a with
    | ⟨0, _⟩ =>
      show Cert.ReferenceIdeal.scatter_S40000x128_S680000x1_S680000x128_1_0_0_1.start (ix2 e q) idx (0 : Fin 2) + ((Cert.ReferenceIdeal.scatter_S40000x128_S680000x1_S680000x128_1_0_0_1.window (ix2 e q) (0 : Fin 2) : Nat) : Int) = (p.val : Int)
      rw [R_start0, R_window0, hw]
      omega
    | ⟨1, _⟩ =>
      show Cert.ReferenceIdeal.scatter_S40000x128_S680000x1_S680000x128_1_0_0_1.start (ix2 e q) idx (1 : Fin 2) + ((Cert.ReferenceIdeal.scatter_S40000x128_S680000x1_S680000x128_1_0_0_1.window (ix2 e q) (1 : Fin 2) : Nat) : Int) = (q.val : Int)
      rw [R_start1, R_window1]
      omega

end R

section P

/-- On the row axis the start is the index word read signed: that axis is the one the index vector names. -/
private theorem P_start0 (idx : Arr S40000x1 .i32) (e : Fin 40000) (q : Fin 128) :
    Cert.ReferenceIdeal.scatter_S64x128_S40000x1_S40000x128_1_0_0_1.start (ix2 e q) idx (0 : Fin 2) = (idx (ix2 e (0 : Fin 1))).toInt := by
  unfold ScatterDims.start
  rw [dif_pos (show (0 : Fin 2) ∈ Cert.ReferenceIdeal.scatter_S64x128_S40000x1_S40000x128_1_0_0_1.scatterDimsToOperandDims from List.mem_singleton.mpr rfl)]
  have hsi : Cert.ReferenceIdeal.scatter_S64x128_S40000x1_S40000x128_1_0_0_1.siIdx (ix2 e q) ⟨List.idxOf (0 : Fin 2) Cert.ReferenceIdeal.scatter_S64x128_S40000x1_S40000x128_1_0_0_1.scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On the feature axis the start is zero: the index vector does not name it. -/
private theorem P_start1 (idx : Arr S40000x1 .i32) (e : Fin 40000) (q : Fin 128) :
    Cert.ReferenceIdeal.scatter_S64x128_S40000x1_S40000x128_1_0_0_1.start (ix2 e q) idx (1 : Fin 2) = 0 := by
  unfold ScatterDims.start
  rw [dif_neg (show (1 : Fin 2) ∉ Cert.ReferenceIdeal.scatter_S64x128_S40000x1_S40000x128_1_0_0_1.scatterDimsToOperandDims from by decide)]

/-- The row axis is an inserted window axis: its window coordinate is zero. -/
private theorem P_window0 (e : Fin 40000) (q : Fin 128) : Cert.ReferenceIdeal.scatter_S64x128_S40000x1_S40000x128_1_0_0_1.window (ix2 e q) (0 : Fin 2) = 0 := by
  unfold ScatterDims.window
  rw [dif_neg (show (0 : Fin 2) ∉ Cert.ReferenceIdeal.scatter_S64x128_S40000x1_S40000x128_1_0_0_1.sKept from by decide)]

/-- The feature axis carries the update's column as its window coordinate. -/
private theorem P_window1 (e : Fin 40000) (q : Fin 128) : Cert.ReferenceIdeal.scatter_S64x128_S40000x1_S40000x128_1_0_0_1.window (ix2 e q) (1 : Fin 2) = q.val := by
  unfold ScatterDims.window
  rw [dif_pos (show (1 : Fin 2) ∈ Cert.ReferenceIdeal.scatter_S64x128_S40000x1_S40000x128_1_0_0_1.sKept from by decide)]
  rfl

/-- The pooling scatter lands update `(v, q)` on `(g, q')` iff `idx[v]`, signed, is `g` and `q = q'`. -/
theorem scatterPool_iff (idx : Arr S40000x1 .i32) (v : Fin 40000) (q : Fin 128) (g : Fin 64) (q' : Fin 128) :
    Cert.ReferenceIdeal.scatter_S64x128_S40000x1_S40000x128_1_0_0_1.resultIdx? (ix2 v q) idx = some (ix2 g q')
      ↔ ((idx (ix2 v (0 : Fin 1))).toInt = (g.val : Int) ∧ q = q') := by
  rw [resultIdx?_eq_some_iff]
  constructor
  · intro h
    have h0 : (idx (ix2 v (0 : Fin 1))).toInt + ((0 : Nat) : Int) = (g.val : Int) := by
      have := h (0 : Fin 2)
      rwa [P_start0, P_window0] at this
    have h1 : (0 : Int) + (q.val : Int) = (q'.val : Int) := by
      have := h (1 : Fin 2)
      rwa [P_start1, P_window1] at this
    exact ⟨by omega, Fin.ext (by omega)⟩
  · rintro ⟨hw, rfl⟩ a
    match a with
    | ⟨0, _⟩ =>
      show Cert.ReferenceIdeal.scatter_S64x128_S40000x1_S40000x128_1_0_0_1.start (ix2 v q) idx (0 : Fin 2) + ((Cert.ReferenceIdeal.scatter_S64x128_S40000x1_S40000x128_1_0_0_1.window (ix2 v q) (0 : Fin 2) : Nat) : Int) = (g.val : Int)
      rw [P_start0, P_window0, hw]
      omega
    | ⟨1, _⟩ =>
      show Cert.ReferenceIdeal.scatter_S64x128_S40000x1_S40000x128_1_0_0_1.start (ix2 v q) idx (1 : Fin 2) + ((Cert.ReferenceIdeal.scatter_S64x128_S40000x1_S40000x128_1_0_0_1.window (ix2 v q) (1 : Fin 2) : Nat) : Int) = (q.val : Int)
      rw [P_start1, P_window1]
      omega

end P

section C

/-- On the one operand axis the start is the index word read signed. -/
private theorem C_start0 (idx : Arr S40000x1 .i32) (v : Fin 40000) :
    Cert.ReferenceIdeal.scatter_S64_S40000x1_S40000_n_0_0_1.start (ix1 v) idx (0 : Fin 1) = (idx (ix2 v (0 : Fin 1))).toInt := by
  unfold ScatterDims.start
  rw [dif_pos (show (0 : Fin 1) ∈ Cert.ReferenceIdeal.scatter_S64_S40000x1_S40000_n_0_0_1.scatterDimsToOperandDims from List.mem_singleton.mpr rfl)]
  have hsi : Cert.ReferenceIdeal.scatter_S64_S40000x1_S40000_n_0_0_1.siIdx (ix1 v) ⟨List.idxOf (0 : Fin 1) Cert.ReferenceIdeal.scatter_S64_S40000x1_S40000_n_0_0_1.scatterDimsToOperandDims,
      List.idxOf_lt_length_iff.2 (List.mem_singleton.mpr rfl)⟩ = ix2 v (0 : Fin 1) := by
    funext b; refine Fin.ext ?_
    match b with
    | ⟨0, _⟩ => rfl
    | ⟨1, _⟩ => rfl
  rw [hsi]

/-- That axis is an inserted window axis: its window coordinate is zero. -/
private theorem C_window0 (v : Fin 40000) : Cert.ReferenceIdeal.scatter_S64_S40000x1_S40000_n_0_0_1.window (ix1 v) (0 : Fin 1) = 0 := by
  unfold ScatterDims.window
  rw [dif_neg (show (0 : Fin 1) ∉ Cert.ReferenceIdeal.scatter_S64_S40000x1_S40000_n_0_0_1.sKept from by decide)]

/-- The counting scatter lands update `v` on `g` iff `idx[v]`, signed, is `g`. -/
theorem scatterCnt_iff (idx : Arr S40000x1 .i32) (v : Fin 40000) (g : Fin 64) :
    Cert.ReferenceIdeal.scatter_S64_S40000x1_S40000_n_0_0_1.resultIdx? (ix1 v) idx = some (ix1 g)
      ↔ (idx (ix2 v (0 : Fin 1))).toInt = (g.val : Int) := by
  rw [resultIdx?_eq_some_iff]
  constructor
  · intro h
    have h0 : (idx (ix2 v (0 : Fin 1))).toInt + ((0 : Nat) : Int) = (g.val : Int) := by
      have := h (0 : Fin 1)
      rwa [C_start0, C_window0] at this
    omega
  · intro hw a
    match a with
    | ⟨0, _⟩ =>
      show Cert.ReferenceIdeal.scatter_S64_S40000x1_S40000_n_0_0_1.start (ix1 v) idx (0 : Fin 1) + ((Cert.ReferenceIdeal.scatter_S64_S40000x1_S40000_n_0_0_1.window (ix1 v) (0 : Fin 1) : Nat) : Int) = (g.val : Int)
      rw [C_start0, C_window0, hw]
      omega

end C

end Cert.Gcn

end
-- ==== Proof.Layer.lean ====
/-
  One propagation step with the normalising factor moved out of the edge sum.

  For every node `u` and feature `q`:
    (∑_{e : dst e = u} hW (src e, q) · dinv (src e)) · dinv u  =  ∑_{e : dst e = u} hW (src e, q) · (dinv (src e) · dinv (dst e)).
  The factor `dinv u` is a non-negative real, so it distributes over the sum on the extended reals whatever the terms are,
  and on the edges that land on `u` the destination's factor is `dinv u`.
-/
import proofs.«428049_j83116207112815_2_alg».proof.Proof.Decode

noncomputable section

namespace Cert.Gcn

open Idealize.ShloMosaic Idealize.ShloMosaic.ValueIdx Cert.KernelIdeal
open Cert.ReferenceIdeal.Read
open scoped BigOperators

/-! ## The normalising factor is a non-negative real -/

namespace LayerAux

/-- The pattern of `1.0` denotes the extended real `1`. -/
theorem ofBits_one_f32 : Ideal.ofBits .f32 0x3F800000#32 = 1 := by
  simp [Ideal.ofBits, Ideal.ieee, -EReal.coe_mul]; norm_num

/-- For any extended real `y`, `(max y 1)^(-1/2)` is a non-negative real: `max y 1` is never `⊥`, at `⊤` the value is
    `0`, and at a real `r ≥ 1` it is `(√r)⁻¹`. -/
theorem rsqrt_max_one (y : EReal) : ∃ r : ℝ, 0 ≤ r ∧ Ideal.rsqrt (max y 1) = (r : EReal) := by
  have h1 : (1 : EReal) ≤ max y 1 := le_max_right _ _
  generalize max y 1 = z at h1
  induction z using EReal.rec with
  | bot => exact absurd (le_bot_iff.mp h1) (EReal.coe_ne_bot 1)
  | coe r =>
    have hr : (1 : ℝ) ≤ r := by exact_mod_cast h1
    refine ⟨(Real.sqrt r)⁻¹, inv_nonneg.mpr (Real.sqrt_nonneg r), ?_⟩
    rw [Ideal.rsqrt_coe, if_neg (by linarith), if_neg (by linarith)]
  | top => exact ⟨0, le_rfl, by simp⟩

end LayerAux

open LayerAux

/-- `dinv v` is a non-negative real: `(max (deg v) 1)^(-1/2)` with `max (deg v) 1 ≥ 1`. -/
theorem dinv_real (x1 : Arr S2x640000 .i32) (v : Fin 40000) : ∃ r : ℝ, 0 ≤ r ∧ dinv x1 (ix1 v) = (r : EReal) := by
  have h := rsqrt_max_one (val_main_v10 (F := Ideal) x1 (ix1 v))
  show ∃ r : ℝ, 0 ≤ r ∧ val_main_v13 (F := Ideal) x1 (ix1 v) = (r : EReal)
  rw [val_main_v13_apply, val_main_v12_apply, val_main_v11_apply, val_main_cst_1_apply, Ideal.hostUnary_rsqrt_def,
    Ideal.maximumf_def, Ideal.ofBits_def, ofBits_one_f32]
  exact h

namespace LayerAux

/-! ## A non-negative real factor distributes over any finite sum of extended reals -/

/-- `(∑ a) · r = ∑ (a · r)` on the extended reals for a real `r ≥ 0`, whatever the terms are. -/
theorem sum_mul_coe {ι : Type} (s : Finset ι) (a : ι → EReal) (r : ℝ) (hr : 0 ≤ r) :
    (∑ j ∈ s, a j) * (r : EReal) = ∑ j ∈ s, a j * (r : EReal) := by
  classical
  induction s using Finset.induction_on with
  | empty => simp
  | insert j s hj ih =>
    rw [Finset.sum_insert hj, Finset.sum_insert hj,
      EReal.right_distrib_of_nonneg_of_ne_top (by exact_mod_cast hr) (EReal.coe_ne_top r), ih]

/-! ## The edge words read at an edge -/

/-- The column of `dinv` at row `a` is `dinv a`. -/
theorem dcol_apply (x1 : Arr S2x640000 .i32) (a : Fin 40000) : dcol x1 (ix2 a (0 : Fin 1)) = dinv x1 (ix1 a) := rfl

/-- The scatter's base array is `0` everywhere. -/
theorem base_zero (i : S40000x128.Idx) : val_main_v40 (F := Ideal) i = 0 := by
  rw [val_main_v40_apply, val_main_cst_7_apply, Ideal.ofBits_def, Ideal.ofBits_zero_f32]

/-- The destination word of edge `e`. -/
def dstW (x1 : Arr S2x640000 .i32) (e : Fin 680000) : BitVec 32 := val_main_v6 (F := Ideal) x1 (ix1 e)
/-- The source word of edge `e`. -/
def srcW (x1 : Arr S2x640000 .i32) (e : Fin 680000) : BitVec 32 := val_main_v3 (F := Ideal) x1 (ix1 e)

/-- A word `w` with a negative one wrapped by `40000`. -/
def wrap (w : BitVec 32) : BitVec 32 := Scalar.select (IntOp.cmpi .slt w 0#32) (IntOp.addi w 40000#32) w

theorem dstIdx_apply (x1 : Arr S2x640000 .i32) (e : Fin 680000) : dstIdx x1 (ix2 e (0 : Fin 1)) = dstW x1 e := by
  show val_main_v41 (F := Ideal) x1 (ix2 e (0 : Fin 1)) = _
  rw [val_main_v41_apply]
  exact congrArg _ (funext fun a => match a with | ⟨0, _⟩ => rfl)

theorem ndstIdx_apply (x1 : Arr S2x640000 .i32) (e : Fin 680000) : ndstIdx x1 (ix2 e (0 : Fin 1)) = wrap (dstW x1 e) := by
  show val_main_v26 (F := Ideal) x1 (ix2 e (0 : Fin 1)) = _
  have hk : idx_main_v26 (ix2 e (0 : Fin 1)) = ix1 e := funext fun a => match a with | ⟨0, _⟩ => rfl
  rw [val_main_v26_apply, hk, val_main_v25_apply, val_main_v22_apply, val_main_v24_apply, val_main_v21_apply,
    val_main_v23_apply, val_main_c_3_apply, val_main_c_4_apply]
  rfl

theorem srcIdx_apply (x1 : Arr S2x640000 .i32) (e : Fin 680000) : srcIdx x1 (ix2 e (0 : Fin 1)) = wrap (srcW x1 e) := by
  show val_main_v35 (F := Ideal) x1 (ix2 e (0 : Fin 1)) = _
  have hk : idx_main_v35 (ix2 e (0 : Fin 1)) = ix1 e := funext fun a => match a with | ⟨0, _⟩ => rfl
  rw [val_main_v35_apply, hk, val_main_v34_apply, val_main_v31_apply, val_main_v33_apply, val_main_v30_apply,
    val_main_v32_apply, val_main_c_5_apply, val_main_c_6_apply]
  rfl

theorem v19_apply (x1 : Arr S2x640000 .i32) (e : Fin 680000) :
    val_main_v19 (F := Ideal) x1 (ix2 e (0 : Fin 1)) = wrap (srcW x1 e) := by
  have hk : idx_main_v19 (ix2 e (0 : Fin 1)) = ix1 e := funext fun a => match a with | ⟨0, _⟩ => rfl
  rw [val_main_v19_apply, hk, val_main_v18_apply, val_main_v15_apply, val_main_v17_apply, val_main_v14_apply,
    val_main_v16_apply, val_main_c_apply, val_main_c_2_apply]
  rfl

/-- The reference's edge weight at `(e, q)`: `dinv (src e) · dinv (dst e)`, each read through its wrapped word. -/
theorem v38_apply (x1 : Arr S2x640000 .i32) (e : Fin 680000) (q : Fin 128) :
    val_main_v38 (F := Ideal) x1 (ix2 e q)
      = dinv x1 (ix1 (grow (wrap (srcW x1 e)))) * dinv x1 (ix1 (grow (wrap (dstW x1 e)))) := by
  have h38 : idx_main_v38 (ix2 e q) = ix2 e (0 : Fin 1) := funext fun a => match a with | ⟨0, _⟩ => rfl | ⟨1, _⟩ => rfl
  have h37 : idx_main_v37 (ix2 e (0 : Fin 1)) = ix1 e := funext fun a => match a with | ⟨0, _⟩ => rfl
  rw [val_main_v38_apply, h38, val_main_v37_apply, h37, val_main_v28_apply]
  unfold val_main_v20 val_main_v27
  rw [gather1_apply, gather1_apply, v19_apply]
  have hn : val_main_v26 (F := Ideal) x1 (ix2 e (0 : Fin 1)) = wrap (dstW x1 e) := ndstIdx_apply x1 e
  rw [hn]
  rfl

/-- A word that reads as a node `p` when signed is not wrapped, and a gather reads row `p` for it. -/
theorem grow_wrap_of_toInt (w : BitVec 32) (p : Fin 40000) (h : w.toInt = (p.val : Int)) : grow (wrap w) = p := by
  have hc : IntOp.cmpi .slt w 0#32 = 0#1 := by
    unfold IntOp.cmpi
    have : w.slt 0#32 = false := by
      simp only [BitVec.slt, h]
      simp
    rw [this]; rfl
  unfold wrap
  rw [hc, select_zero]
  apply Fin.ext
  show min w.toInt.toNat 39999 = p.val
  rw [h, Int.toNat_natCast]
  have := p.isLt
  omega

end LayerAux

/-! ## The step -/

/-- The step with the factor outside equals the reference's step with the factor on every edge. -/
theorem layer (x1 : Arr S2x640000 .i32) (hW : Arr S40000x128 .f32) (i : S40000x128.Idx) :
    prop x1 (fun j => hW j * dcol x1 (ix2 (j 0) (0 : Fin 1))) i * dcol x1 (ix2 (i 0) (0 : Fin 1)) = refProp x1 hW i := by
  obtain ⟨p, q', rfl⟩ : ∃ (p : Fin 40000) (q' : Fin 128), i = ix2 p q' := ⟨i 0, i 1, eq_ix2 i⟩
  obtain ⟨r, hr0, hr⟩ := dinv_real x1 p
  show prop x1 (fun j => hW j * dcol x1 (ix2 (j 0) (0 : Fin 1))) (ix2 p q') * dcol x1 (ix2 p (0 : Fin 1))
    = refProp x1 hW (ix2 p q')
  rw [dcol_apply, hr]
  unfold prop refProp Host.scatterAdd
  simp only [Ideal.hostScatterAdd_def, Ideal.hostScatterAdd]
  rw [base_zero, zero_add, zero_add, sum_mul_coe _ _ r hr0]
  refine Finset.sum_congr rfl fun j hj => ?_
  obtain ⟨e, q, rfl⟩ : ∃ (e : Fin 680000) (q : Fin 128), j = ix2 e q := ⟨j 0, j 1, eq_ix2 j⟩
  obtain ⟨hd, -⟩ := (scatterRows_iff (dstIdx x1) e q p q').mp (Finset.mem_filter.mp hj).2
  rw [dstIdx_apply] at hd
  rw [gather2_apply, mulf_apply, gather2_apply, v38_apply, grow_wrap_of_toInt _ p hd, srcIdx_apply]
  show hW (ix2 (grow (wrap (srcW x1 e))) q) * dinv x1 (ix1 (grow (wrap (srcW x1 e)))) * (r : EReal) = _
  rw [hr, mul_assoc]

end Cert.Gcn

end
-- ==== Proof.Pool.lean ====
/-
  The mean pool's sums and counts as scatter-adds.

  `∑_v [graph v = g] · h (v, d)` is the scatter-add of the rows of `h` into 64 rows by graph id, from zero; an id outside
  `0 … 63` matches no graph on one side and is dropped on the other. The counts are the same with every row `1`.
-/
import proofs.«428049_j83116207112815_2_alg».proof.Proof.Decode
import Idealize.ShloMosaic.Lib.ValueIdxRank1
import Idealize.ShloMosaic.PureOps.Ideal.Laws

noncomputable section

namespace Cert.Gcn

open Idealize.ShloMosaic Idealize.ShloMosaic.ValueIdx Cert.KernelIdeal
open scoped BigOperators

/-- A word read as a signed integer is the graph number `g < 64` exactly when it is the word of `g`: both say the
    word's unsigned value is `g`, since `g` is far below `2^31`. -/
theorem toInt_eq_graph_iff (w : BitVec 32) (g : Fin 64) :
    w.toInt = (g.val : Int) ↔ w = BitVec.ofNat 32 g.val := by
  have hg := g.isLt
  have hw := w.isLt
  have hmod : g.val % 2 ^ 32 = g.val := Nat.mod_eq_of_lt (by omega)
  rw [← BitVec.toNat_inj, BitVec.toNat_ofNat, BitVec.toInt_eq_toNat_cond, hmod]
  split_ifs <;> omega

/-- The pattern `0x3F800000` is the number one: sign `0`, biased exponent `127`, fraction `0`. -/
theorem ofBits_one_f32 : Ideal.ofBits .f32 0x3F800000#32 = 1 := by
  simp [Ideal.ofBits, Ideal.ieee, -EReal.coe_mul]; norm_num

/-- The graph ids broadcast to a column, read at row `v`: the id of node `v` (the sums' scatter indices). -/
theorem v83_at (x2 : Arr S40000 .i32) (v : Fin 40000) :
    Cert.ReferenceIdeal.Read.val_main_v83 (F := Ideal) x2 (ix2 v (0 : Fin 1)) = x2 (ix1 v) := by
  rw [Cert.ReferenceIdeal.Read.val_main_v83_apply]
  congr 1
  funext a
  match a with
  | ⟨0, _⟩ => rfl

/-- The same column, as the counts' scatter indices. -/
theorem v87_at (x2 : Arr S40000 .i32) (v : Fin 40000) :
    Cert.ReferenceIdeal.Read.val_main_v87 (F := Ideal) x2 (ix2 v (0 : Fin 1)) = x2 (ix1 v) := by
  rw [Cert.ReferenceIdeal.Read.val_main_v87_apply]
  congr 1
  funext a
  match a with
  | ⟨0, _⟩ => rfl

/-- The membership weight `[graph v = g]` in terms of the id read as a signed integer. -/
theorem oh_bcol (x2 : Arr S40000 .i32) (v : Fin 40000) (g : Fin 64) :
    oh (bcol x2) v g = if (x2 (ix1 v)).toInt = (g.val : Int) then 1 else 0 := by
  unfold oh
  have hb : bcol x2 (ix2 v (0 : Fin 1)) = x2 (ix1 v) := rfl
  rw [hb]
  by_cases hP : (x2 (ix1 v)).toInt = (g.val : Int)
  · rw [if_pos hP, if_pos ((toInt_eq_graph_iff _ g).mp hP)]
  · rw [if_neg hP, if_neg (fun e => hP ((toInt_eq_graph_iff _ g).mpr e))]

/-- The pooled sums are the reference's scatter-add of `h` by graph id. -/
theorem poolSum_eq (x2 : Arr S40000 .i32) (h : Arr S40000x128 .f32) :
    poolSum (bcol x2) h
      = Host.scatterAdd (F := Ideal) (φ := .f32) Cert.ReferenceIdeal.scatter_S64x128_S40000x1_S40000x128_1_0_0_1
          (Cert.ReferenceIdeal.Read.val_main_v82 (F := Ideal)) (Cert.ReferenceIdeal.Read.val_main_v83 (F := Ideal) x2) h := by
  funext i
  obtain ⟨g, d, rfl⟩ : ∃ (g : Fin 64) (d : Fin 128), i = ix2 g d := ⟨i 0, i 1, eq_ix2 i⟩
  unfold Host.scatterAdd
  rw [Ideal.hostScatterAdd_def]
  unfold Ideal.hostScatterAdd
  -- the scatter starts from zero
  rw [Cert.ReferenceIdeal.Read.val_main_v82_apply, Cert.ReferenceIdeal.Read.val_main_cst_14_apply, Ideal.ofBits_def,
    Ideal.ofBits_zero_f32, zero_add]
  -- the updates that land on `(g, d)`, as a double sum over node and feature
  rw [Finset.sum_filter, sum_idx2]
  show ∑ v : Fin 40000, oh (bcol x2) v g * h (ix2 v d) = _
  refine Finset.sum_congr rfl fun v _ => ?_
  simp only [scatterPool_iff, v83_at]
  rw [oh_bcol]
  by_cases hP : (x2 (ix1 v)).toInt = (g.val : Int)
  · simp only [hP, true_and, Finset.sum_ite_eq', Finset.mem_univ, if_true, one_mul]
  · simp only [hP, false_and, if_false, Finset.sum_const_zero, zero_mul]

/-- The graph sizes are the reference's scatter-add of ones by graph id. -/
theorem poolCnt_eq (x2 : Arr S40000 .i32) (g : Fin 64) :
    poolCnt (bcol x2) (ix2 g (0 : Fin 1)) = Cert.ReferenceIdeal.Read.val_main_v88 (F := Ideal) x2 (ix1 g) := by
  unfold Cert.ReferenceIdeal.Read.val_main_v88 Host.scatterAdd
  rw [Ideal.hostScatterAdd_def]
  unfold Ideal.hostScatterAdd
  -- the scatter starts from zero
  rw [Cert.ReferenceIdeal.Read.val_main_v86_apply, Cert.ReferenceIdeal.Read.val_main_cst_16_apply, Ideal.ofBits_def,
    Ideal.ofBits_zero_f32, zero_add]
  -- the updates that land on `g`, as a sum over the nodes
  rw [Finset.sum_filter, ← Equiv.sum_comp (idxEquiv1 (n := 40000)).symm]
  show ∑ v : Fin 40000, oh (bcol x2) v g = _
  refine Finset.sum_congr rfl fun v _ => ?_
  show _ = if Cert.ReferenceIdeal.scatter_S64_S40000x1_S40000_n_0_0_1.resultIdx? (ix1 v)
      (Cert.ReferenceIdeal.Read.val_main_v87 (F := Ideal) x2) = some (ix1 g)
    then Cert.ReferenceIdeal.Read.val_main_v85 (F := Ideal) (ix1 v) else 0
  -- every update is one
  rw [Cert.ReferenceIdeal.Read.val_main_v85_apply, Cert.ReferenceIdeal.Read.val_main_cst_15_apply, Ideal.ofBits_def,
    ofBits_one_f32, oh_bcol]
  simp only [scatterCnt_iff, v87_at]

end Cert.Gcn

end
-- ==== Proof.Bridge.lean ====
/-
  The two programs compute one function. Layer by layer the kernel's propagated array times `dinv` is the reference's
  propagated array (the normalising factor moved out of the edge sum), so the activations, the matrix products and the
  third layer's features agree; the pooled sums and counts are the reference's scatter-adds by graph id; and the head is
  the same operations on both sides.
-/
import proofs.«428049_j83116207112815_2_alg».proof.Proof.Layer
import proofs.«428049_j83116207112815_2_alg».proof.Proof.Pool
import Idealize.ShloMosaic.PureOps.Ideal.Laws
import Idealize.ShloMosaic.Lib.Pipeline.Value

set_option maxRecDepth 16384

noncomputable section

namespace Cert.Gcn

open Idealize.ShloMosaic Idealize.ShloMosaic.ValueIdx Cert.KernelIdeal Cert.KernelIdeal.Facts₀
open Cert.ReferenceIdeal.Read
open scoped BigOperators

section
variable (x0 : Arr S40000x7 .f32) (x1 : Arr S2x640000 .i32) (x2 : Arr S40000 .i32) (x3 : Arr S7x128 .f32) (x4 : Arr S128 .f32)
  (x5 : Arr S128x128 .f32) (x6 : Arr S128 .f32) (x7 : Arr S128x128 .f32) (x8 : Arr S128 .f32) (x9 : Arr S128x2 .f32) (x10 : Arr S2 .f32)

/-! ## The reference's three propagation stages are `refProp` of the three matrix products -/

private theorem v42_eq : val_main_v42 (F := Ideal) x0 x1 x3 = refProp x1 (val_main_v29 (F := Ideal) x0 x3) := rfl

private theorem v60_eq : val_main_v60 (F := Ideal) x0 x1 x3 x4 x5 = refProp x1 (val_main_v47 (F := Ideal) x0 x1 x3 x4 x5) := rfl

private theorem v78_eq : val_main_v78 (F := Ideal) x0 x1 x3 x4 x5 x6 x7 = refProp x1 (val_main_v65 (F := Ideal) x0 x1 x3 x4 x5 x6 x7) := rfl

/-! ## The first matrix product and the first propagation -/

private theorem y1_eq : y1 x0 x1 x3 = fun j => val_main_v29 (F := Ideal) x0 x3 j * dcol x1 (ix2 (j 0) (0 : Fin 1)) := by
  funext j
  rw [val_main_v29_apply]
  have el : ∀ k : Fin 7, lidx_main_v29 j k = ix2 (j 0) k := fun k => funext fun a => by
    match a with
    | ⟨0, _⟩ => rfl
    | ⟨1, _⟩ => rfl
  have er : ∀ k : Fin 7, ridx_main_v29 j k = ix2 k (j 1) := fun k => funext fun a => by
    match a with
    | ⟨0, _⟩ => rfl
    | ⟨1, _⟩ => rfl
  simp only [el, er]
  rfl

private theorem agg1_eq (i : S40000x128.Idx) :
    agg1 x0 x1 x3 i * dcol x1 (ix2 (i 0) (0 : Fin 1)) = val_main_v42 (F := Ideal) x0 x1 x3 i := by
  rw [v42_eq]
  unfold agg1
  rw [y1_eq]
  exact layer x1 _ i

/-! ## A middle layer, over an abstract previous pair -/

/-- If the previous propagated array times `dinv` is `o`, the reference's activation `a` reads `max (o + b) 0` and its
    matrix product `hW` reads `∑ k, a (p, k) · W (k, q)`, then the next propagated array times `dinv` is `refProp hW`. -/
private theorem mid_step (agg o a hW : Arr S40000x128 .f32) (b : Arr S128 .f32) (W : Arr S128x128 .f32)
    (h : ∀ i : S40000x128.Idx, agg i * dcol x1 (ix2 (i 0) (0 : Fin 1)) = o i)
    (ha : ∀ (p : Fin 40000) (k : Fin 128), a (ix2 p k) = max (o (ix2 p k) + b (ix1 k)) 0)
    (hd : ∀ i : S40000x128.Idx, hW i = ∑ k : Fin 128, a (ix2 (i 0) k) * W (ix2 k (i 1))) (i : S40000x128.Idx) :
    prop x1 (lin1 agg (dcol x1) b W) i * dcol x1 (ix2 (i 0) (0 : Fin 1)) = refProp x1 hW i := by
  have e : ∀ (p : Fin 40000) (k : Fin 128), act agg (dcol x1) b p k = a (ix2 p k) := by
    intro p k
    rw [ha p k, ← h (ix2 p k)]
    rfl
  have hl : lin1 agg (dcol x1) b W = fun j => hW j * dcol x1 (ix2 (j 0) (0 : Fin 1)) := by
    funext j
    rw [hd j]
    show (∑ k : Fin 128, act agg (dcol x1) b (j 0) k * W (ix2 k (j 1))) * dcol x1 (ix2 (j 0) (0 : Fin 1)) = _
    exact congrArg (· * dcol x1 (ix2 (j 0) (0 : Fin 1))) (Finset.sum_congr rfl fun k _ => congrArg (· * W (ix2 k (j 1))) (e (j 0) k))
  rw [hl]
  exact layer x1 hW i

/-! ## The reference's activations and matrix products, read at an index -/

private theorem bias_idx (p : Fin 40000) (k : Fin 128) : idx_main_v43 (idx_main_v44 (ix2 p k)) = ix1 k := funext fun a => by
  match a with
  | ⟨0, _⟩ => rfl

private theorem v46_read (p : Fin 40000) (k : Fin 128) :
    val_main_v46 (F := Ideal) x0 x1 x3 x4 (ix2 p k) = max (val_main_v42 (F := Ideal) x0 x1 x3 (ix2 p k) + x4 (ix1 k)) 0 := by
  rw [val_main_v46_apply, val_main_v45_apply, val_main_v44_apply, val_main_v43_apply, val_main_call0_v0_apply, val_main_call0_cst_apply,
    Ideal.maximumf_def, Ideal.addf_def, Ideal.ofBits_def, Ideal.ofBits_zero_f32, bias_idx]

private theorem v47_read (i : S40000x128.Idx) :
    val_main_v47 (F := Ideal) x0 x1 x3 x4 x5 i = ∑ k : Fin 128, val_main_v46 (F := Ideal) x0 x1 x3 x4 (ix2 (i 0) k) * x5 (ix2 k (i 1)) := by
  rw [val_main_v47_apply]
  have el : ∀ k : Fin 128, lidx_main_v47 i k = ix2 (i 0) k := fun k => funext fun a => by
    match a with
    | ⟨0, _⟩ => rfl
    | ⟨1, _⟩ => rfl
  have er : ∀ k : Fin 128, ridx_main_v47 i k = ix2 k (i 1) := fun k => funext fun a => by
    match a with
    | ⟨0, _⟩ => rfl
    | ⟨1, _⟩ => rfl
  simp only [el, er]
  rfl

private theorem agg2_eq (i : S40000x128.Idx) :
    agg2 x0 x1 x3 x4 x5 i * dcol x1 (ix2 (i 0) (0 : Fin 1)) = val_main_v60 (F := Ideal) x0 x1 x3 x4 x5 i := by
  rw [v60_eq]
  exact mid_step x1 _ _ _ _ x4 x5 (agg1_eq x0 x1 x3) (v46_read x0 x1 x3 x4) (v47_read x0 x1 x3 x4 x5) i

private theorem bias_idx2 (p : Fin 40000) (k : Fin 128) : idx_main_v61 (idx_main_v62 (ix2 p k)) = ix1 k := funext fun a => by
  match a with
  | ⟨0, _⟩ => rfl

private theorem v64_read (p : Fin 40000) (k : Fin 128) :
    val_main_v64 (F := Ideal) x0 x1 x3 x4 x5 x6 (ix2 p k) = max (val_main_v60 (F := Ideal) x0 x1 x3 x4 x5 (ix2 p k) + x6 (ix1 k)) 0 := by
  rw [val_main_v64_apply, val_main_v63_apply, val_main_v62_apply, val_main_v61_apply, val_main_call1_v0_apply, val_main_call1_cst_apply,
    Ideal.maximumf_def, Ideal.addf_def, Ideal.ofBits_def, Ideal.ofBits_zero_f32, bias_idx2]

private theorem v65_read (i : S40000x128.Idx) :
    val_main_v65 (F := Ideal) x0 x1 x3 x4 x5 x6 x7 i = ∑ k : Fin 128, val_main_v64 (F := Ideal) x0 x1 x3 x4 x5 x6 (ix2 (i 0) k) * x7 (ix2 k (i 1)) := by
  rw [val_main_v65_apply]
  have el : ∀ k : Fin 128, lidx_main_v65 i k = ix2 (i 0) k := fun k => funext fun a => by
    match a with
    | ⟨0, _⟩ => rfl
    | ⟨1, _⟩ => rfl
  have er : ∀ k : Fin 128, ridx_main_v65 i k = ix2 k (i 1) := fun k => funext fun a => by
    match a with
    | ⟨0, _⟩ => rfl
    | ⟨1, _⟩ => rfl
  simp only [el, er]
  rfl

private theorem agg3_eq (i : S40000x128.Idx) :
    agg3 x0 x1 x3 x4 x5 x6 x7 i * dcol x1 (ix2 (i 0) (0 : Fin 1)) = val_main_v78 (F := Ideal) x0 x1 x3 x4 x5 x6 x7 i := by
  rw [v78_eq]
  exact mid_step x1 _ _ _ _ x6 x7 (agg2_eq x0 x1 x3 x4 x5) (v64_read x0 x1 x3 x4 x5 x6) (v65_read x0 x1 x3 x4 x5 x6 x7) i

/-! ## The third layer's features, the pool and the head -/

private theorem h3_eq : h3 x0 x1 x3 x4 x5 x6 x7 x8 = val_main_v81 (F := Ideal) x0 x1 x3 x4 x5 x6 x7 x8 := by
  funext i
  rw [val_main_v81_apply, val_main_v80_apply, val_main_v79_apply, Ideal.addf_def, ← agg3_eq]
  have hb : idx_main_v79 (idx_main_v80 i) = ix1 (i 1) := funext fun a => by
    match a with
    | ⟨0, _⟩ => rfl
  rw [hb]
  rfl

private theorem sum_eq : poolSum (bcol x2) (h3 x0 x1 x3 x4 x5 x6 x7 x8) = val_main_v84 (F := Ideal) x0 x1 x2 x3 x4 x5 x6 x7 x8 := by
  rw [poolSum_eq, h3_eq]
  rfl

/-- The divisor column: `max count 1` on both sides. -/
private theorem cnt_eq : maximumf (F := Ideal) (poolCnt (bcol x2)) (broadcastInDim S64x1 ![] bcast_S_S64x1 (constant (F := Ideal) S_ .f32 0x3F800000#32))
    = val_main_v91 (F := Ideal) x2 := by
  funext i
  rw [val_main_v91_apply, val_main_v90_apply, val_main_v89_apply, val_main_cst_17_apply]
  have hi : i = ix2 (i 0) (0 : Fin 1) := funext fun a => by
    match a with
    | ⟨0, _⟩ => rfl
    | ⟨1, _⟩ => exact Subsingleton.elim (α := Fin 1) _ _
  have hg : idx_main_v91 i = @ix1 64 (i 0) := funext fun a => by
    match a with
    | ⟨0, _⟩ => rfl
  have hc : poolCnt (bcol x2) i = val_main_v88 (F := Ideal) x2 (ix1 (i 0)) :=
    (congrArg (poolCnt (bcol x2)) hi).trans (poolCnt_eq x2 (i 0))
  rw [hg, ← hc]
  rfl

/-- The kernel's whole computation is the reference's last stage. -/
theorem bridge : kout x0 x1 x2 x3 x4 x5 x6 x7 x8 x9 x10 = Cert.ReferenceIdeal.Read.val_main_v97 (F := Ideal) x0 x1 x2 x3 x4 x5 x6 x7 x8 x9 x10 := by
  unfold kout
  rw [sum_eq]
  unfold head
  rw [cnt_eq]
  rfl

end

end Cert.Gcn

end
-- ==== Proof.lean ====
/-
  A three-layer graph convolution with mean pooling and a linear head: the Pallas kernel program against its jnp
  reference, equal over the extended reals.

  The reference weights every edge's message by `dinv (src) · dinv (dst)` inside the edge sum; the kernel program scales
  the node features by `dinv` once before each gather and once after each scatter-add, fuses the bias, the activation and
  the next layer's matrix product into its row-tiled kernels, and pools by a one-hot matrix product accumulated over
  eight row tiles. `dinv` is a non-negative real, so it moves out of the edge sum on the extended reals whatever the
  features are; a one-hot product is the scatter-add by graph id. Hence both programs end with the same [64, 2] array.

  The three frames: the two kernel programs' are their run theorems; the reference's is its run with the result dropped.
  The kernel program is printed as its own idealization (no rewrite applied), so `preserves` has nothing to state.
-/
import proofs.«428049_j83116207112815_2_alg».proof.Defs
import proofs.«428049_j83116207112815_2_alg».proof.Proof.Gen.Kernel
import proofs.«428049_j83116207112815_2_alg».proof.Proof.Gen.Kernel.Skeleton
import proofs.«428049_j83116207112815_2_alg».proof.Proof.Gen.Kernel.Launch
import proofs.«428049_j83116207112815_2_alg».proof.Proof.Gen.Kernel.Points
import proofs.«428049_j83116207112815_2_alg».proof.Proof.Gen.Kernel.Frame
import proofs.«428049_j83116207112815_2_alg».proof.Proof.Gen.KernelIdeal
import proofs.«428049_j83116207112815_2_alg».proof.Proof.Gen.KernelIdeal.Skeleton
import proofs.«428049_j83116207112815_2_alg».proof.Proof.Gen.KernelIdeal.Launch
import proofs.«428049_j83116207112815_2_alg».proof.Proof.Gen.KernelIdeal.Points
import proofs.«428049_j83116207112815_2_alg».proof.Proof.Gen.KernelIdeal.Frame
import proofs.«428049_j83116207112815_2_alg».proof.Proof.Gen.ReferenceIdeal
import proofs.«428049_j83116207112815_2_alg».proof.Proof.Gen.Pre_finite_inputs
import proofs.«428049_j83116207112815_2_alg».proof.Proof.Gen.ReferenceIdeal.Run
import proofs.«428049_j83116207112815_2_alg».proof.Proof.Gen.ReferenceIdeal.Read
import proofs.«428049_j83116207112815_2_alg».proof.Proof.KernelRun
import proofs.«428049_j83116207112815_2_alg».proof.Proof.KernelValue
import proofs.«428049_j83116207112815_2_alg».proof.Proof.Bridge
import Idealize.ShloMosaic.Adequacy
import Idealize.ShloMosaic.Init

noncomputable section

namespace Cert.Proof

open Idealize.ShloMosaic Idealize.ShloMosaic.TcCoe Idealize.SL.Sem

/-- From memories agreeing on the arguments both idealized programs run to the end, the kernel program's result buffer at
    the whole computation `kout` of the arguments (its run, read back) and the reference's at its last stage of the same
    arguments (its generated run): one function, by the bridge. -/
theorem algebraic : Cert.algebraic_KernelIdeal_ReferenceIdeal := by
  intro m ρ m' ρ' _ hagree
  refine ⟨fun c => Cert.Gcn.kout (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)), ?_, ?_⟩
  · exact (θ_run Cert.KernelIdeal.defs _ _).mono (fun r h c => ⟨(h c).1.trans (Cert.Gcn.kernel_out m ρ c), (h c).2⟩)
      (Cert.KernelIdeal.GenRun.run_out (F := Ideal) m ρ)
  · refine (θ_run Cert.ReferenceIdeal.defs _ _).mono (fun r h c => ⟨(h c).1.trans ?_, (h c).2⟩)
      (Cert.ReferenceIdeal.Value.run (F := Ideal) m' ρ')
    obtain ⟨h0, h1, h2, h3, h4, h5, h6, h7, h8, h9, h10⟩ := hagree c
    rw [Cert.ReferenceIdeal.Read.val_main_v97_eq, h0, h1, h2, h3, h4, h5, h6, h7, h8, h9, h10]
    exact (Cert.Gcn.bridge _ _ _ _ _ _ _ _ _ _ _).symm

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.Value.run (F := Ideal) m ρ),
  trivial,
  algebraic⟩

end Cert.Proof

end
